-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S2x800000 : Shape := ⟨2, ![2, 800000]⟩
abbrev S4 : Shape := ⟨1, ![4]⟩
abbrev S4x32 : Shape := ⟨2, ![4, 32]⟩
abbrev S32 : Shape := ⟨1, ![32]⟩
abbrev S32x32 : Shape := ⟨2, ![32, 32]⟩
abbrev S64x32 : Shape := ⟨2, ![64, 32]⟩
abbrev S32x2 : Shape := ⟨2, ![32, 2]⟩
abbrev S2 : Shape := ⟨1, ![2]⟩
abbrev S32x4 : Shape := ⟨2, ![32, 4]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S4 : S_.BroadcastsInDim S4 (![] : Fin 0 → Fin S4.rank)
  reducesTo_S4_S_d0 : S4.ReducesTo [0] S_
  bcast_S_S4x32 : S_.BroadcastsInDim S4x32 (![] : Fin 0 → Fin S4x32.rank)
  reducesTo_S4x32_S_d0_1 : S4x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S64x32 : S_.BroadcastsInDim S64x32 (![] : Fin 0 → Fin S64x32.rank)
  reducesTo_S64x32_S_d0_1 : S64x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S32x4 : S_.BroadcastsInDim S32x4 (![] : Fin 0 → Fin S32x4.rank)
  reducesTo_S32x4_S_d0_1 : S32x4.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part8 {F : FTy → Type} [FloatOps F] (main_arg1 : IVec S2x800000 32) (main_v133 : IVec S_ 1) (main_v135 : IVec S2x800000 1) (main_c_53 : IVec S_ 32) : IVec S_ 1 :=
  let main_v136 : IVec S2x800000 32 := broadcastInDim S2x800000 ![] bcast_S_S2x800000 main_c_53
  let main_v137 : IVec S2x800000 1 := cmpi .slt main_arg1 main_v136
  let main_v138 : IVec S2x800000 1 := andi main_v135 main_v137
  let main_c_54 : IVec S_ 1 := constantI S_ 1 1#1
  let main_v139 : IVec S_ 1 := (fun x v => Host.reduce IntOp.andi x v reducesTo_S2x800000_S_d0_1 h_S_) main_v138 main_c_54
  let main_v140 : IVec S_ 1 := andi main_v133 main_v139
  main_v140

def fn_part7 {F : FTy → Type} [FloatOps F] (main_arg1 : IVec S2x800000 32) (main_arg26 : FVec F S32x4 .f32) (main_arg27 : FVec F S4 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x4 .f32 := Host.absf main_arg26
  let main_cst_48 : FVec F S_ .f32 := constant S_ .f32 0x7F800000#32
  let main_v125 : FVec F S32x4 .f32 := broadcastInDim S32x4 ![] bcast_S_S32x4 main_cst_48
  let main_v126 : IVec S32x4 1 := cmpf .olt main_v124 main_v125
  let main_c_49 : IVec S_ 1 := constantI S_ 1 1#1
  let main_v127 : IVec S_ 1 := (fun x v => Host.reduce IntOp.andi x v reducesTo_S32x4_S_d0_1 h_S_) main_v126 main_c_49
  let main_v128 : IVec S_ 1 := andi main_v123 main_v127
  let main_v129 : FVec F S4 .f32 := Host.absf main_arg27
  let main_cst_50 : FVec F S_ .f32 := constant S_ .f32 0x7F800000#32
  let main_v130 : FVec F S4 .f32 := broadcastInDim S4 ![] bcast_S_S4 main_cst_50
  let main_v131 : IVec S4 1 := cmpf .olt main_v129 main_v130
  let main_c_51 : IVec S_ 1 := constantI S_ 1 1#1
  let main_v132 : IVec S_ 1 := (fun x v => Host.reduce IntOp.andi x v reducesTo_S4_S_d0 h_S_) main_v131 main_c_51
  let main_v133 : IVec S_ 1 := andi main_v128 main_v132
  let main_c_52 : IVec S_ 32 := constantI S_ 32 0#32
  let main_v134 : IVec S2x800000 32 := broadcastInDim S2x800000 ![] bcast_S_S2x800000 main_c_52
  let main_v135 : IVec S2x800000 1 := cmpi .sge main_arg1 main_v134
  let main_c_53 : IVec S_ 32 := constantI S_ 32 50000#32
  fn_part8 (F := F) main_arg1 main_v133 main_v135 main_c_53

def fn_part6 {F : FTy → Type} [FloatOps F] (main_arg1 : IVec S2x800000 32) (main_arg22 : FVec F S32x32 .f32) (main_arg23 : FVec F S32 .f32) (main_arg24 : FVec F S32x32 .f32) (main_arg25 : FVec F S32 .f32) (main_arg26 : FVec F S32x4 .f32) (main_arg27 : FVec F S4 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x32 .f32 := Host.absf main_arg22
  let main_cst_40 : FVec F S_ .f32 := constant S_ .f32 0x7F800000#32
  let main_v105 : FVec F S32x32 .f32 := broadcastInDim S32x32 ![] bcast_S_S32x32 main_cst_40
  let main_v106 : IVec S32x32 1 := cmpf .olt main_v104 main_v105
  let main_c_41 : IVec S_ 1 := constantI S_ 1 1#1
  let main_v107 : IVec S_ 1 := (fun x v => Host.reduce IntOp.andi x v reducesTo_S32x32_S_d0_1 h_S_) main_v106 main_c_41
  let main_v108 : IVec S_ 1 := andi main_v103 main_v107
  let main_v109 : FVec F S32 .f32 := Host.absf main_arg23
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32x32 .f32 := Host.absf main_arg24
  let main_cst_44 : FVec F S_ .f32 := constant S_ .f32 0x7F800000#32
  let main_v115 : FVec F S32x32 .f32 := broadcastInDim S32x32 ![] bcast_S_S32x32 main_cst_44
  let main_v116 : IVec S32x32 1 := cmpf .olt main_v114 main_v115
  let main_c_45 : IVec S_ 1 := constantI S_ 1 1#1
  let main_v117 : IVec S_ 1 := (fun x v => Host.reduce IntOp.andi x v reducesTo_S32x32_S_d0_1 h_S_) main_v116 main_c_45
  let main_v118 : IVec S_ 1 := andi main_v113 main_v117
  let main_v119 : FVec F S32 .f32 := Host.absf main_arg25
  fn_part7 (F := F) main_arg1 main_arg26 main_arg27 main_v118 main_v119

def fn_part5 {F : FTy → Type} [FloatOps F] (main_arg1 : IVec S2x800000 32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x4 .f32) (main_arg27 : FVec F S4 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg20
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg21
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg1 main_arg22 main_arg23 main_arg24 main_arg25 main_arg26 main_arg27 main_v98 main_v101 main_c_39

def fn_part4 {F : FTy → Type} [FloatOps F] (main_arg1 : IVec S2x800000 32) (main_arg15 : FVec F S2 .f32) (main_arg16 : FVec F S4x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x4 .f32) (main_arg27 : FVec F S4 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  let main_v74 : FVec F S4x32 .f32 := Host.absf main_arg16
  let main_cst_28 : FVec F S_ .f32 := constant S_ .f32 0x7F800000#32
  let main_v75 : FVec F S4x32 .f32 := broadcastInDim S4x32 ![] bcast_S_S4x32 main_cst_28
  let main_v76 : IVec S4x32 1 := cmpf .olt main_v74 main_v75
  let main_c_29 : IVec S_ 1 := constantI S_ 1 1#1
  let main_v77 : IVec S_ 1 := (fun x v => Host.reduce IntOp.andi x v reducesTo_S4x32_S_d0_1 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg18
  let main_cst_32 : FVec F S_ .f32 := constant S_ .f32 0x7F800000#32
  fn_part5 (F := F) main_arg1 main_arg19 main_arg20 main_arg21 main_arg22 main_arg23 main_arg24 main_arg25 main_arg26 main_arg27 main_v83 main_v84 main_cst_32

def fn_part3 {F : FTy → Type} [FloatOps F] (main_arg1 : IVec S2x800000 32) (main_arg12 : FVec F S32x32 .f32) (main_arg13 : FVec F S32 .f32) (main_arg14 : FVec F S32x2 .f32) (main_arg15 : FVec F S2 .f32) (main_arg16 : FVec F S4x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x4 .f32) (main_arg27 : FVec F S4 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg12
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg13
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x2 .f32 := Host.absf main_arg14
  let main_cst_24 : FVec F S_ .f32 := constant S_ .f32 0x7F800000#32
  let main_v65 : FVec F S32x2 .f32 := broadcastInDim S32x2 ![] bcast_S_S32x2 main_cst_24
  let main_v66 : IVec S32x2 1 := cmpf .olt main_v64 main_v65
  let main_c_25 : IVec S_ 1 := constantI S_ 1 1#1
  let main_v67 : IVec S_ 1 := (fun x v => Host.reduce IntOp.andi x v reducesTo_S32x2_S_d0_1 h_S_) main_v66 main_c_25
  fn_part4 (F := F) main_arg1 main_arg15 main_arg16 main_arg17 main_arg18 main_arg19 main_arg20 main_arg21 main_arg22 main_arg23 main_arg24 main_arg25 main_arg26 main_arg27 main_v63 main_v67

def fn_part2 {F : FTy → Type} [FloatOps F] (main_arg1 : IVec S2x800000 32) (main_arg8 : FVec F S32x32 .f32) (main_arg9 : FVec F S32 .f32) (main_arg10 : FVec F S64x32 .f32) (main_arg11 : FVec F S32 .f32) (main_arg12 : FVec F S32x32 .f32) (main_arg13 : FVec F S32 .f32) (main_arg14 : FVec F S32x2 .f32) (main_arg15 : FVec F S2 .f32) (main_arg16 : FVec F S4x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x4 .f32) (main_arg27 : FVec F S4 .f32) (main_v33 : IVec S_ 1) : IVec S_ 1 :=
  let main_v34 : FVec F S32x32 .f32 := Host.absf main_arg8
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg10
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg11
  let main_cst_18 : FVec F S_ .f32 := constant S_ .f32 0x7F800000#32
  let main_v50 : FVec F S32 .f32 := broadcastInDim S32 ![] bcast_S_S32 main_cst_18
  fn_part3 (F := F) main_arg1 main_arg12 main_arg13 main_arg14 main_arg15 main_arg16 main_arg17 main_arg18 main_arg19 main_arg20 main_arg21 main_arg22 main_arg23 main_arg24 main_arg25 main_arg26 main_arg27 main_v48 main_v49 main_v50

def fn_part1 {F : FTy → Type} [FloatOps F] (main_arg1 : IVec S2x800000 32) (main_arg5 : FVec F S32 .f32) (main_arg6 : FVec F S32x32 .f32) (main_arg7 : FVec F S32 .f32) (main_arg8 : FVec F S32x32 .f32) (main_arg9 : FVec F S32 .f32) (main_arg10 : FVec F S64x32 .f32) (main_arg11 : FVec F S32 .f32) (main_arg12 : FVec F S32x32 .f32) (main_arg13 : FVec F S32 .f32) (main_arg14 : FVec F S32x2 .f32) (main_arg15 : FVec F S2 .f32) (main_arg16 : FVec F S4x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x4 .f32) (main_arg27 : FVec F S4 .f32) (main_v13 : IVec S_ 1) (main_v16 : IVec S4x32 1) : IVec S_ 1 :=
  let main_c_5 : IVec S_ 1 := constantI S_ 1 1#1
  let main_v17 : IVec S_ 1 := (fun x v => Host.reduce IntOp.andi x v reducesTo_S4x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg6
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg8 main_arg9 main_arg10 main_arg11 main_arg12 main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S50000x4 .f32) (main_arg1 : IVec S2x800000 32) (main_arg2 : FVec F S4 .f32) (main_arg3 : FVec F S4 .f32) (main_arg4 : FVec F S4x32 .f32) (main_arg5 : FVec F S32 .f32) (main_arg6 : FVec F S32x32 .f32) (main_arg7 : FVec F S32 .f32) (main_arg8 : FVec F S32x32 .f32) (main_arg9 : FVec F S32 .f32) (main_arg10 : FVec F S64x32 .f32) (main_arg11 : FVec F S32 .f32) (main_arg12 : FVec F S32x32 .f32) (main_arg13 : FVec F S32 .f32) (main_arg14 : FVec F S32x2 .f32) (main_arg15 : FVec F S2 .f32) (main_arg16 : FVec F S4x32 .f32) (main_arg17 : FVec F S32 .f32) (main_arg18 : FVec F S32x32 .f32) (main_arg19 : FVec F S32 .f32) (main_arg20 : FVec F S32x32 .f32) (main_arg21 : FVec F S32 .f32) (main_arg22 : FVec F S32x32 .f32) (main_arg23 : FVec F S32 .f32) (main_arg24 : FVec F S32x32 .f32) (main_arg25 : FVec F S32 .f32) (main_arg26 : FVec F S32x4 .f32) (main_arg27 : FVec F S4 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S4 .f32 := Host.absf main_arg2
  let main_cst_0 : FVec F S_ .f32 := constant S_ .f32 0x7F800000#32
  let main_v5 : FVec F S4 .f32 := broadcastInDim S4 ![] bcast_S_S4 main_cst_0
  let main_v6 : IVec S4 1 := cmpf .olt main_v4 main_v5
  let main_c_1 : IVec S_ 1 := constantI S_ 1 1#1
  let main_v7 : IVec S_ 1 := (fun x v => Host.reduce IntOp.andi x v reducesTo_S4_S_d0 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4x32 .f32 := Host.absf main_arg4
  let main_cst_4 : FVec F S_ .f32 := constant S_ .f32 0x7F800000#32
  let main_v15 : FVec F S4x32 .f32 := broadcastInDim S4x32 ![] bcast_S_S4x32 main_cst_4
  let main_v16 : IVec S4x32 1 := cmpf .olt main_v14 main_v15
  fn_part1 (F := F) main_arg1 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S50000x4 : Shape := ⟨2, ![50000, 4]⟩
abbrev S2x800000 : Shape := ⟨2, ![2, 800000]⟩
abbrev S4 : Shape := ⟨1, ![4]⟩
abbrev S4x32 : Shape := ⟨2, ![4, 32]⟩
abbrev S32 : Shape := ⟨1, ![32]⟩
abbrev S32x32 : Shape := ⟨2, ![32, 32]⟩
abbrev S64x32 : Shape := ⟨2, ![64, 32]⟩
abbrev S32x2 : Shape := ⟨2, ![32, 2]⟩
abbrev S2 : Shape := ⟨1, ![2]⟩
abbrev S32x4 : Shape := ⟨2, ![32, 4]⟩
abbrev S1x800000 : Shape := ⟨2, ![1, 800000]⟩
abbrev S800000 : Shape := ⟨1, ![800000]⟩
abbrev S_ : Shape := ⟨0, ![]⟩
abbrev S1x4 : Shape := ⟨2, ![1, 4]⟩
abbrev S50000x32 : Shape := ⟨2, ![50000, 32]⟩
abbrev S10000x4 : Shape := ⟨2, ![10000, 4]⟩
abbrev S10000x32 : Shape := ⟨2, ![10000, 32]⟩
abbrev S1x32 : Shape := ⟨2, ![1, 32]⟩
abbrev S800000x1 : Shape := ⟨2, ![800000, 1]⟩
abbrev S1 : Shape := ⟨1, ![1]⟩
abbrev S1x1 : Shape := ⟨2, ![1, 1]⟩
abbrev S800000x32 : Shape := ⟨2, ![800000, 32]⟩
abbrev S800000x2 : Shape := ⟨2, ![800000, 2]⟩
abbrev S8000x32 : Shape := ⟨2, ![8000, 32]⟩
abbrev S8000x2 : Shape := ⟨2, ![8000, 2]⟩
abbrev S8000x64 : Shape := ⟨2, ![8000, 64]⟩
abbrev S1x2 : Shape := ⟨2, ![1, 2]⟩
abbrev S50000 : Shape := ⟨1, ![50000]⟩
abbrev S50000x1 : Shape := ⟨2, ![50000, 1]⟩
abbrev S50000x2 : Shape := ⟨2, ![50000, 2]⟩
abbrev S8000x4 : Shape := ⟨2, ![8000, 4]⟩

abbrev nBuf : Space → Nat
  | .hbm => 178
  | .vmem => 48
  | .smem => 0
  | _ => 0

abbrev hbmTy0_0 (i : Nat) : BufTy := match i % 128 with
  | 0 => ⟨S50000x4, .f32⟩
  | 1 => ⟨S2x800000, .i32⟩
  | 2 => ⟨S4, .f32⟩
  | 3 => ⟨S4, .f32⟩
  | 4 => ⟨S4x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S64x32, .f32⟩
  | 11 => ⟨S32, .f32⟩
  | 12 => ⟨S32x32, .f32⟩
  | 13 => ⟨S32, .f32⟩
  | 14 => ⟨S32x2, .f32⟩
  | 15 => ⟨S2, .f32⟩
  | 16 => ⟨S4x32, .f32⟩
  | 17 => ⟨S32, .f32⟩
  | 18 => ⟨S32x32, .f32⟩
  | 19 => ⟨S32, .f32⟩
  | 20 => ⟨S32x32, .f32⟩
  | 21 => ⟨S32, .f32⟩
  | 22 => ⟨S32x32, .f32⟩
  | 23 => ⟨S32, .f32⟩
  | 24 => ⟨S32x32, .f32⟩
  | 25 => ⟨S32, .f32⟩
  | 26 => ⟨S32x4, .f32⟩
  | 27 => ⟨S4, .f32⟩
  | 28 => ⟨S1x800000, .i32⟩
  | 29 => ⟨S800000, .i32⟩
  | 30 => ⟨S1x800000, .i32⟩
  | 31 => ⟨S800000, .i32⟩
  | 32 => ⟨S_, .f32⟩
  | 33 => ⟨S4, .f32⟩
  | 34 => ⟨S_, .f32⟩
  | 35 => ⟨S4, .f32⟩
  | 36 => ⟨S4, .f32⟩
  | 37 => ⟨S_, .i32⟩
  | 38 => ⟨S_, .f32⟩
  | 39 => ⟨S4, .f32⟩
  | 40 => ⟨S1x4, .f32⟩
  | 41 => ⟨S_, .f32⟩
  | 42 => ⟨S1x4, .f32⟩
  | 43 => ⟨S1x4, .f32⟩
  | 44 => ⟨S50000x4, .f32⟩
  | 45 => ⟨S50000x4, .f32⟩
  | 46 => ⟨S50000x4, .f32⟩
  | 47 => ⟨S_, .f32⟩
  | 48 => ⟨S_, .f32⟩
  | 49 => ⟨S_, .f32⟩
  | 50 => ⟨S_, .f32⟩
  | 51 => ⟨S4, .f32⟩
  | 52 => ⟨S4, .f32⟩
  | 53 => ⟨S4, .f32⟩
  | 54 => ⟨S_, .f32⟩
  | 55 => ⟨S_, .i1⟩
  | 56 => ⟨S_, .f32⟩
  | 57 => ⟨S_, .f32⟩
  | 58 => ⟨S4, .f32⟩
  | 59 => ⟨S4, .f32⟩
  | 60 => ⟨S50000x32, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S1, .i32⟩
  | 70 => ⟨S_, .i32⟩
  | 71 => ⟨S800000x1, .i32⟩
  | 72 => ⟨S800000x1, .i1⟩
  | 73 => ⟨S1x1, .i32⟩
  | 74 => ⟨S800000x1, .i32⟩
  | 75 => ⟨S800000x1, .i1⟩
  | 76 => ⟨S800000x1, .i1⟩
  | 77 => ⟨S_, .i1⟩
  | 78 => ⟨S800000, .i1⟩
  | 79 => ⟨S800000x32, .f32⟩
  | 80 => ⟨S800000x32, .i1⟩
  | 81 => ⟨S_, .f32⟩
  | 82 => ⟨S800000x32, .f32⟩
  | 83 => ⟨S800000x32, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S1, .i32⟩
  | 93 => ⟨S_, .i32⟩
  | 94 => ⟨S800000x1, .i32⟩
  | 95 => ⟨S800000x1, .i1⟩
  | 96 => ⟨S1x1, .i32⟩
  | 97 => ⟨S800000x1, .i32⟩
  | 98 => ⟨S800000x1, .i1⟩
  | 99 => ⟨S800000x1, .i1⟩
  | 100 => ⟨S_, .i1⟩
  | 101 => ⟨S800000, .i1⟩
  | 102 => ⟨S800000x32, .f32⟩
  | 103 => ⟨S800000x32, .i1⟩
  | 104 => ⟨S_, .f32⟩
  | 105 => ⟨S800000x32, .f32⟩
  | 106 => ⟨S800000x32, .f32⟩
  | 107 => ⟨S800000x2, .f32⟩
  | 108 => ⟨S_, .f32⟩
  | 109 => ⟨S800000, .f32⟩
  | 110 => ⟨S_, .f32⟩
  | 111 => ⟨S50000, .f32⟩
  | 112 => ⟨S800000x1, .i32⟩
  | 113 => ⟨S50000, .f32⟩
  | 114 => ⟨S50000x1, .f32⟩
  | 115 => ⟨S_, .f32⟩
  | 116 => ⟨S50000x1, .f32⟩
  | 117 => ⟨S50000x1, .f32⟩
  | 118 => ⟨S_, .f32⟩
  | 119 => ⟨S50000x2, .f32⟩
  | 120 => ⟨S800000x1, .i32⟩
  | 121 => ⟨S50000x2, .f32⟩
  | 122 => ⟨S50000x2, .f32⟩
  | 123 => ⟨S50000x2, .f32⟩
  | 124 => ⟨S_, .i32⟩
  | 125 => ⟨S800000, .i32⟩
  | 126 => ⟨S800000, .i1⟩
  | 127 => ⟨S_, .i32⟩
  | _ => ⟨S50000x4, .f32⟩

abbrev hbmTy0_1 (i : Nat) : BufTy := match i % 128 with
  | 0 => ⟨S800000, .i32⟩
  | 1 => ⟨S800000, .i32⟩
  | 2 => ⟨S800000, .i32⟩
  | 3 => ⟨S800000x1, .i32⟩
  | 4 => ⟨S1, .i32⟩
  | 5 => ⟨S_, .i32⟩
  | 6 => ⟨S800000x1, .i32⟩
  | 7 => ⟨S800000x1, .i1⟩
  | 8 => ⟨S1x1, .i32⟩
  | 9 => ⟨S800000x1, .i32⟩
  | 10 => ⟨S800000x1, .i1⟩
  | 11 => ⟨S800000x1, .i1⟩
  | 12 => ⟨S_, .i1⟩
  | 13 => ⟨S800000, .i1⟩
  | 14 => ⟨S800000x2, .f32⟩
  | 15 => ⟨S800000x2, .i1⟩
  | 16 => ⟨S_, .f32⟩
  | 17 => ⟨S800000x2, .f32⟩
  | 18 => ⟨S800000x2, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x2, .f32⟩
  | 38 => ⟨S800000x2, .i1⟩
  | 39 => ⟨S_, .f32⟩
  | 40 => ⟨S800000x2, .f32⟩
  | 41 => ⟨S800000x2, .f32⟩
  | 42 => ⟨S800000x32, .f32⟩
  | 43 => ⟨S_, .f32⟩
  | 44 => ⟨S50000x32, .f32⟩
  | 45 => ⟨S800000x1, .i32⟩
  | 46 => ⟨S50000x32, .f32⟩
  | 47 => ⟨S50000x32, .f32⟩
  | 48 => ⟨S50000x32, .f32⟩
  | 49 => ⟨S50000x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | .local _ .vmem, ⟨0, _⟩ => ⟨S10000x4, .f32⟩
  | .local _ .vmem, ⟨1, _⟩ => ⟨S10000x4, .f32⟩
  | .local _ .vmem, ⟨2, _⟩ => ⟨S4, .f32⟩
  | .local _ .vmem, ⟨3, _⟩ => ⟨S4, .f32⟩
  | .local _ .vmem, ⟨4, _⟩ => ⟨S4, .f32⟩
  | .local _ .vmem, ⟨5, _⟩ => ⟨S4, .f32⟩
  | .local _ .vmem, ⟨6, _⟩ => ⟨S4x32, .f32⟩
  | .local _ .vmem, ⟨7, _⟩ => ⟨S32, .f32⟩
  | .local _ .vmem, ⟨8, _⟩ => ⟨S32x32, .f32⟩
  | .local _ .vmem, ⟨9, _⟩ => ⟨S32, .f32⟩
  | .local _ .vmem, ⟨10, _⟩ => ⟨S32x32, .f32⟩
  | .local _ .vmem, ⟨11, _⟩ => ⟨S32, .f32⟩
  | .local _ .vmem, ⟨12, _⟩ => ⟨S10000x32, .f32⟩
  | .local _ .vmem, ⟨13, _⟩ => ⟨S10000x32, .f32⟩
  | .local _ .vmem, ⟨14, _⟩ => ⟨S8000x32, .f32⟩
  | .local _ .vmem, ⟨15, _⟩ => ⟨S8000x32, .f32⟩
  | .local _ .vmem, ⟨16, _⟩ => ⟨S8000x32, .f32⟩
  | .local _ .vmem, ⟨17, _⟩ => ⟨S8000x32, .f32⟩
  | .local _ .vmem, ⟨18, _⟩ => ⟨S64x32, .f32⟩
  | .local _ .vmem, ⟨19, _⟩ => ⟨S32, .f32⟩
  | .local _ .vmem, ⟨20, _⟩ => ⟨S32x32, .f32⟩
  | .local _ .vmem, ⟨21, _⟩ => ⟨S32, .f32⟩
  | .local _ .vmem, ⟨22, _⟩ => ⟨S32x2, .f32⟩
  | .local _ .vmem, ⟨23, _⟩ => ⟨S2, .f32⟩
  | .local _ .vmem, ⟨24, _⟩ => ⟨S8000x2, .f32⟩
  | .local _ .vmem, ⟨25, _⟩ => ⟨S8000x2, .f32⟩
  | .local _ .vmem, ⟨26, _⟩ => ⟨S8000x2, .f32⟩
  | .local _ .vmem, ⟨27, _⟩ => ⟨S8000x2, .f32⟩
  | .local _ .vmem, ⟨28, _⟩ => ⟨S8000x2, .f32⟩
  | .local _ .vmem, ⟨29, _⟩ => ⟨S8000x2, .f32⟩
  | .local _ .vmem, ⟨30, _⟩ => ⟨S4x32, .f32⟩
  | .local _ .vmem, ⟨31, _⟩ => ⟨S32, .f32⟩
  | .local _ .vmem, ⟨32, _⟩ => ⟨S32x32, .f32⟩
  | .local _ .vmem, ⟨33, _⟩ => ⟨S32, .f32⟩
  | .local _ .vmem, ⟨34, _⟩ => ⟨S32x32, .f32⟩
  | .local _ .vmem, ⟨35, _⟩ => ⟨S32, .f32⟩
  | .local _ .vmem, ⟨36, _⟩ => ⟨S8000x32, .f32⟩
  | .local _ .vmem, ⟨37, _⟩ => ⟨S8000x32, .f32⟩
  | .local _ .vmem, ⟨38, _⟩ => ⟨S10000x32, .f32⟩
  | .local _ .vmem, ⟨39, _⟩ => ⟨S10000x32, .f32⟩
  | .local _ .vmem, ⟨40, _⟩ => ⟨S32x32, .f32⟩
  | .local _ .vmem, ⟨41, _⟩ => ⟨S32, .f32⟩
  | .local _ .vmem, ⟨42, _⟩ => ⟨S32x32, .f32⟩
  | .local _ .vmem, ⟨43, _⟩ => ⟨S32, .f32⟩
  | .local _ .vmem, ⟨44, _⟩ => ⟨S32x4, .f32⟩
  | .local _ .vmem, ⟨45, _⟩ => ⟨S4, .f32⟩
  | .local _ .vmem, ⟨46, _⟩ => ⟨S10000x4, .f32⟩
  | .local _ .vmem, ⟨47, _⟩ => ⟨S10000x4, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v7 : Ref sig .tc := ⟨.hbm, 59, rfl⟩
abbrev main_v8 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_c_1 : Ref sig .tc := ⟨.hbm, 69, rfl⟩
abbrev main_call1_c_2 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_c_3 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_call1_cst : Ref sig .tc := ⟨.hbm, 81, rfl⟩
abbrev main_call1_v15 : Ref sig .tc := ⟨.hbm, 82, rfl⟩
abbrev main_v9 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v10 : Ref sig .tc := ⟨.hbm, 106, rfl⟩
abbrev main_v11 : Ref sig .tc := ⟨.hbm, 107, rfl⟩
abbrev main_cst_1 : Ref sig .tc := ⟨.hbm, 108, rfl⟩
abbrev main_v12 : Ref sig .tc := ⟨.hbm, 109, rfl⟩
abbrev main_cst_2 : Ref sig .tc := ⟨.hbm, 110, rfl⟩
abbrev main_v13 : Ref sig .tc := ⟨.hbm, 111, rfl⟩
abbrev main_v14 : Ref sig .tc := ⟨.hbm, 112, rfl⟩
abbrev main_v15 : Ref sig .tc := ⟨.hbm, 113, rfl⟩
abbrev main_v16 : Ref sig .tc := ⟨.hbm, 114, rfl⟩
abbrev main_cst_3 : Ref sig .tc := ⟨.hbm, 115, rfl⟩
abbrev main_v17 : Ref sig .tc := ⟨.hbm, 116, rfl⟩
abbrev main_v18 : Ref sig .tc := ⟨.hbm, 117, rfl⟩
abbrev main_cst_4 : Ref sig .tc := ⟨.hbm, 118, rfl⟩
abbrev main_v19 : Ref sig .tc := ⟨.hbm, 119, rfl⟩
abbrev main_v20 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_call3_c : Ref sig .tc := ⟨.hbm, 124, rfl⟩
abbrev main_call3_v0 : Ref sig .tc := ⟨.hbm, 125, rfl⟩
abbrev main_call3_v1 : Ref sig .tc := ⟨.hbm, 126, rfl⟩
abbrev main_call3_c_0 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_call3_v5 : Ref sig .tc := ⟨.hbm, 131, rfl⟩
abbrev main_call3_c_1 : Ref sig .tc := ⟨.hbm, 132, rfl⟩
abbrev main_call3_c_2 : Ref sig .tc := ⟨.hbm, 133, rfl⟩
abbrev main_call3_v6 : Ref sig .tc := ⟨.hbm, 134, rfl⟩
abbrev main_call3_v7 : Ref sig .tc := ⟨.hbm, 135, rfl⟩
abbrev main_call3_v8 : Ref sig .tc := ⟨.hbm, 136, rfl⟩
abbrev main_call3_v9 : Ref sig .tc := ⟨.hbm, 137, rfl⟩
abbrev main_call3_v10 : Ref sig .tc := ⟨.hbm, 138, rfl⟩
abbrev main_call3_v11 : Ref sig .tc := ⟨.hbm, 139, rfl⟩
abbrev main_call3_c_3 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_cst : Ref sig .tc := ⟨.hbm, 144, rfl⟩
abbrev main_call3_v15 : Ref sig .tc := ⟨.hbm, 145, rfl⟩
abbrev main_v24 : Ref sig .tc := ⟨.hbm, 146, rfl⟩
abbrev main_call4_c : Ref sig .tc := ⟨.hbm, 147, rfl⟩
abbrev main_call4_v0 : Ref sig .tc := ⟨.hbm, 148, rfl⟩
abbrev main_call4_v1 : Ref sig .tc := ⟨.hbm, 149, rfl⟩
abbrev main_call4_c_0 : Ref sig .tc := ⟨.hbm, 150, rfl⟩
abbrev main_call4_v2 : Ref sig .tc := ⟨.hbm, 151, rfl⟩
abbrev main_call4_v3 : Ref sig .tc := ⟨.hbm, 152, rfl⟩
abbrev main_call4_v4 : Ref sig .tc := ⟨.hbm, 153, rfl⟩
abbrev main_call4_v5 : Ref sig .tc := ⟨.hbm, 154, rfl⟩
abbrev main_call4_c_1 : Ref sig .tc := ⟨.hbm, 155, rfl⟩
abbrev main_call4_c_2 : Ref sig .tc := ⟨.hbm, 156, rfl⟩
abbrev main_call4_v6 : Ref sig .tc := ⟨.hbm, 157, rfl⟩
abbrev main_call4_v7 : Ref sig .tc := ⟨.hbm, 158, rfl⟩
abbrev main_call4_v8 : Ref sig .tc := ⟨.hbm, 159, rfl⟩
abbrev main_call4_v9 : Ref sig .tc := ⟨.hbm, 160, rfl⟩
abbrev main_call4_v10 : Ref sig .tc := ⟨.hbm, 161, rfl⟩
abbrev main_call4_v11 : Ref sig .tc := ⟨.hbm, 162, rfl⟩
abbrev main_call4_c_3 : Ref sig .tc := ⟨.hbm, 163, rfl⟩
abbrev main_call4_v12 : Ref sig .tc := ⟨.hbm, 164, rfl⟩
abbrev main_call4_v13 : Ref sig .tc := ⟨.hbm, 165, rfl⟩
abbrev main_call4_v14 : Ref sig .tc := ⟨.hbm, 166, rfl⟩
abbrev main_call4_cst : Ref sig .tc := ⟨.hbm, 167, rfl⟩
abbrev main_call4_v15 : Ref sig .tc := ⟨.hbm, 168, rfl⟩
abbrev main_v25 : Ref sig .tc := ⟨.hbm, 169, rfl⟩
abbrev main_v26 : Ref sig .tc := ⟨.hbm, 170, rfl⟩
abbrev main_cst_5 : Ref sig .tc := ⟨.hbm, 171, rfl⟩
abbrev main_v27 : Ref sig .tc := ⟨.hbm, 172, rfl⟩
abbrev main_v28 : Ref sig .tc := ⟨.hbm, 173, rfl⟩
abbrev main_v29 : Ref sig .tc := ⟨.hbm, 174, rfl⟩
abbrev main_v30 : Ref sig .tc := ⟨.hbm, 175, rfl⟩
abbrev main_v31 : Ref sig .tc := ⟨.hbm, 176, rfl⟩
abbrev main_v32 : Ref sig .tc := ⟨.hbm, 177, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg8_1 : Ref sig .tc := ⟨.vmem, 37, rfl⟩
abbrev cc3_stg0_0 : Ref sig .tc := ⟨.vmem, 38, rfl⟩
abbrev cc3_stg0_1 : Ref sig .tc := ⟨.vmem, 39, rfl⟩
abbrev cc3_stg1_0 : Ref sig .tc := ⟨.vmem, 40, rfl⟩
abbrev cc3_stg2_0 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem8_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S10000x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S8000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S8000x32 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x4 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S4 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x4 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x4_S4_d0 : S50000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S50000x4_0_1 : S1x4.BroadcastsInDim S50000x4 (![0, 1] : Fin 2 → Fin S50000x4.rank)
  inb_S10000x4_S10000x4_0_0 : ∀ a, (![0, 0] : Fin 2 → Nat) a + S10000x4.size a ≤ S10000x4.size a
  h_S10000x4 : 0 < S10000x4.numel
  inb_S4_S4_0 : ∀ a, (![0] : Fin 1 → Nat) a + S4.size a ≤ S4.size a
  h_S4 : 0 < S4.numel
  shapeCasts_S4_S4 : S4.ShapeCasts S4
  shapeCasts_S4_S1x4 : S4.ShapeCasts S1x4
  broadcasts_S1x4_S10000x4 : S1x4.Broadcasts S10000x4
  inb_S4x32_S4x32_0_0 : ∀ a, (![0, 0] : Fin 2 → Nat) a + S4x32.size a ≤ S4x32.size a
  h_S4x32 : 0 < S4x32.numel
  inb_S32_S32_0 : ∀ a, (![0] : Fin 1 → Nat) a + S32.size a ≤ S32.size a
  h_S32 : 0 < S32.numel
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x32_0 : S800000.BroadcastsInDim S800000x32 (![0] : Fin 1 → Fin S800000x32.rank)
  bcast_S_S800000x32 : S_.BroadcastsInDim S800000x32 (![] : Fin 0 → Fin S800000x32.rank)
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  concatenates_S8000x32_S8000x32_S8000x64_d1 : Shape.Concatenates [S8000x32, S8000x32] S8000x64 1
  inb_S64x32_S64x32_0_0 : ∀ a, (![0, 0] : Fin 2 → Nat) a + S64x32.size a ≤ S64x32.size a
  h_S64x32 : 0 < S64x32.numel
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  broadcasts_S1x32_S8000x32 : S1x32.Broadcasts S8000x32
  shapeCasts_S2_S1x2 : S2.ShapeCasts S1x2
  broadcasts_S1x2_S8000x2 : S1x2.Broadcasts S8000x2
  inb_S8000x2_S8000x2_0_0 : ∀ a, (![0, 0] : Fin 2 → Nat) a + S8000x2.size a ≤ S8000x2.size a
  h_S8000x2 : 0 < S8000x2.numel
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  bcast_S800000_S800000x2_0 : S800000.BroadcastsInDim S800000x2 (![0] : Fin 1 → Fin S800000x2.rank)
  bcast_S_S800000x2 : S_.BroadcastsInDim S800000x2 (![] : Fin 0 → Fin S800000x2.rank)
  shapeCasts_S8000x2_S8000x2 : S8000x2.ShapeCasts S8000x2
  concatenates_S8000x2_S8000x2_S8000x4_d1 : Shape.Concatenates [S8000x2, S8000x2] S8000x4 1
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S10000x32_S10000x32 : S10000x32.ShapeCasts S10000x32
  inb_S32x4_S32x4_0_0 : ∀ a, (![0, 0] : Fin 2 → Nat) a + S32x4.size a ≤ S32x4.size a
  h_S32x4 : 0 < S32x4.numel
  dot_S10000x4_S4x32_S10000x32_1_0_0_1_n_n_wf : DotDims.WF S10000x4 S4x32 S10000x32 [1] [0] [0] [1] [] []
  dot_S10000x32_S32x32_S10000x32_1_0_0_1_n_n_wf : DotDims.WF S10000x32 S32x32 S10000x32 [1] [0] [0] [1] [] []
  gather_S50000x32_S800000x1_S800000x32_1_0_n_n_0_1_132_wf : GatherDims.WF S50000x32 S800000x1 S800000x32 [1] [0] [] [0] [] 1 ![1, 32]
  dot_S8000x64_S64x32_S8000x32_1_0_0_1_n_n_wf : DotDims.WF S8000x64 S64x32 S8000x32 [1] [0] [0] [1] [] []
  dot_S8000x32_S32x32_S8000x32_1_0_0_1_n_n_wf : DotDims.WF S8000x32 S32x32 S8000x32 [1] [0] [0] [1] [] []
  dot_S8000x32_S32x2_S8000x2_1_0_0_1_n_n_wf : DotDims.WF S8000x32 S32x2 S8000x2 [1] [0] [0] [1] [] []
  scatter_S50000_S800000x1_S800000_n_0_0_1_wf : ScatterDims.WF S50000 S800000x1 S800000 [] [0] [0] 1
  scatter_S50000x2_S800000x1_S800000x2_1_0_0_1_wf : ScatterDims.WF S50000x2 S800000x1 S800000x2 [1] [0] [0] 1
  gather_S50000x2_S800000x1_S800000x2_1_0_n_n_0_1_12_wf : GatherDims.WF S50000x2 S800000x1 S800000x2 [1] [0] [] [0] [] 1 ![1, 2]
  dot_S8000x4_S4x32_S8000x32_1_0_0_1_n_n_wf : DotDims.WF S8000x4 S4x32 S8000x32 [1] [0] [0] [1] [] []
  scatter_S50000x32_S800000x1_S800000x32_1_0_0_1_wf : ScatterDims.WF S50000x32 S800000x1 S800000x32 [1] [0] [0] 1
  dot_S10000x32_S32x4_S10000x4_1_0_0_1_n_n_wf : DotDims.WF S10000x32 S32x4 S10000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x4.size a ≤ S50000x4.size a
  hwx0_0 : ∀ i : grid0.Coords, EltTy.bits .f32 = 32 ∨ (Rect.block (s := S50000x4) S10000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4.size a ≤ S4.size a
  hwx0_1 : ∀ i : grid0.Coords, EltTy.bits .f32 = 32 ∨ (Rect.block (s := S4) S4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4.size a ≤ S4.size a
  hwx0_2 : ∀ i : grid0.Coords, EltTy.bits .f32 = 32 ∨ (Rect.block (s := S4) S4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4.size a ≤ S4.size a
  hwx0_3 : ∀ i : grid0.Coords, EltTy.bits .f32 = 32 ∨ (Rect.block (s := S4) S4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4.size a ≤ S4.size a
  hwx0_4 : ∀ i : grid0.Coords, EltTy.bits .f32 = 32 ∨ (Rect.block (s := S4) S4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .f32 = 32 ∨ (Rect.block (s := S4x32) S4x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S32.size a ≤ S32.size a
  hwx0_10 : ∀ i : grid0.Coords, EltTy.bits .f32 = 32 ∨ (Rect.block (s := S32) S32.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S10000x32.size a ≤ S50000x32.size a
  hwx0_11 : ∀ i : grid0.Coords, EltTy.bits .f32 = 32 ∨ (Rect.block (s := S50000x32) S10000x32.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S800000x32.size a
  hwx1_0 : ∀ i : grid1.Coords, EltTy.bits .f32 = 32 ∨ (Rect.block (s := S800000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x32.size a ≤ S800000x32.size a
  hwx1_1 : ∀ i : grid1.Coords, EltTy.bits .f32 = 32 ∨ (Rect.block (s := S800000x32) S8000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x2.size a ≤ S32x2.size a
  hwx1_6 : ∀ i : grid1.Coords, EltTy.bits .f32 = 32 ∨ (Rect.block (s := S32x2) S32x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2.size a ≤ S2.size a
  hwx1_7 : ∀ i : grid1.Coords, EltTy.bits .f32 = 32 ∨ (Rect.block (s := S2) S2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8000x2.size a ≤ S800000x2.size a
  hwx1_8 : ∀ i : grid1.Coords, EltTy.bits .f32 = 32 ∨ (Rect.block (s := S800000x2) S8000x2.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x2.size a ≤ S800000x2.size a
  hwx2_0 : ∀ i : grid2.Coords, EltTy.bits .f32 = 32 ∨ (Rect.block (s := S800000x2) S8000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x2.size a ≤ S800000x2.size a
  hwx2_1 : ∀ i : grid2.Coords, EltTy.bits .f32 = 32 ∨ (Rect.block (s := S800000x2) S8000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x32.size a ≤ S4x32.size a
  hwx2_2 : ∀ i : grid2.Coords, EltTy.bits .f32 = 32 ∨ (Rect.block (s := S4x32) S4x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32.size a ≤ S32.size a
  hwx2_7 : ∀ i : grid2.Coords, EltTy.bits .f32 = 32 ∨ (Rect.block (s := S32) S32.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8000x32.size a ≤ S800000x32.size a
  hwx2_8 : ∀ i : grid2.Coords, EltTy.bits .f32 = 32 ∨ (Rect.block (s := S800000x32) S8000x32.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S50000x32.size a
  hwx3_0 : ∀ i : grid3.Coords, EltTy.bits .f32 = 32 ∨ (Rect.block (s := S50000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x32.size a ≤ S32x32.size a
  hwx3_3 : ∀ i : grid3.Coords, EltTy.bits .f32 = 32 ∨ (Rect.block (s := S32x32) S32x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32.size a ≤ S32.size a
  hwx3_4 : ∀ i : grid3.Coords, EltTy.bits .f32 = 32 ∨ (Rect.block (s := S32) S32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x4.size a ≤ S32x4.size a
  hwx3_5 : ∀ i : grid3.Coords, EltTy.bits .f32 = 32 ∨ (Rect.block (s := S32x4) S32x4.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S4.size a ≤ S4.size a
  hwx3_6 : ∀ i : grid3.Coords, EltTy.bits .f32 = 32 ∨ (Rect.block (s := S4) S4.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x4.size a ≤ S50000x4.size a
  hwx3_7 : ∀ i : grid3.Coords, EltTy.bits .f32 = 32 ∨ (Rect.block (s := S50000x4) S10000x4.size (cc3_transform_7 i) (hinb3_7 i)).WholeWords (EltTy.packing .f32)

variable [Facts₀]

def dot_S10000x4_S4x32_S10000x32_1_0_0_1_n_n : DotDims S10000x4 S4x32 S10000x32 where
  lhsContracting := [1]
  rhsContracting := [0]
  lhsNonContracting := [0]
  rhsNonContracting := [1]
  lhsBatch := []
  rhsBatch := []
  wf := dot_S10000x4_S4x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S8000x64_S64x32_S8000x32_1_0_0_1_n_n : DotDims S8000x64 S64x32 S8000x32 where
  lhsContracting := [1]
  rhsContracting := [0]
  lhsNonContracting := [0]
  rhsNonContracting := [1]
  lhsBatch := []
  rhsBatch := []
  wf := dot_S8000x64_S64x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def dot_S8000x32_S32x2_S8000x2_1_0_0_1_n_n : DotDims S8000x32 S32x2 S8000x2 where
  lhsContracting := [1]
  rhsContracting := [0]
  lhsNonContracting := [0]
  rhsNonContracting := [1]
  lhsBatch := []
  rhsBatch := []
  wf := dot_S8000x32_S32x2_S8000x2_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S8000x4_S4x32_S8000x32_1_0_0_1_n_n : DotDims S8000x4 S4x32 S8000x32 where
  lhsContracting := [1]
  rhsContracting := [0]
  lhsNonContracting := [0]
  rhsNonContracting := [1]
  lhsBatch := []
  rhsBatch := []
  wf := dot_S8000x4_S4x32_S8000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S10000x32_S32x4_S10000x4_1_0_0_1_n_n : DotDims S10000x32 S32x4 S10000x4 where
  lhsContracting := [1]
  rhsContracting := [0]
  lhsNonContracting := [0]
  rhsNonContracting := [1]
  lhsBatch := []
  rhsBatch := []
  wf := dot_S10000x32_S32x4_S10000x4_1_0_0_1_n_n_wf

abbrev win0_0 : Pipeline.Window sig grid0 :=
  Pipeline.Window.ofSpec (Memref.whole main_arg0) S10000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S10000x32.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v9) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S8000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S32x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S8000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v24) S8000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S8000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg16) S4x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg17) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg18) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg19) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg20) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg21) S32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v26) S8000x32.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v31) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg22) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg23) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg24) S32x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg25) S32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg26) S32x4.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg27) S4.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v32) S10000x4.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x4 : Shape := ⟨2, ![50000, 4]⟩
abbrev S2x800000 : Shape := ⟨2, ![2, 800000]⟩
abbrev S4 : Shape := ⟨1, ![4]⟩
abbrev S4x32 : Shape := ⟨2, ![4, 32]⟩
abbrev S32 : Shape := ⟨1, ![32]⟩
abbrev S32x32 : Shape := ⟨2, ![32, 32]⟩
abbrev S64x32 : Shape := ⟨2, ![64, 32]⟩
abbrev S32x2 : Shape := ⟨2, ![32, 2]⟩
abbrev S2 : Shape := ⟨1, ![2]⟩
abbrev S32x4 : Shape := ⟨2, ![32, 4]⟩
abbrev S1x800000 : Shape := ⟨2, ![1, 800000]⟩
abbrev S800000 : Shape := ⟨1, ![800000]⟩
abbrev S_ : Shape := ⟨0, ![]⟩
abbrev S1x4 : Shape := ⟨2, ![1, 4]⟩
abbrev S50000x32 : Shape := ⟨2, ![50000, 32]⟩
abbrev S1x32 : Shape := ⟨2, ![1, 32]⟩
abbrev S800000x1 : Shape := ⟨2, ![800000, 1]⟩
abbrev S800000x32 : Shape := ⟨2, ![800000, 32]⟩
abbrev S800000x64 : Shape := ⟨2, ![800000, 64]⟩
abbrev S800000x2 : Shape := ⟨2, ![800000, 2]⟩
abbrev S1x2 : Shape := ⟨2, ![1, 2]⟩
abbrev S50000x2 : Shape := ⟨2, ![50000, 2]⟩
abbrev S50000 : Shape := ⟨1, ![50000]⟩
abbrev S50000x1 : Shape := ⟨2, ![50000, 1]⟩
abbrev S800000x4 : Shape := ⟨2, ![800000, 4]⟩

abbrev nBuf : Space → Nat
  | .hbm => 229
  | .vmem => 0
  | .smem => 0
  | _ => 0

abbrev hbmTy0_0 (i : Nat) : BufTy := match i % 128 with
  | 0 => ⟨S50000x4, .f32⟩
  | 1 => ⟨S2x800000, .i32⟩
  | 2 => ⟨S4, .f32⟩
  | 3 => ⟨S4, .f32⟩
  | 4 => ⟨S4x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S64x32, .f32⟩
  | 11 => ⟨S32, .f32⟩
  | 12 => ⟨S32x32, .f32⟩
  | 13 => ⟨S32, .f32⟩
  | 14 => ⟨S32x2, .f32⟩
  | 15 => ⟨S2, .f32⟩
  | 16 => ⟨S4x32, .f32⟩
  | 17 => ⟨S32, .f32⟩
  | 18 => ⟨S32x32, .f32⟩
  | 19 => ⟨S32, .f32⟩
  | 20 => ⟨S32x32, .f32⟩
  | 21 => ⟨S32, .f32⟩
  | 22 => ⟨S32x32, .f32⟩
  | 23 => ⟨S32, .f32⟩
  | 24 => ⟨S32x32, .f32⟩
  | 25 => ⟨S32, .f32⟩
  | 26 => ⟨S32x4, .f32⟩
  | 27 => ⟨S4, .f32⟩
  | 28 => ⟨S1x800000, .i32⟩
  | 29 => ⟨S800000, .i32⟩
  | 30 => ⟨S1x800000, .i32⟩
  | 31 => ⟨S800000, .i32⟩
  | 32 => ⟨S_, .f32⟩
  | 33 => ⟨S4, .f32⟩
  | 34 => ⟨S_, .f32⟩
  | 35 => ⟨S4, .f32⟩
  | 36 => ⟨S4, .f32⟩
  | 37 => ⟨S_, .i32⟩
  | 38 => ⟨S_, .f32⟩
  | 39 => ⟨S4, .f32⟩
  | 40 => ⟨S1x4, .f32⟩
  | 41 => ⟨S_, .f32⟩
  | 42 => ⟨S1x4, .f32⟩
  | 43 => ⟨S1x4, .f32⟩
  | 44 => ⟨S50000x4, .f32⟩
  | 45 => ⟨S50000x4, .f32⟩
  | 46 => ⟨S50000x4, .f32⟩
  | 47 => ⟨S_, .f32⟩
  | 48 => ⟨S_, .f32⟩
  | 49 => ⟨S_, .f32⟩
  | 50 => ⟨S_, .f32⟩
  | 51 => ⟨S4, .f32⟩
  | 52 => ⟨S4, .f32⟩
  | 53 => ⟨S4, .f32⟩
  | 54 => ⟨S_, .f32⟩
  | 55 => ⟨S_, .i1⟩
  | 56 => ⟨S_, .f32⟩
  | 57 => ⟨S_, .f32⟩
  | 58 => ⟨S4, .f32⟩
  | 59 => ⟨S4, .f32⟩
  | 60 => ⟨S1x4, .f32⟩
  | 61 => ⟨S50000x4, .f32⟩
  | 62 => ⟨S50000x4, .f32⟩
  | 63 => ⟨S_, .f32⟩
  | 64 => ⟨S4, .f32⟩
  | 65 => ⟨S4, .f32⟩
  | 66 => ⟨S4, .f32⟩
  | 67 => ⟨S1x4, .f32⟩
  | 68 => ⟨S50000x4, .f32⟩
  | 69 => ⟨S50000x4, .f32⟩
  | 70 => ⟨S1x4, .f32⟩
  | 71 => ⟨S50000x4, .f32⟩
  | 72 => ⟨S50000x4, .f32⟩
  | 73 => ⟨S1x4, .f32⟩
  | 74 => ⟨S50000x4, .f32⟩
  | 75 => ⟨S50000x4, .f32⟩
  | 76 => ⟨S50000x32, .f32⟩
  | 77 => ⟨S1x32, .f32⟩
  | 78 => ⟨S50000x32, .f32⟩
  | 79 => ⟨S50000x32, .f32⟩
  | 80 => ⟨S_, .f32⟩
  | 81 => ⟨S50000x32, .f32⟩
  | 82 => ⟨S50000x32, .f32⟩
  | 83 => ⟨S50000x32, .f32⟩
  | 84 => ⟨S1x32, .f32⟩
  | 85 => ⟨S50000x32, .f32⟩
  | 86 => ⟨S50000x32, .f32⟩
  | 87 => ⟨S_, .f32⟩
  | 88 => ⟨S50000x32, .f32⟩
  | 89 => ⟨S50000x32, .f32⟩
  | 90 => ⟨S50000x32, .f32⟩
  | 91 => ⟨S1x32, .f32⟩
  | 92 => ⟨S50000x32, .f32⟩
  | 93 => ⟨S50000x32, .f32⟩
  | 94 => ⟨S_, .f32⟩
  | 95 => ⟨S50000x32, .f32⟩
  | 96 => ⟨S50000x32, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x32, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x32, .f32⟩
  | 115 => ⟨S800000x32, .f32⟩
  | 116 => ⟨S800000x64, .f32⟩
  | 117 => ⟨S800000x32, .f32⟩
  | 118 => ⟨S1x32, .f32⟩
  | 119 => ⟨S800000x32, .f32⟩
  | 120 => ⟨S800000x32, .f32⟩
  | 121 => ⟨S_, .f32⟩
  | 122 => ⟨S800000x32, .f32⟩
  | 123 => ⟨S800000x32, .f32⟩
  | 124 => ⟨S800000x32, .f32⟩
  | 125 => ⟨S1x32, .f32⟩
  | 126 => ⟨S800000x32, .f32⟩
  | 127 => ⟨S800000x32, .f32⟩
  | _ => ⟨S50000x4, .f32⟩

abbrev hbmTy0_1 (i : Nat) : BufTy := match i % 128 with
  | 0 => ⟨S_, .f32⟩
  | 1 => ⟨S800000x32, .f32⟩
  | 2 => ⟨S800000x32, .f32⟩
  | 3 => ⟨S800000x2, .f32⟩
  | 4 => ⟨S1x2, .f32⟩
  | 5 => ⟨S800000x2, .f32⟩
  | 6 => ⟨S800000x2, .f32⟩
  | 7 => ⟨S_, .f32⟩
  | 8 => ⟨S800000x2, .f32⟩
  | 9 => ⟨S800000x2, .f32⟩
  | 10 => ⟨S_, .f32⟩
  | 11 => ⟨S50000x2, .f32⟩
  | 12 => ⟨S800000x1, .i32⟩
  | 13 => ⟨S50000x2, .f32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000x1, .f32⟩
  | 24 => ⟨S50000x2, .f32⟩
  | 25 => ⟨S50000x2, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x2, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x2, .f32⟩
  | 44 => ⟨S800000x2, .f32⟩
  | 45 => ⟨S800000x4, .f32⟩
  | 46 => ⟨S800000x32, .f32⟩
  | 47 => ⟨S1x32, .f32⟩
  | 48 => ⟨S800000x32, .f32⟩
  | 49 => ⟨S800000x32, .f32⟩
  | 50 => ⟨S_, .f32⟩
  | 51 => ⟨S800000x32, .f32⟩
  | 52 => ⟨S800000x32, .f32⟩
  | 53 => ⟨S800000x32, .f32⟩
  | 54 => ⟨S1x32, .f32⟩
  | 55 => ⟨S800000x32, .f32⟩
  | 56 => ⟨S800000x32, .f32⟩
  | 57 => ⟨S_, .f32⟩
  | 58 => ⟨S800000x32, .f32⟩
  | 59 => ⟨S800000x32, .f32⟩
  | 60 => ⟨S800000x32, .f32⟩
  | 61 => ⟨S1x32, .f32⟩
  | 62 => ⟨S800000x32, .f32⟩
  | 63 => ⟨S800000x32, .f32⟩
  | 64 => ⟨S_, .f32⟩
  | 65 => ⟨S800000x32, .f32⟩
  | 66 => ⟨S800000x32, .f32⟩
  | 67 => ⟨S_, .f32⟩
  | 68 => ⟨S50000x32, .f32⟩
  | 69 => ⟨S800000x1, .i32⟩
  | 70 => ⟨S50000x32, .f32⟩
  | 71 => ⟨S_, .f32⟩
  | 72 => ⟨S800000, .f32⟩
  | 73 => ⟨S_, .f32⟩
  | 74 => ⟨S50000, .f32⟩
  | 75 => ⟨S800000x1, .i32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x32, .f32⟩
  | 82 => ⟨S50000x32, .f32⟩
  | 83 => ⟨S50000x32, .f32⟩
  | 84 => ⟨S1x32, .f32⟩
  | 85 => ⟨S50000x32, .f32⟩
  | 86 => ⟨S50000x32, .f32⟩
  | 87 => ⟨S_, .f32⟩
  | 88 => ⟨S50000x32, .f32⟩
  | 89 => ⟨S50000x32, .f32⟩
  | 90 => ⟨S50000x32, .f32⟩
  | 91 => ⟨S1x32, .f32⟩
  | 92 => ⟨S50000x32, .f32⟩
  | 93 => ⟨S50000x32, .f32⟩
  | 94 => ⟨S_, .f32⟩
  | 95 => ⟨S50000x32, .f32⟩
  | 96 => ⟨S50000x32, .f32⟩
  | 97 => ⟨S50000x4, .f32⟩
  | 98 => ⟨S1x4, .f32⟩
  | 99 => ⟨S50000x4, .f32⟩
  | 100 => ⟨S50000x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_cst_0 : Ref sig .tc := ⟨.hbm, 34, rfl⟩
abbrev main_v5 : Ref sig .tc := ⟨.hbm, 35, rfl⟩
abbrev main_v6 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_cst_3 : Ref sig .tc := ⟨.hbm, 54, rfl⟩
abbrev main_call0_v12 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v7 : Ref sig .tc := ⟨.hbm, 59, rfl⟩
abbrev main_v8 : Ref sig .tc := ⟨.hbm, 60, rfl⟩
abbrev main_v9 : Ref sig .tc := ⟨.hbm, 61, rfl⟩
abbrev main_v10 : Ref sig .tc := ⟨.hbm, 62, rfl⟩
abbrev main_cst_1 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_v19 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_call1_cst : Ref sig .tc := ⟨.hbm, 80, rfl⟩
abbrev main_call1_v0 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_call2_cst : Ref sig .tc := ⟨.hbm, 87, rfl⟩
abbrev main_call2_v0 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_call3_cst : Ref sig .tc := ⟨.hbm, 94, rfl⟩
abbrev main_call3_v0 : Ref sig .tc := ⟨.hbm, 95, rfl⟩
abbrev main_v37 : Ref sig .tc := ⟨.hbm, 96, rfl⟩
abbrev main_c_2 : Ref sig .tc := ⟨.hbm, 97, rfl⟩
abbrev main_v38 : Ref sig .tc := ⟨.hbm, 98, rfl⟩
abbrev main_v39 : Ref sig .tc := ⟨.hbm, 99, rfl⟩
abbrev main_c_3 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_c_4 : Ref sig .tc := ⟨.hbm, 106, rfl⟩
abbrev main_v45 : Ref sig .tc := ⟨.hbm, 107, rfl⟩
abbrev main_v46 : Ref sig .tc := ⟨.hbm, 108, rfl⟩
abbrev main_c_5 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_call4_cst : Ref sig .tc := ⟨.hbm, 121, rfl⟩
abbrev main_call4_v0 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_call5_cst : Ref sig .tc := ⟨.hbm, 128, rfl⟩
abbrev main_call5_v0 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_call6_cst : Ref sig .tc := ⟨.hbm, 135, rfl⟩
abbrev main_call6_v0 : Ref sig .tc := ⟨.hbm, 136, rfl⟩
abbrev main_v68 : Ref sig .tc := ⟨.hbm, 137, rfl⟩
abbrev main_cst_6 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_cst_7 : Ref sig .tc := ⟨.hbm, 142, rfl⟩
abbrev main_v72 : Ref sig .tc := ⟨.hbm, 143, rfl⟩
abbrev main_cst_8 : Ref sig .tc := ⟨.hbm, 144, rfl⟩
abbrev main_v73 : Ref sig .tc := ⟨.hbm, 145, rfl⟩
abbrev main_v74 : Ref sig .tc := ⟨.hbm, 146, rfl⟩
abbrev main_v75 : Ref sig .tc := ⟨.hbm, 147, rfl⟩
abbrev main_cst_9 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_c_10 : Ref sig .tc := ⟨.hbm, 154, rfl⟩
abbrev main_v81 : Ref sig .tc := ⟨.hbm, 155, rfl⟩
abbrev main_v82 : Ref sig .tc := ⟨.hbm, 156, rfl⟩
abbrev main_c_11 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_v87 : Ref sig .tc := ⟨.hbm, 162, rfl⟩
abbrev main_c_12 : Ref sig .tc := ⟨.hbm, 163, rfl⟩
abbrev main_v88 : Ref sig .tc := ⟨.hbm, 164, rfl⟩
abbrev main_v89 : Ref sig .tc := ⟨.hbm, 165, rfl⟩
abbrev main_c_13 : Ref sig .tc := ⟨.hbm, 166, rfl⟩
abbrev main_v90 : Ref sig .tc := ⟨.hbm, 167, rfl⟩
abbrev main_v91 : Ref sig .tc := ⟨.hbm, 168, rfl⟩
abbrev main_v92 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_call7_cst : Ref sig .tc := ⟨.hbm, 178, rfl⟩
abbrev main_call7_v0 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_call8_cst : Ref sig .tc := ⟨.hbm, 185, rfl⟩
abbrev main_call8_v0 : Ref sig .tc := ⟨.hbm, 186, rfl⟩
abbrev main_v106 : Ref sig .tc := ⟨.hbm, 187, rfl⟩
abbrev main_v107 : Ref sig .tc := ⟨.hbm, 188, rfl⟩
abbrev main_v108 : Ref sig .tc := ⟨.hbm, 189, rfl⟩
abbrev main_v109 : Ref sig .tc := ⟨.hbm, 190, rfl⟩
abbrev main_v110 : Ref sig .tc := ⟨.hbm, 191, rfl⟩
abbrev main_call9_cst : Ref sig .tc := ⟨.hbm, 192, rfl⟩
abbrev main_call9_v0 : Ref sig .tc := ⟨.hbm, 193, rfl⟩
abbrev main_v111 : Ref sig .tc := ⟨.hbm, 194, rfl⟩
abbrev main_cst_14 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_15 : Ref sig .tc := ⟨.hbm, 199, rfl⟩
abbrev main_v115 : Ref sig .tc := ⟨.hbm, 200, rfl⟩
abbrev main_cst_16 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_cst_17 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_v126 : Ref sig .tc := ⟨.hbm, 213, rfl⟩
abbrev main_v127 : Ref sig .tc := ⟨.hbm, 214, rfl⟩
abbrev main_call10_cst : Ref sig .tc := ⟨.hbm, 215, rfl⟩
abbrev main_call10_v0 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_call11_cst : Ref sig .tc := ⟨.hbm, 222, rfl⟩
abbrev main_call11_v0 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x4_S4_d0 : S50000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S_S1x4 : S_.BroadcastsInDim S1x4 (![] : Fin 0 → Fin S1x4.rank)
  bcast_S1x4_S50000x4_0_1 : S1x4.BroadcastsInDim S50000x4 (![0, 1] : Fin 2 → Fin S50000x4.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x32_S800000x32_S800000x64_d1 : Shape.Concatenates [S800000x32, S800000x32] S800000x64 1
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S_S800000x2 : S_.BroadcastsInDim S800000x2 (![] : Fin 0 → Fin S800000x2.rank)
  bcast_S_S50000x2 : S_.BroadcastsInDim S50000x2 (![] : Fin 0 → Fin S50000x2.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x2_0_1 : S50000x1.BroadcastsInDim S50000x2 (![0, 1] : Fin 2 → Fin S50000x2.rank)
  concatenates_S800000x2_S800000x2_S800000x4_d1 : Shape.Concatenates [S800000x2, S800000x2] S800000x4 1
  bcast_S50000x1_S50000x32_0_1 : S50000x1.BroadcastsInDim S50000x32 (![0, 1] : Fin 2 → Fin S50000x32.rank)
  dot_S50000x4_S4x32_S50000x32_1_0_0_1_n_n_wf : DotDims.WF S50000x4 S4x32 S50000x32 [1] [0] [0] [1] [] []
  dot_S50000x32_S32x32_S50000x32_1_0_0_1_n_n_wf : DotDims.WF S50000x32 S32x32 S50000x32 [1] [0] [0] [1] [] []
  gather_S50000x32_S800000x1_S800000x32_1_0_n_n_0_1_132_wf : GatherDims.WF S50000x32 S800000x1 S800000x32 [1] [0] [] [0] [] 1 ![1, 32]
  dot_S800000x64_S64x32_S800000x32_1_0_0_1_n_n_wf : DotDims.WF S800000x64 S64x32 S800000x32 [1] [0] [0] [1] [] []
  dot_S800000x32_S32x32_S800000x32_1_0_0_1_n_n_wf : DotDims.WF S800000x32 S32x32 S800000x32 [1] [0] [0] [1] [] []
  dot_S800000x32_S32x2_S800000x2_1_0_0_1_n_n_wf : DotDims.WF S800000x32 S32x2 S800000x2 [1] [0] [0] [1] [] []
  scatter_S50000x2_S800000x1_S800000x2_1_0_0_1_wf : ScatterDims.WF S50000x2 S800000x1 S800000x2 [1] [0] [0] 1
  scatter_S50000_S800000x1_S800000_n_0_0_1_wf : ScatterDims.WF S50000 S800000x1 S800000 [] [0] [0] 1
  gather_S50000x2_S800000x1_S800000x2_1_0_n_n_0_1_12_wf : GatherDims.WF S50000x2 S800000x1 S800000x2 [1] [0] [] [0] [] 1 ![1, 2]
  dot_S800000x4_S4x32_S800000x32_1_0_0_1_n_n_wf : DotDims.WF S800000x4 S4x32 S800000x32 [1] [0] [0] [1] [] []
  scatter_S50000x32_S800000x1_S800000x32_1_0_0_1_wf : ScatterDims.WF S50000x32 S800000x1 S800000x32 [1] [0] [0] 1
  dot_S50000x32_S32x4_S50000x4_1_0_0_1_n_n_wf : DotDims.WF S50000x32 S32x4 S50000x4 [1] [0] [0] [1] [] []

variable [Facts₀]

def dot_S50000x4_S4x32_S50000x32_1_0_0_1_n_n : DotDims S50000x4 S4x32 S50000x32 where
  lhsContracting := [1]
  rhsContracting := [0]
  lhsNonContracting := [0]
  rhsNonContracting := [1]
  lhsBatch := []
  rhsBatch := []
  wf := dot_S50000x4_S4x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def dot_S800000x64_S64x32_S800000x32_1_0_0_1_n_n : DotDims S800000x64 S64x32 S800000x32 where
  lhsContracting := [1]
  rhsContracting := [0]
  lhsNonContracting := [0]
  rhsNonContracting := [1]
  lhsBatch := []
  rhsBatch := []
  wf := dot_S800000x64_S64x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def dot_S800000x32_S32x2_S800000x2_1_0_0_1_n_n : DotDims S800000x32 S32x2 S800000x2 where
  lhsContracting := [1]
  rhsContracting := [0]
  lhsNonContracting := [0]
  rhsNonContracting := [1]
  lhsBatch := []
  rhsBatch := []
  wf := dot_S800000x32_S32x2_S800000x2_1_0_0_1_n_n_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S800000x4_S4x32_S800000x32_1_0_0_1_n_n : DotDims S800000x4 S4x32 S800000x32 where
  lhsContracting := [1]
  rhsContracting := [0]
  lhsNonContracting := [0]
  rhsNonContracting := [1]
  lhsBatch := []
  rhsBatch := []
  wf := dot_S800000x4_S4x32_S800000x32_1_0_0_1_n_n_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S50000x32_S32x4_S50000x4_1_0_0_1_n_n : DotDims S50000x32 S32x4 S50000x4 where
  lhsContracting := [1]
  rhsContracting := [0]
  lhsNonContracting := [0]
  rhsNonContracting := [1]
  lhsBatch := []
  rhsBatch := []
  wf := dot_S50000x32_S32x4_S50000x4_1_0_0_1_n_n_wf

class Facts : Prop extends Facts₀ where

variable [Facts]
-- ==== Proof.Spec.lean ====
/-
  The network, array by array, over the extended reals.

  A table of node features is a matrix of rows; every dense stage acts on each row by itself:
  an affine layer sends row r of x to the row whose entry c is the sum over k of x(r, k) · w(k, c), plus b(c);
  the rectifier replaces an entry by its maximum with zero; the input normalisation shifts a column by its
  mean, scales it by the reciprocal square root of its variance plus a small constant, then by a gain, and adds an offset.
  An edge stage receives, per edge, the row of the edge's target node and the row of its source node, sets the
  target row beside the difference source − target, and applies three rectified affine layers.
  A node's new row is the sum of the messages of the edges that point at it, divided by the number of such
  edges, or by one where there are none.
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx

noncomputable section

open scoped BigOperators

namespace Cert.Spec

open Idealize.ShloMosaic Idealize.ShloMosaic.ValueIdx

/-- A matrix of extended reals. -/
abbrev Mat (R C : Nat) : Type := FVec Ideal (⟨2, ![R, C]⟩ : Shape) .f32
/-- A vector of extended reals. -/
abbrev Vec1 (n : Nat) : Type := FVec Ideal (⟨1, ![n]⟩ : Shape) .f32
/-- A column of position words. -/
abbrev ICol (n : Nat) : Type := IVec (⟨2, ![n, 1]⟩ : Shape) 32
/-- A vector of position words. -/
abbrev IVec1 (n : Nat) : Type := IVec (⟨1, ![n]⟩ : Shape) 32

/-- The word of zero and the word of one. -/
abbrev zero : EReal := Ideal.ofBits .f32 0x00000000#32
abbrev one : EReal := Ideal.ofBits .f32 0x3F800000#32
/-- The small constant under the square root. -/
abbrev eps : EReal := Ideal.ofBits .f32 0x3727C5AC#32

/-- A matrix from its entries. -/
def ofEntries {R C : Nat} (f : Fin R → Fin C → EReal) : Mat R C := fun i => f (i 0) (i 1)

theorem ofEntries_apply {R C : Nat} (f : Fin R → Fin C → EReal) (r : Fin R) (c : Fin C) :
    ofEntries f (ix2 r c) = f r c := rfl

/-- Entry (r, c) of an affine layer. -/
def linAt {R K C : Nat} (x : Mat R K) (w : Mat K C) (b : Vec1 C) (r : Fin R) (c : Fin C) : EReal :=
  (∑ k : Fin K, x (ix2 r k) * w (ix2 k c)) + b (ix1 c)

/-- An affine layer. -/
def lin {R K C : Nat} (x : Mat R K) (w : Mat K C) (b : Vec1 C) : Mat R C := ofEntries (linAt x w b)

/-- The rectifier. -/
def relu {R C : Nat} (x : Mat R C) : Mat R C := fun i => max (x i) zero

/-- Entry (r, c) of the normalised input. -/
def bnAt {R C : Nat} (x : Mat R C) (mu var g b : Vec1 C) (r : Fin R) (c : Fin C) : EReal :=
  (x (ix2 r c) - mu (ix1 c)) * Ideal.rsqrt (var (ix1 c) + eps) * g (ix1 c) + b (ix1 c)

/-- The normalised input. -/
def bnorm {R C : Nat} (x : Mat R C) (mu var g b : Vec1 C) : Mat R C := ofEntries (bnAt x mu var g b)

/-- Three affine layers, each rectified. -/
def mlpR {R A B C D : Nat} (x : Mat R A) (w0 : Mat A B) (b0 : Vec1 B) (w1 : Mat B C) (b1 : Vec1 C) (w2 : Mat C D) (b2 : Vec1 D) :
    Mat R D :=
  relu (lin (relu (lin (relu (lin x w0 b0)) w1 b1)) w2 b2)

/-- Three affine layers, the first two rectified. -/
def mlpL {R A B C D : Nat} (x : Mat R A) (w0 : Mat A B) (b0 : Vec1 B) (w1 : Mat B C) (b1 : Vec1 C) (w2 : Mat C D) (b2 : Vec1 D) :
    Mat R D :=
  lin (relu (lin (relu (lin x w0 b0)) w1 b1)) w2 b2

/-- The node embedding: normalisation, then three rectified layers. -/
def embed {R : Nat} (x : Mat R 4) (mu var g b : Vec1 4) (w0 : Mat 4 32) (b0 : Vec1 32) (w1 : Mat 32 32) (b1 : Vec1 32)
    (w2 : Mat 32 32) (b2 : Vec1 32) : Mat R 32 :=
  mlpR (bnorm x mu var g b) w0 b0 w1 b1 w2 b2

/-- Entry (e, k) of an edge's input row: the target row, then source − target. -/
def pairAt {E D N : Nat} (xi xj : Mat E D) (e : Fin E) (k : Fin N) : EReal :=
  if h : k.val < D then xi (ix2 e ⟨k.val, h⟩)
  else if h' : k.val - D < D then xj (ix2 e ⟨k.val - D, h'⟩) - xi (ix2 e ⟨k.val - D, h'⟩)
  else zero

/-- An edge's input rows. -/
def pair {E D : Nat} (N : Nat) (xi xj : Mat E D) : Mat E N := ofEntries (pairAt xi xj)

/-- An edge stage. -/
def edgeMlp {E D B C O : Nat} (N : Nat) (xi xj : Mat E D) (w0 : Mat N B) (b0 : Vec1 B) (w1 : Mat B C) (b1 : Vec1 C)
    (w2 : Mat C O) (b2 : Vec1 O) : Mat E O :=
  mlpR (pair N xi xj) w0 b0 w1 b1 w2 b2

/-- The number of edges at a node, or one where there are none, as a column. -/
def cntCol {N : Nat} (cnt : Vec1 N) : Mat N 1 := fun j => max (cnt (ix1 (j 0))) one

/-- Each row divided by the row's entry of a column. -/
def divCol {N D : Nat} (s : Mat N D) (d : Mat N 1) : Mat N D := fun i => Ideal.div (s i) (d (ix2 (i 0) (0 : Fin 1)))

/-- The all-zero matrix, the all-zero vector and the all-one vector. -/
def zerosM (R C : Nat) : Mat R C := fun _ => zero
def zerosV (n : Nat) : Vec1 n := fun _ => zero
def onesV (n : Nat) : Vec1 n := fun _ => one

/-- A position vector as a column. -/
def col {n : Nat} (idx : IVec1 n) : ICol n := fun j => idx (ix1 (j 0))

/-- Every position word of the edge list names a node. -/
def InRange (ei : IVec (⟨2, ![2, 800000]⟩ : Shape) 32) : Prop := ∀ j, 0 ≤ (ei j).toInt ∧ (ei j).toInt < 50000

section Net

variable (dg32 : GatherDims (⟨2, ![50000, 32]⟩ : Shape) (⟨2, ![800000, 1]⟩ : Shape) (⟨2, ![800000, 32]⟩ : Shape))
  (dg2 : GatherDims (⟨2, ![50000, 2]⟩ : Shape) (⟨2, ![800000, 1]⟩ : Shape) (⟨2, ![800000, 2]⟩ : Shape))
  (ds1 : ScatterDims (⟨1, ![50000]⟩ : Shape) (⟨2, ![800000, 1]⟩ : Shape) (⟨1, ![800000]⟩ : Shape))
  (ds2 : ScatterDims (⟨2, ![50000, 2]⟩ : Shape) (⟨2, ![800000, 1]⟩ : Shape) (⟨2, ![800000, 2]⟩ : Shape))
  (ds32 : ScatterDims (⟨2, ![50000, 32]⟩ : Shape) (⟨2, ![800000, 1]⟩ : Shape) (⟨2, ![800000, 32]⟩ : Shape))

/-- How many edges point at each node. -/
def count (dstC : ICol 800000) : Vec1 50000 :=
  Host.scatterAdd (F := Ideal) ds1 (zerosV 50000) dstC (onesV 800000)

/-- The first round of messages, one row of two per edge. -/
def msg1 (h1 : Mat 50000 32) (srcN dstN : ICol 800000) (nw0 : Mat 64 32) (nb0 : Vec1 32) (nw1 : Mat 32 32) (nb1 : Vec1 32)
    (nw2 : Mat 32 2) (nb2 : Vec1 2) : Mat 800000 2 :=
  edgeMlp 64 (Host.gather dg32 h1 dstN) (Host.gather dg32 h1 srcN) nw0 nb0 nw1 nb1 nw2 nb2

/-- The nodes after the first round: the mean of the incoming messages. -/
def agg1 (m1 : Mat 800000 2) (dstC : ICol 800000) : Mat 50000 2 :=
  divCol (Host.scatterAdd (F := Ideal) ds2 (zerosM 50000 2) dstC m1) (cntCol (count ds1 dstC))

/-- The second round of messages, one row of thirty-two per edge. -/
def msg2 (h2 : Mat 50000 2) (srcN dstN : ICol 800000) (dw0 : Mat 4 32) (db0 : Vec1 32) (dw1 : Mat 32 32) (db1 : Vec1 32)
    (dw2 : Mat 32 32) (db2 : Vec1 32) : Mat 800000 32 :=
  edgeMlp 4 (Host.gather dg2 h2 dstN) (Host.gather dg2 h2 srcN) dw0 db0 dw1 db1 dw2 db2

/-- The nodes after the second round. -/
def agg2 (m2 : Mat 800000 32) (dstC : ICol 800000) : Mat 50000 32 :=
  divCol (Host.scatterAdd (F := Ideal) ds32 (zerosM 50000 32) dstC m2) (cntCol (count ds1 dstC))

/-- The whole network: embed, two rounds of message passing, and the read-out. -/
def out (x : Mat 50000 4) (mu var : Vec1 4) (srcN dstN dstC : ICol 800000) (g b : Vec1 4)
    (ew0 : Mat 4 32) (eb0 : Vec1 32) (ew1 : Mat 32 32) (eb1 : Vec1 32) (ew2 : Mat 32 32) (eb2 : Vec1 32)
    (nw0 : Mat 64 32) (nb0 : Vec1 32) (nw1 : Mat 32 32) (nb1 : Vec1 32) (nw2 : Mat 32 2) (nb2 : Vec1 2)
    (dw0 : Mat 4 32) (db0 : Vec1 32) (dw1 : Mat 32 32) (db1 : Vec1 32) (dw2 : Mat 32 32) (db2 : Vec1 32)
    (uw0 : Mat 32 32) (ub0 : Vec1 32) (uw1 : Mat 32 32) (ub1 : Vec1 32) (uw2 : Mat 32 4) (ub2 : Vec1 4) : Mat 50000 4 :=
  mlpL
    (agg2 ds1 ds32
      (msg2 dg2
        (agg1 ds1 ds2
          (msg1 dg32 (embed x mu var g b ew0 eb0 ew1 eb1 ew2 eb2) srcN dstN nw0 nb0 nw1 nb1 nw2 nb2) dstC)
        srcN dstN dw0 db0 dw1 db1 dw2 db2) dstC)
    uw0 ub0 uw1 ub1 uw2 ub2

end Net

end Cert.Spec

end
-- ==== Proof.KKept.lean ====
import proofs.«419797_j47588237639715_2_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- Argument 0 is as launched when boundary 2 is reached. -/
theorem arg0_W2 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- Argument 1 is as launched when boundary 2 is reached. -/
theorem arg1_W2 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- Argument 2 is as launched when boundary 2 is reached. -/
theorem arg2_W2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
/-- Argument 3 is as launched when boundary 2 is reached. -/
theorem arg3_W2 (c : Dev nD) : W2 m ρ c (Proc.devRef .tc main_arg3) = m ((c : Thread nD τ).loc main_arg3) :=
  calc W2 m ρ c (Proc.devRef .tc main_arg3)
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
/-- Argument 4 is as launched when boundary 2 is reached. -/
theorem arg4_W2 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
/-- Argument 5 is as launched when boundary 2 is reached. -/
theorem arg5_W2 (c : Dev nD) : W2 m ρ c (Proc.devRef .tc main_arg5) = m ((c : Thread nD τ).loc main_arg5) :=
  calc W2 m ρ c (Proc.devRef .tc main_arg5)
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
/-- Argument 6 is as launched when boundary 2 is reached. -/
theorem arg6_W2 (c : Dev nD) : W2 m ρ c (Proc.devRef .tc main_arg6) = m ((c : Thread nD τ).loc main_arg6) :=
  calc W2 m ρ c (Proc.devRef .tc main_arg6)
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl
/-- Argument 7 is as launched when boundary 2 is reached. -/
theorem arg7_W2 (c : Dev nD) : W2 m ρ c (Proc.devRef .tc main_arg7) = m ((c : Thread nD τ).loc main_arg7) :=
  calc W2 m ρ c (Proc.devRef .tc main_arg7)
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl
/-- Argument 8 is as launched when boundary 2 is reached. -/
theorem arg8_W2 (c : Dev nD) : W2 m ρ c (Proc.devRef .tc main_arg8) = m ((c : Thread nD τ).loc main_arg8) :=
  calc W2 m ρ c (Proc.devRef .tc main_arg8)
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl
/-- Argument 9 is as launched when boundary 2 is reached. -/
theorem arg9_W2 (c : Dev nD) : W2 m ρ c (Proc.devRef .tc main_arg9) = m ((c : Thread nD τ).loc main_arg9) :=
  calc W2 m ρ c (Proc.devRef .tc main_arg9)
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl
/-- Argument 10 is as launched when boundary 5 is reached. -/
theorem arg10_W5 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := W3_of_ne m ρ c main_arg10 (by decide)
    _ = W1 m ρ c (Proc.devRef .tc main_arg10) := StableHlo.after_of_forall_not_mem (b := Proc.devRef .tc main_arg10) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl
/-- Argument 11 is as launched when boundary 5 is reached. -/
theorem arg11_W5 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := W3_of_ne m ρ c main_arg11 (by decide)
    _ = W1 m ρ c (Proc.devRef .tc main_arg11) := StableHlo.after_of_forall_not_mem (b := Proc.devRef .tc main_arg11) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl
/-- Argument 12 is as launched when boundary 5 is reached. -/
theorem arg12_W5 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := W3_of_ne m ρ c main_arg12 (by decide)
    _ = W1 m ρ c (Proc.devRef .tc main_arg12) := StableHlo.after_of_forall_not_mem (b := Proc.devRef .tc main_arg12) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl
/-- Argument 13 is as launched when boundary 5 is reached. -/
theorem arg13_W5 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := W3_of_ne m ρ c main_arg13 (by decide)
    _ = W1 m ρ c (Proc.devRef .tc main_arg13) := StableHlo.after_of_forall_not_mem (b := Proc.devRef .tc main_arg13) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl
/-- Argument 14 is as launched when boundary 5 is reached. -/
theorem arg14_W5 (c : Dev nD) : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := W3_of_ne m ρ c main_arg14 (by decide)
    _ = W1 m ρ c (Proc.devRef .tc main_arg14) := StableHlo.after_of_forall_not_mem (b := Proc.devRef .tc main_arg14) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl
/-- Argument 15 is as launched when boundary 5 is reached. -/
theorem arg15_W5 (c : Dev nD) : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := W3_of_ne m ρ c main_arg15 (by decide)
    _ = W1 m ρ c (Proc.devRef .tc main_arg15) := StableHlo.after_of_forall_not_mem (b := Proc.devRef .tc main_arg15) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl
/-- Argument 16 is as launched when boundary 9 is reached. -/
theorem arg16_W9 (c : Dev nD) : W9 m ρ c (Proc.devRef .tc main_arg16) = m ((c : Thread nD τ).loc main_arg16) :=
  calc W9 m ρ c (Proc.devRef .tc main_arg16)
    _ = W8 m ρ c (Proc.devRef .tc main_arg16) := StableHlo.after_of_forall_not_mem (b := Proc.devRef .tc main_arg16) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := StableHlo.after_of_forall_not_mem (b := Proc.devRef .tc main_arg16) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := W3_of_ne m ρ c main_arg16 (by decide)
    _ = W1 m ρ c (Proc.devRef .tc main_arg16) := StableHlo.after_of_forall_not_mem (b := Proc.devRef .tc main_arg16) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl
/-- Argument 17 is as launched when boundary 9 is reached. -/
theorem arg17_W9 (c : Dev nD) : W9 m ρ c (Proc.devRef .tc main_arg17) = m ((c : Thread nD τ).loc main_arg17) :=
  calc W9 m ρ c (Proc.devRef .tc main_arg17)
    _ = W8 m ρ c (Proc.devRef .tc main_arg17) := StableHlo.after_of_forall_not_mem (b := Proc.devRef .tc main_arg17) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := StableHlo.after_of_forall_not_mem (b := Proc.devRef .tc main_arg17) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := W3_of_ne m ρ c main_arg17 (by decide)
    _ = W1 m ρ c (Proc.devRef .tc main_arg17) := StableHlo.after_of_forall_not_mem (b := Proc.devRef .tc main_arg17) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl
/-- Argument 18 is as launched when boundary 9 is reached. -/
theorem arg18_W9 (c : Dev nD) : W9 m ρ c (Proc.devRef .tc main_arg18) = m ((c : Thread nD τ).loc main_arg18) :=
  calc W9 m ρ c (Proc.devRef .tc main_arg18)
    _ = W8 m ρ c (Proc.devRef .tc main_arg18) := StableHlo.after_of_forall_not_mem (b := Proc.devRef .tc main_arg18) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := StableHlo.after_of_forall_not_mem (b := Proc.devRef .tc main_arg18) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg18) := W3_of_ne m ρ c main_arg18 (by decide)
    _ = W1 m ρ c (Proc.devRef .tc main_arg18) := StableHlo.after_of_forall_not_mem (b := Proc.devRef .tc main_arg18) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl
/-- Argument 19 is as launched when boundary 9 is reached. -/
theorem arg19_W9 (c : Dev nD) : W9 m ρ c (Proc.devRef .tc main_arg19) = m ((c : Thread nD τ).loc main_arg19) :=
  calc W9 m ρ c (Proc.devRef .tc main_arg19)
    _ = W8 m ρ c (Proc.devRef .tc main_arg19) := StableHlo.after_of_forall_not_mem (b := Proc.devRef .tc main_arg19) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := StableHlo.after_of_forall_not_mem (b := Proc.devRef .tc main_arg19) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg19) := W3_of_ne m ρ c main_arg19 (by decide)
    _ = W1 m ρ c (Proc.devRef .tc main_arg19) := StableHlo.after_of_forall_not_mem (b := Proc.devRef .tc main_arg19) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl
/-- Argument 20 is as launched when boundary 9 is reached. -/
theorem arg20_W9 (c : Dev nD) : W9 m ρ c (Proc.devRef .tc main_arg20) = m ((c : Thread nD τ).loc main_arg20) :=
  calc W9 m ρ c (Proc.devRef .tc main_arg20)
    _ = W8 m ρ c (Proc.devRef .tc main_arg20) := StableHlo.after_of_forall_not_mem (b := Proc.devRef .tc main_arg20) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := StableHlo.after_of_forall_not_mem (b := Proc.devRef .tc main_arg20) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg20) := W3_of_ne m ρ c main_arg20 (by decide)
    _ = W1 m ρ c (Proc.devRef .tc main_arg20) := StableHlo.after_of_forall_not_mem (b := Proc.devRef .tc main_arg20) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl
/-- Argument 21 is as launched when boundary 9 is reached. -/
theorem arg21_W9 (c : Dev nD) : W9 m ρ c (Proc.devRef .tc main_arg21) = m ((c : Thread nD τ).loc main_arg21) :=
  calc W9 m ρ c (Proc.devRef .tc main_arg21)
    _ = W8 m ρ c (Proc.devRef .tc main_arg21) := StableHlo.after_of_forall_not_mem (b := Proc.devRef .tc main_arg21) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := StableHlo.after_of_forall_not_mem (b := Proc.devRef .tc main_arg21) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg21) := W3_of_ne m ρ c main_arg21 (by decide)
    _ = W1 m ρ c (Proc.devRef .tc main_arg21) := StableHlo.after_of_forall_not_mem (b := Proc.devRef .tc main_arg21) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl
/-- Argument 22 is as launched when boundary 11 is reached. -/
theorem arg22_W11 (c : Dev nD) : W11 m ρ c (Proc.devRef .tc main_arg22) = m ((c : Thread nD τ).loc main_arg22) :=
  calc W11 m ρ c (Proc.devRef .tc main_arg22)
    _ = W10 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg22) := W10_of_ne m ρ c main_arg22 (by decide)
    _ = W8 m ρ c (Proc.devRef .tc main_arg22) := StableHlo.after_of_forall_not_mem (b := Proc.devRef .tc main_arg22) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg22) := StableHlo.after_of_forall_not_mem (b := Proc.devRef .tc main_arg22) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg22) := W3_of_ne m ρ c main_arg22 (by decide)
    _ = W1 m ρ c (Proc.devRef .tc main_arg22) := StableHlo.after_of_forall_not_mem (b := Proc.devRef .tc main_arg22) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl
/-- Argument 23 is as launched when boundary 11 is reached. -/
theorem arg23_W11 (c : Dev nD) : W11 m ρ c (Proc.devRef .tc main_arg23) = m ((c : Thread nD τ).loc main_arg23) :=
  calc W11 m ρ c (Proc.devRef .tc main_arg23)
    _ = W10 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg23) := W10_of_ne m ρ c main_arg23 (by decide)
    _ = W8 m ρ c (Proc.devRef .tc main_arg23) := StableHlo.after_of_forall_not_mem (b := Proc.devRef .tc main_arg23) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg23) := StableHlo.after_of_forall_not_mem (b := Proc.devRef .tc main_arg23) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg23) := W3_of_ne m ρ c main_arg23 (by decide)
    _ = W1 m ρ c (Proc.devRef .tc main_arg23) := StableHlo.after_of_forall_not_mem (b := Proc.devRef .tc main_arg23) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl
/-- Argument 24 is as launched when boundary 11 is reached. -/
theorem arg24_W11 (c : Dev nD) : W11 m ρ c (Proc.devRef .tc main_arg24) = m ((c : Thread nD τ).loc main_arg24) :=
  calc W11 m ρ c (Proc.devRef .tc main_arg24)
    _ = W10 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg24) := W10_of_ne m ρ c main_arg24 (by decide)
    _ = W8 m ρ c (Proc.devRef .tc main_arg24) := StableHlo.after_of_forall_not_mem (b := Proc.devRef .tc main_arg24) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg24) := StableHlo.after_of_forall_not_mem (b := Proc.devRef .tc main_arg24) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg24) := W3_of_ne m ρ c main_arg24 (by decide)
    _ = W1 m ρ c (Proc.devRef .tc main_arg24) := StableHlo.after_of_forall_not_mem (b := Proc.devRef .tc main_arg24) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl
/-- Argument 25 is as launched when boundary 11 is reached. -/
theorem arg25_W11 (c : Dev nD) : W11 m ρ c (Proc.devRef .tc main_arg25) = m ((c : Thread nD τ).loc main_arg25) :=
  calc W11 m ρ c (Proc.devRef .tc main_arg25)
    _ = W10 m ρ c (Proc.devRef .tc main_arg25) := StableHlo.after_of_forall_not_mem (b := Proc.devRef .tc main_arg25) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg25) := W10_of_ne m ρ c main_arg25 (by decide)
    _ = W8 m ρ c (Proc.devRef .tc main_arg25) := StableHlo.after_of_forall_not_mem (b := Proc.devRef .tc main_arg25) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg25) := StableHlo.after_of_forall_not_mem (b := Proc.devRef .tc main_arg25) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg25) := StableHlo.after_of_forall_not_mem (b := Proc.devRef .tc main_arg25) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg25) := W6_of_ne m ρ c main_arg25 (by decide)
    _ = W4 m ρ c (Proc.devRef .tc main_arg25) := StableHlo.after_of_forall_not_mem (b := Proc.devRef .tc main_arg25) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg25) := StableHlo.after_of_forall_not_mem (b := Proc.devRef .tc main_arg25) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg25) := W3_of_ne m ρ c main_arg25 (by decide)
    _ = W1 m ρ c (Proc.devRef .tc main_arg25) := StableHlo.after_of_forall_not_mem (b := Proc.devRef .tc main_arg25) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg25) := StableHlo.after_of_forall_not_mem (b := Proc.devRef .tc main_arg25) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg25) := rfl
/-- Argument 26 is as launched when boundary 11 is reached. -/
theorem arg26_W11 (c : Dev nD) : W11 m ρ c (Proc.devRef .tc main_arg26) = m ((c : Thread nD τ).loc main_arg26) :=
  calc W11 m ρ c (Proc.devRef .tc main_arg26)
    _ = W10 m ρ c (Proc.devRef .tc main_arg26) := StableHlo.after_of_forall_not_mem (b := Proc.devRef .tc main_arg26) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg26) := W10_of_ne m ρ c main_arg26 (by decide)
    _ = W8 m ρ c (Proc.devRef .tc main_arg26) := StableHlo.after_of_forall_not_mem (b := Proc.devRef .tc main_arg26) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg26) := StableHlo.after_of_forall_not_mem (b := Proc.devRef .tc main_arg26) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg26) := StableHlo.after_of_forall_not_mem (b := Proc.devRef .tc main_arg26) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg26) := W6_of_ne m ρ c main_arg26 (by decide)
    _ = W4 m ρ c (Proc.devRef .tc main_arg26) := StableHlo.after_of_forall_not_mem (b := Proc.devRef .tc main_arg26) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg26) := StableHlo.after_of_forall_not_mem (b := Proc.devRef .tc main_arg26) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg26) := W3_of_ne m ρ c main_arg26 (by decide)
    _ = W1 m ρ c (Proc.devRef .tc main_arg26) := StableHlo.after_of_forall_not_mem (b := Proc.devRef .tc main_arg26) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg26) := StableHlo.after_of_forall_not_mem (b := Proc.devRef .tc main_arg26) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg26) := rfl
/-- Argument 27 is as launched when boundary 11 is reached. -/
theorem arg27_W11 (c : Dev nD) : W11 m ρ c (Proc.devRef .tc main_arg27) = m ((c : Thread nD τ).loc main_arg27) :=
  calc W11 m ρ c (Proc.devRef .tc main_arg27)
    _ = W10 m ρ c (Proc.devRef .tc main_arg27) := StableHlo.after_of_forall_not_mem (b := Proc.devRef .tc main_arg27) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg27) := W10_of_ne m ρ c main_arg27 (by decide)
    _ = W8 m ρ c (Proc.devRef .tc main_arg27) := StableHlo.after_of_forall_not_mem (b := Proc.devRef .tc main_arg27) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg27) := StableHlo.after_of_forall_not_mem (b := Proc.devRef .tc main_arg27) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg27) := StableHlo.after_of_forall_not_mem (b := Proc.devRef .tc main_arg27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg27) := W6_of_ne m ρ c main_arg27 (by decide)
    _ = W4 m ρ c (Proc.devRef .tc main_arg27) := StableHlo.after_of_forall_not_mem (b := Proc.devRef .tc main_arg27) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg27) := StableHlo.after_of_forall_not_mem (b := Proc.devRef .tc main_arg27) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg27) := W3_of_ne m ρ c main_arg27 (by decide)
    _ = W1 m ρ c (Proc.devRef .tc main_arg27) := StableHlo.after_of_forall_not_mem (b := Proc.devRef .tc main_arg27) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg27) := StableHlo.after_of_forall_not_mem (b := Proc.devRef .tc main_arg27) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg27) := rfl
/-- Nothing between boundaries 2 and 3 writes main_v3. -/
theorem v3_W3 (c : Dev nD) : W3 m ρ c (Proc.devRef .tc main_v3) = W2 m ρ c (Proc.devRef .tc main_v3) :=
  calc W3 m ρ c (Proc.devRef .tc main_v3)
    _ = W2 m ρ c (Proc.devRef .tc main_v3) := W3_of_ne m ρ c main_v3 (by decide)
/-- Nothing between boundaries 2 and 6 writes main_v3. -/
theorem v3_W6 (c : Dev nD) : W6 m ρ c (Proc.devRef .tc main_v3) = W2 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
/-- Nothing between boundaries 2 and 7 writes main_v3. -/
theorem v3_W7 (c : Dev nD) : W7 m ρ c (Proc.devRef .tc main_v3) = W2 m ρ c (Proc.devRef .tc main_v3) :=
  calc W7 m ρ c (Proc.devRef .tc main_v3)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
/-- Nothing between boundaries 2 and 10 writes main_v3. -/
theorem v3_W10 (c : Dev nD) : W10 m ρ c (Proc.devRef .tc main_v3) = W2 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := StableHlo.after_of_forall_not_mem (b := Proc.devRef .tc main_v3) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := W3_of_ne m ρ c main_v3 (by decide)
/-- Nothing between boundaries 2 and 4 writes main_v1. -/
theorem v1_W4 (c : Dev nD) : W4 m ρ c (Proc.devRef .tc main_v1) = W2 m ρ c (Proc.devRef .tc main_v1) :=
  calc W4 m ρ c (Proc.devRef .tc main_v1)
    _ = W3 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W3_of_ne m ρ c main_v1 (by decide)
/-- Nothing between boundaries 2 and 8 writes main_v1. -/
theorem v1_W8 (c : Dev nD) : W8 m ρ c (Proc.devRef .tc main_v1) = W2 m ρ c (Proc.devRef .tc main_v1) :=
  calc W8 m ρ c (Proc.devRef .tc main_v1)
    _ = W7 m ρ c (Proc.devRef .tc main_v1) := StableHlo.after_of_forall_not_mem (b := Proc.devRef .tc main_v1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := W3_of_ne m ρ c main_v1 (by decide)
/-- Nothing between boundaries 3 and 4 writes main_v8. -/
theorem v8_W4 (c : Dev nD) : W4 m ρ c (Proc.devRef .tc main_v8) = W3 m ρ c (Proc.devRef .tc main_v8) :=
  calc W4 m ρ c (Proc.devRef .tc main_v8)
    _ = W3 m ρ c (Proc.devRef .tc main_v8) := StableHlo.after_of_forall_not_mem (b := Proc.devRef .tc main_v8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- Nothing between boundaries 4 and 5 writes main_v9. -/
theorem v9_W5 (c : Dev nD) : W5 m ρ c (Proc.devRef .tc main_v9) = W4 m ρ c (Proc.devRef .tc main_v9) :=
  calc W5 m ρ c (Proc.devRef .tc main_v9)
    _ = W4 m ρ c (Proc.devRef .tc main_v9) := StableHlo.after_of_forall_not_mem (b := Proc.devRef .tc main_v9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- Nothing between boundaries 7 and 8 writes main_v23. -/
theorem v23_W8 (c : Dev nD) : W8 m ρ c (Proc.devRef .tc main_v23) = W7 m ρ c (Proc.devRef .tc main_v23) :=
  calc W8 m ρ c (Proc.devRef .tc main_v23)
    _ = W7 m ρ c (Proc.devRef .tc main_v23) := StableHlo.after_of_forall_not_mem (b := Proc.devRef .tc main_v23) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- Nothing between boundaries 8 and 9 writes main_v24. -/
theorem v24_W9 (c : Dev nD) : W9 m ρ c (Proc.devRef .tc main_v24) = W8 m ρ c (Proc.devRef .tc main_v24) :=
  calc W9 m ρ c (Proc.devRef .tc main_v24)
    _ = W8 m ρ c (Proc.devRef .tc main_v24) := StableHlo.after_of_forall_not_mem (b := Proc.devRef .tc main_v24) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
/-- Nothing between boundaries 7 and 10 writes main_v18. -/
theorem v18_W10 (c : Dev nD) : W10 m ρ c (Proc.devRef .tc main_v18) = W7 m ρ c (Proc.devRef .tc main_v18) :=
  calc W10 m ρ c (Proc.devRef .tc main_v18)
    _ = W9 m ρ c (Proc.devRef .tc main_v18) := W10_of_ne m ρ c main_v18 (by decide)
    _ = W8 m ρ c (Proc.devRef .tc main_v18) := StableHlo.after_of_forall_not_mem (b := Proc.devRef .tc main_v18) _ _ (List.forall_iff_forall_mem.mp (by
          simp only [hostOps2_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v18) := StableHlo.after_of_forall_not_mem (b := Proc.devRef .tc main_v18) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.EmbedPoint.lean ====
/-
  The node embedding on one block of rows. The block's result is written from its rows' input: the input is
  normalised column by column, then passes three affine layers, each followed by the rectifier. Read at an entry,
  every stage is the entry-wise formula of the network's description, so the block's result is the embedding of
  the block of rows.
-/
import proofs.«419797_j47588237639715_2_alg».proof.Proof.Gen.KernelIdeal.Skeleton
import proofs.«419797_j47588237639715_2_alg».proof.Proof.Spec
import proofs.«419797_j47588237639715_2_alg».proof.Proof.LibDot
import Idealize.ShloMosaic.Lib.ValueLayout

set_option maxRecDepth 16384

noncomputable section

open scoped BigOperators

namespace Cert.KernelIdeal.EmbedPoint

open Idealize.ShloMosaic Idealize.ShloMosaic.ValueIdx
open Cert.KernelIdeal Cert.KernelIdeal.Gen Cert.Spec

/-- A rectified affine layer as the block computes it: the product into a zero accumulator, the bias as one row
    spread over all rows, the maximum with zero. -/
def layer {R K C : Nat} (d : DotDims ⟨2, ![R, K]⟩ ⟨2, ![K, C]⟩ ⟨2, ![R, C]⟩) (x : Mat R K) (w : Mat K C) (b : Vec1 C)
    (hs : (⟨1, ![C]⟩ : Shape).ShapeCasts ⟨2, ![1, C]⟩) (hb : (⟨2, ![1, C]⟩ : Shape).Broadcasts ⟨2, ![R, C]⟩) : Mat R C :=
  maximumf
    (addf (matmul d none (truncf .bf16 x bitsLt_bf16_f32) (truncf .bf16 w bitsLt_bf16_f32) (constant ⟨2, ![R, C]⟩ .f32 0x00000000#32))
      (broadcastTo ⟨2, ![R, C]⟩ (shapeCast ⟨2, ![1, C]⟩ b hs) hb))
    (broadcast ⟨2, ![R, C]⟩ (Scalar.ofBits .f32 0x00000000#32))

/-- Its entry (r, c) is the affine layer's entry, rectified. -/
theorem layer_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : Mat R K) (w : Mat K C) (b : Vec1 C)
    (hs : (⟨1, ![C]⟩ : Shape).ShapeCasts ⟨2, ![1, C]⟩) (hb : (⟨2, ![1, C]⟩ : Shape).Broadcasts ⟨2, ![R, C]⟩)
    (r : Fin R) (c : Fin C) :
    layer d x w b hs hb (ix2 r c) = max (linAt x w b r c) zero := by
  unfold layer
  rw [maximumf_apply, addf_apply, broadcastTo_1b_ab_apply, shapeCast_a_1a_apply]
  unfold linAt
  refine congrArg₂ max (congrArg (· + b (ix1 c)) ?_) rfl
  exact Cert.LibDot.matmul_zero_at d hl hr hln hrn hlb hrb none _ _ r c

/-- It is the rectified affine layer of the description. -/
theorem layer_eq {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : Mat R K) (w : Mat K C) (b : Vec1 C)
    (hs : (⟨1, ![C]⟩ : Shape).ShapeCasts ⟨2, ![1, C]⟩) (hb : (⟨2, ![1, C]⟩ : Shape).Broadcasts ⟨2, ![R, C]⟩) :
    layer d x w b hs hb = relu (lin x w b) :=
  funext fun i => (congrArg (layer d x w b hs hb) (eq_ix2 i)).trans (layer_at d hl hr hln hrn hlb hrb x w b hs hb (i 0) (i 1))

/-- The normalised block as the block computes it: every column vector as one row spread over all rows. -/
def norm {R : Nat} (x : Mat R 4) (mu var g b : Vec1 4) (hs4 : (⟨1, ![4]⟩ : Shape).ShapeCasts ⟨1, ![4]⟩)
    (hs : (⟨1, ![4]⟩ : Shape).ShapeCasts ⟨2, ![1, 4]⟩) (hb : (⟨2, ![1, 4]⟩ : Shape).Broadcasts ⟨2, ![R, 4]⟩) : Mat R 4 :=
  addf
    (mulf
      (mulf (subf x (broadcastTo ⟨2, ![R, 4]⟩ (shapeCast ⟨2, ![1, 4]⟩ (shapeCast ⟨1, ![4]⟩ mu hs4) hs) hb))
        (broadcastTo ⟨2, ![R, 4]⟩
          (shapeCast ⟨2, ![1, 4]⟩ (rsqrt (addf (shapeCast ⟨1, ![4]⟩ var hs4) (broadcast ⟨1, ![4]⟩ (Scalar.ofBits .f32 0x3727C5AC#32)))) hs) hb))
      (broadcastTo ⟨2, ![R, 4]⟩ (shapeCast ⟨2, ![1, 4]⟩ g hs) hb))
    (broadcastTo ⟨2, ![R, 4]⟩ (shapeCast ⟨2, ![1, 4]⟩ b hs) hb)

/-- Its entry (r, c) is the normalisation's entry. -/
theorem norm_at {R : Nat} (x : Mat R 4) (mu var g b : Vec1 4) (hs4 : (⟨1, ![4]⟩ : Shape).ShapeCasts ⟨1, ![4]⟩)
    (hs : (⟨1, ![4]⟩ : Shape).ShapeCasts ⟨2, ![1, 4]⟩) (hb : (⟨2, ![1, 4]⟩ : Shape).Broadcasts ⟨2, ![R, 4]⟩)
    (r : Fin R) (c : Fin 4) : norm x mu var g b hs4 hs hb (ix2 r c) = bnAt x mu var g b r c := by
  unfold norm bnAt
  rw [addf_apply, mulf_apply, mulf_apply, subf_apply, broadcastTo_1b_ab_apply, broadcastTo_1b_ab_apply,
    broadcastTo_1b_ab_apply, broadcastTo_1b_ab_apply, shapeCast_a_1a_apply, shapeCast_a_1a_apply, shapeCast_a_1a_apply,
    shapeCast_a_1a_apply, shapeCast_self, shapeCast_self]
  rfl

/-- It is the normalisation of the description. -/
theorem norm_eq {R : Nat} (x : Mat R 4) (mu var g b : Vec1 4) (hs4 : (⟨1, ![4]⟩ : Shape).ShapeCasts ⟨1, ![4]⟩)
    (hs : (⟨1, ![4]⟩ : Shape).ShapeCasts ⟨2, ![1, 4]⟩) (hb : (⟨2, ![1, 4]⟩ : Shape).Broadcasts ⟨2, ![R, 4]⟩) :
    norm x mu var g b hs4 hs hb = bnorm x mu var g b :=
  funext fun i => (congrArg (norm x mu var g b hs4 hs hb) (eq_ix2 i)).trans (norm_at x mu var g b hs4 hs hb (i 0) (i 1))

/-- The block's result is the three layers over the normalised block. -/
theorem block_struct (x : Vec Ideal S10000x4 .f32) (mu var g b : Vec Ideal S4 .f32) (w0 : Vec Ideal S4x32 .f32)
    (b0 : Vec Ideal S32 .f32) (w1 : Vec Ideal S32x32 .f32) (b1 : Vec Ideal S32 .f32) (w2 : Vec Ideal S32x32 .f32)
    (b2 : Vec Ideal S32 .f32) :
    k0_pay1 w2 b2 (k0_pay2 x mu var g b w0 b0 w1) (k0_pay3 b1)
      = layer dot_S10000x32_S32x32_S10000x32_1_0_0_1_n_n
          (layer dot_S10000x32_S32x32_S10000x32_1_0_0_1_n_n
            (layer dot_S10000x4_S4x32_S10000x32_1_0_0_1_n_n
              (norm x mu var g b shapeCasts_S4_S4 shapeCasts_S4_S1x4 broadcasts_S1x4_S10000x4)
              w0 b0 shapeCasts_S32_S1x32 broadcasts_S1x32_S10000x32)
            w1 b1 shapeCasts_S32_S1x32 broadcasts_S1x32_S10000x32)
          w2 b2 shapeCasts_S32_S1x32 broadcasts_S1x32_S10000x32 := rfl

/-- The block's result is the embedding of the block of rows. -/
theorem block_eq (x : Vec Ideal S10000x4 .f32) (mu var g b : Vec Ideal S4 .f32) (w0 : Vec Ideal S4x32 .f32)
    (b0 : Vec Ideal S32 .f32) (w1 : Vec Ideal S32x32 .f32) (b1 : Vec Ideal S32 .f32) (w2 : Vec Ideal S32x32 .f32)
    (b2 : Vec Ideal S32 .f32) :
    k0_pay1 w2 b2 (k0_pay2 x mu var g b w0 b0 w1) (k0_pay3 b1) = embed (R := 10000) x mu var g b w0 b0 w1 b1 w2 b2 := by
  rw [block_struct, norm_eq,
    layer_eq dot_S10000x4_S4x32_S10000x32_1_0_0_1_n_n rfl rfl rfl rfl rfl rfl,
    layer_eq dot_S10000x32_S32x32_S10000x32_1_0_0_1_n_n rfl rfl rfl rfl rfl rfl,
    layer_eq dot_S10000x32_S32x32_S10000x32_1_0_0_1_n_n rfl rfl rfl rfl rfl rfl]
  rfl

end Cert.KernelIdeal.EmbedPoint

end
-- ==== Proof.EmbedRows.lean ====
/-
  The node embedding acts on each row by itself: a row of the result is a function of the same row of the input
  alone. So two tables that agree on a pair of rows have embeddings that agree on that pair of rows.
-/
import proofs.«419797_j47588237639715_2_alg».proof.Proof.Spec

noncomputable section

open scoped BigOperators

namespace Cert.KernelIdeal.EmbedRows

open Idealize.ShloMosaic Idealize.ShloMosaic.ValueIdx Cert.Spec

/-- Row r of the embedding of x is row r' of the embedding of x' when row r of x is row r' of x'. -/
theorem embed_row {R R' : Nat} (x : Mat R 4) (x' : Mat R' 4) (mu var g b : Vec1 4) (w0 : Mat 4 32) (b0 : Vec1 32)
    (w1 : Mat 32 32) (b1 : Vec1 32) (w2 : Mat 32 32) (b2 : Vec1 32) (r : Fin R) (r' : Fin R')
    (h : ∀ k : Fin 4, x (ix2 r k) = x' (ix2 r' k)) (c : Fin 32) :
    embed x mu var g b w0 b0 w1 b1 w2 b2 (ix2 r c) = embed x' mu var g b w0 b0 w1 b1 w2 b2 (ix2 r' c) := by
  unfold embed mlpR relu lin bnorm
  simp only [ofEntries_apply]
  unfold linAt
  simp only [ofEntries_apply]
  unfold bnAt
  simp only [h]

/-- The same at a pair of entries given by their indices. -/
theorem embed_entry {R R' : Nat} (x : Mat R 4) (x' : Mat R' 4) (mu var g b : Vec1 4) (w0 : Mat 4 32) (b0 : Vec1 32)
    (w1 : Mat 32 32) (b1 : Vec1 32) (w2 : Mat 32 32) (b2 : Vec1 32)
    (i : (⟨2, ![R, 32]⟩ : Shape).Idx) (i' : (⟨2, ![R', 32]⟩ : Shape).Idx) (hc : i 1 = i' 1)
    (h : ∀ k : Fin 4, x (ix2 (i 0) k) = x' (ix2 (i' 0) k)) :
    embed x mu var g b w0 b0 w1 b1 w2 b2 i = embed x' mu var g b w0 b0 w1 b1 w2 b2 i' :=
  (congrArg (embed x mu var g b w0 b0 w1 b1 w2 b2) (eq_ix2 i)).trans
    ((embed_row x x' mu var g b w0 b0 w1 b1 w2 b2 (i 0) (i' 0) h (i 1)).trans
      (congrArg (embed x' mu var g b w0 b0 w1 b1 w2 b2) ((congrArg (ix2 (i' 0)) hc).trans (eq_ix2 i').symm)))

end Cert.KernelIdeal.EmbedRows

end
-- ==== Proof.EmbedValue.lean ====
import proofs.«419797_j47588237639715_2_alg».proof.Proof.Gen.KernelIdeal.Frame
import proofs.«419797_j47588237639715_2_alg».proof.Proof.Spec
import proofs.«419797_j47588237639715_2_alg».proof.Proof.EmbedPoint
import proofs.«419797_j47588237639715_2_alg».proof.Proof.EmbedRows
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Embed

theorem zero_pair : (![0, 0] : Fin 2 → Nat) = fun _ => 0 := funext fun a => by fin_cases a <;> rfl

theorem zero_single : (![0] : Fin 1 → Nat) = fun _ => 0 := funext fun a => by fin_cases a; rfl

/-- The block of rows a grid point takes of the input table and the block of rows it gives of the result are the
    point's own: block number = point number along the rows, the one block along the columns. -/
theorem idx_rows : ∀ t : Fin cfg0.N, win0_0.index t (0 : Fin 2) = t.val ∧ win0_0.index t (1 : Fin 2) = 0
    ∧ win0_11.index t (0 : Fin 2) = t.val ∧ win0_11.index t (1 : Fin 2) = 0 :=
  (by decide +kernel : ∀ t : Fin grid0.N, _)

/-- Every vector and every weight matrix is taken whole at every grid point. -/
theorem idx_whole : ∀ t : Fin cfg0.N, win0_1.index t (0 : Fin 1) = 0 ∧ win0_2.index t (0 : Fin 1) = 0
    ∧ win0_3.index t (0 : Fin 1) = 0 ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0 :=
  (by decide +kernel : ∀ t : Fin grid0.N, _)

theorem whole1 (c : Dev nD) (t : Fin cfg0.N) : iblk0 (F := Ideal) V c 1 t = V c (Pipeline.arrRef spec0 1) := by
  obtain ⟨e1, e2, e3, e4, e50, e51, e6, e70, e71, e8, e90, e91, e10⟩ := idx_whole t
  have hz' : (fun a => win0_1.index t a * main_v6.ty.shape.size a) = fun _ => 0 := funext fun a => by
    match a with
    | ⟨0, _⟩ => show win0_1.index t (0 : Fin 1) * _ = 0; rw [e1, Nat.zero_mul]
  exact Memref.read_access_unit_zero (Elt Ideal) main_v6 hz' (fun a => by rw [congrFun hz' a]; simp) _

theorem whole2 (c : Dev nD) (t : Fin cfg0.N) : iblk0 (F := Ideal) V c 2 t = V c (Pipeline.arrRef spec0 2) := by
  obtain ⟨e1, e2, e3, e4, e50, e51, e6, e70, e71, e8, e90, e91, e10⟩ := idx_whole t
  have hz' : (fun a => win0_2.index t a * main_v7.ty.shape.size a) = fun _ => 0 := funext fun a => by
    match a with
    | ⟨0, _⟩ => show win0_2.index t (0 : Fin 1) * _ = 0; rw [e2, Nat.zero_mul]
  exact Memref.read_access_unit_zero (Elt Ideal) main_v7 hz' (fun a => by rw [congrFun hz' a]; simp) _

theorem whole3 (c : Dev nD) (t : Fin cfg0.N) : iblk0 (F := Ideal) V c 3 t = V c (Pipeline.arrRef spec0 3) := by
  obtain ⟨e1, e2, e3, e4, e50, e51, e6, e70, e71, e8, e90, e91, e10⟩ := idx_whole t
  have hz' : (fun a => win0_3.index t a * main_arg2.ty.shape.size a) = fun _ => 0 := funext fun a => by
    match a with
    | ⟨0, _⟩ => show win0_3.index t (0 : Fin 1) * _ = 0; rw [e3, Nat.zero_mul]
  exact Memref.read_access_unit_zero (Elt Ideal) main_arg2 hz' (fun a => by rw [congrFun hz' a]; simp) _

theorem whole4 (c : Dev nD) (t : Fin cfg0.N) : iblk0 (F := Ideal) V c 4 t = V c (Pipeline.arrRef spec0 4) := by
  obtain ⟨e1, e2, e3, e4, e50, e51, e6, e70, e71, e8, e90, e91, e10⟩ := idx_whole t
  have hz' : (fun a => win0_4.index t a * main_arg3.ty.shape.size a) = fun _ => 0 := funext fun a => by
    match a with
    | ⟨0, _⟩ => show win0_4.index t (0 : Fin 1) * _ = 0; rw [e4, Nat.zero_mul]
  exact Memref.read_access_unit_zero (Elt Ideal) main_arg3 hz' (fun a => by rw [congrFun hz' a]; simp) _

theorem whole5 (c : Dev nD) (t : Fin cfg0.N) : iblk0 (F := Ideal) V c 5 t = V c (Pipeline.arrRef spec0 5) := by
  obtain ⟨e1, e2, e3, e4, e50, e51, e6, e70, e71, e8, e90, e91, e10⟩ := idx_whole t
  have hz' : (fun a => win0_5.index t a * main_arg4.ty.shape.size a) = fun _ => 0 := funext fun a => by
    match a with
    | ⟨0, _⟩ => show win0_5.index t (0 : Fin 2) * _ = 0; rw [e50, Nat.zero_mul]
    | ⟨1, _⟩ => show win0_5.index t (1 : Fin 2) * _ = 0; rw [e51, Nat.zero_mul]
  exact Memref.read_access_unit_zero (Elt Ideal) main_arg4 hz' (fun a => by rw [congrFun hz' a]; simp) _

theorem whole6 (c : Dev nD) (t : Fin cfg0.N) : iblk0 (F := Ideal) V c 6 t = V c (Pipeline.arrRef spec0 6) := by
  obtain ⟨e1, e2, e3, e4, e50, e51, e6, e70, e71, e8, e90, e91, e10⟩ := idx_whole t
  have hz' : (fun a => win0_6.index t a * main_arg5.ty.shape.size a) = fun _ => 0 := funext fun a => by
    match a with
    | ⟨0, _⟩ => show win0_6.index t (0 : Fin 1) * _ = 0; rw [e6, Nat.zero_mul]
  exact Memref.read_access_unit_zero (Elt Ideal) main_arg5 hz' (fun a => by rw [congrFun hz' a]; simp) _

theorem whole7 (c : Dev nD) (t : Fin cfg0.N) : iblk0 (F := Ideal) V c 7 t = V c (Pipeline.arrRef spec0 7) := by
  obtain ⟨e1, e2, e3, e4, e50, e51, e6, e70, e71, e8, e90, e91, e10⟩ := idx_whole t
  have hz' : (fun a => win0_7.index t a * main_arg6.ty.shape.size a) = fun _ => 0 := funext fun a => by
    match a with
    | ⟨0, _⟩ => show win0_7.index t (0 : Fin 2) * _ = 0; rw [e70, Nat.zero_mul]
    | ⟨1, _⟩ => show win0_7.index t (1 : Fin 2) * _ = 0; rw [e71, Nat.zero_mul]
  exact Memref.read_access_unit_zero (Elt Ideal) main_arg6 hz' (fun a => by rw [congrFun hz' a]; simp) _

theorem whole8 (c : Dev nD) (t : Fin cfg0.N) : iblk0 (F := Ideal) V c 8 t = V c (Pipeline.arrRef spec0 8) := by
  obtain ⟨e1, e2, e3, e4, e50, e51, e6, e70, e71, e8, e90, e91, e10⟩ := idx_whole t
  have hz' : (fun a => win0_8.index t a * main_arg7.ty.shape.size a) = fun _ => 0 := funext fun a => by
    match a with
    | ⟨0, _⟩ => show win0_8.index t (0 : Fin 1) * _ = 0; rw [e8, Nat.zero_mul]
  exact Memref.read_access_unit_zero (Elt Ideal) main_arg7 hz' (fun a => by rw [congrFun hz' a]; simp) _

theorem whole9 (c : Dev nD) (t : Fin cfg0.N) : iblk0 (F := Ideal) V c 9 t = V c (Pipeline.arrRef spec0 9) := by
  obtain ⟨e1, e2, e3, e4, e50, e51, e6, e70, e71, e8, e90, e91, e10⟩ := idx_whole t
  have hz' : (fun a => win0_9.index t a * main_arg8.ty.shape.size a) = fun _ => 0 := funext fun a => by
    match a with
    | ⟨0, _⟩ => show win0_9.index t (0 : Fin 2) * _ = 0; rw [e90, Nat.zero_mul]
    | ⟨1, _⟩ => show win0_9.index t (1 : Fin 2) * _ = 0; rw [e91, Nat.zero_mul]
  exact Memref.read_access_unit_zero (Elt Ideal) main_arg8 hz' (fun a => by rw [congrFun hz' a]; simp) _

theorem whole10 (c : Dev nD) (t : Fin cfg0.N) : iblk0 (F := Ideal) V c 10 t = V c (Pipeline.arrRef spec0 10) := by
  obtain ⟨e1, e2, e3, e4, e50, e51, e6, e70, e71, e8, e90, e91, e10⟩ := idx_whole t
  have hz' : (fun a => win0_10.index t a * main_arg9.ty.shape.size a) = fun _ => 0 := funext fun a => by
    match a with
    | ⟨0, _⟩ => show win0_10.index t (0 : Fin 1) * _ = 0; rw [e10, Nat.zero_mul]
  exact Memref.read_access_unit_zero (Elt Ideal) main_arg9 hz' (fun a => by rw [congrFun hz' a]; simp) _

/-- The input table's block at a grid point, at row y and column k, is the table at row (point · 10000 + y), column k:
    stated against the row the result's block has in the result. -/
theorem rows_in (c : Dev nD) (t : Fin cfg0.N) (j : S10000x32.Idx) (k : Fin 4) :
    (iblk0 (F := Ideal) V c 0 t : S10000x4.Idx → Elt Ideal .f32) (ix2 (j 0) k)
      = (V c (Pipeline.arrRef spec0 0) : S50000x4.Idx → Elt Ideal .f32) (ix2 ((((cfg0.win 11).blk t).view.emb j) 0) k) := by
  obtain ⟨e00, e01, e110, e111⟩ := idx_rows t
  unfold iblk0
  rw [View.read_apply]
  show (V c (Pipeline.arrRef spec0 0) : S50000x4.Idx → Elt Ideal .f32) _ = _
  congr 1
  funext a
  apply Fin.ext
  match a with
  | ⟨0, _⟩ =>
    show win0_0.index t (0 : Fin 2) * 10000 + 1 * (j 0).val = win0_11.index t (0 : Fin 2) * 10000 + 1 * (j 0).val
    rw [e00, e110]
  | ⟨1, _⟩ =>
    show win0_0.index t (1 : Fin 2) * 4 + 1 * k.val = k.val
    rw [e01]; omega

/-- The result's block keeps the column. -/
theorem cols_out (t : Fin cfg0.N) (j : S10000x32.Idx) : j 1 = (((cfg0.win 11).blk t).view.emb j) 1 := by
  obtain ⟨e00, e01, e110, e111⟩ := idx_rows t
  apply Fin.ext
  show (j 1).val = win0_11.index t (1 : Fin 2) * 32 + 1 * (j 1).val
  rw [e111]; omega

/-- A block's result at an entry is the whole table's embedding at an entry of the same column whose row of the
    table is the block's row, the vectors and weight matrices being the whole ones. -/
theorem block_entry (X : Cert.Spec.Mat 50000 4) (MU VAR G B : Cert.Spec.Vec1 4) (W0 : Cert.Spec.Mat 4 32) (B0 : Cert.Spec.Vec1 32)
    (W1 : Cert.Spec.Mat 32 32) (B1 : Cert.Spec.Vec1 32) (W2 : Cert.Spec.Mat 32 32) (B2 : Cert.Spec.Vec1 32)
    (x : Cert.Spec.Mat 10000 4) (mu var g b : Cert.Spec.Vec1 4) (w0 : Cert.Spec.Mat 4 32) (b0 : Cert.Spec.Vec1 32)
    (w1 : Cert.Spec.Mat 32 32) (b1 : Cert.Spec.Vec1 32) (w2 : Cert.Spec.Mat 32 32) (b2 : Cert.Spec.Vec1 32)
    (h1 : mu = MU) (h2 : var = VAR) (h3 : g = G) (h4 : b = B) (h5 : w0 = W0) (h6 : b0 = B0) (h7 : w1 = W1) (h8 : b1 = B1)
    (h9 : w2 = W2) (h10 : b2 = B2) (j : S10000x32.Idx) (j' : S50000x32.Idx) (hc : j 1 = j' 1)
    (hr : ∀ k : Fin 4, x (ix2 (j 0) k) = X (ix2 (j' 0) k)) :
    k0_pay1 w2 b2 (k0_pay2 x mu var g b w0 b0 w1) (k0_pay3 b1) j = Cert.Spec.embed X MU VAR G B W0 B0 W1 B1 W2 B2 j' := by
  subst h1 h2 h3 h4 h5 h6 h7 h8 h9 h10
  rw [EmbedPoint.block_eq]
  exact EmbedRows.embed_entry x X mu var g b w0 b0 w1 b1 w2 b2 j j' hc hr

/-- What a grid point writes back is its block of rows of the embedding of the whole table. -/
theorem flushed_eq (c : Dev nD) (t : Fin cfg0.N) :
    (dat0 (F := Ideal) V c).flushed 11 t = ((cfg0.win 11).blk t).view.read (Elt Ideal)
      (Cert.Spec.embed (R := 50000) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6))
          (V c (Pipeline.arrRef spec0 7)) (V c (Pipeline.arrRef spec0 8)) (V c (Pipeline.arrRef spec0 9)) (V c (Pipeline.arrRef spec0 10))) := by
  show (cfg0.win 11).cut (grid0.coords t) ((dat0 (F := Ideal) V c).after 11 t) = _
  rw [after0_11]
  unfold out0_11
  rw [View.canon_unit_zero zero_pair]
  simp only [View.ld_unit_zero (S := S10000x4) zero_pair, View.ld_unit_zero (S := S4) zero_single,
    View.ld_unit_zero (S := S4x32) zero_pair, View.ld_unit_zero (S := S32) zero_single,
    View.ld_unit_zero (S := S32x32) zero_pair]
  funext j
  exact block_entry _ _ _ _ _ _ _ _ _ _ _ _ _ _ _ _ _ _ _ _ _ _ (whole1 V c t) (whole2 V c t) (whole3 V c t) (whole4 V c t)
    (whole5 V c t) (whole6 V c t) (whole7 V c t) (whole8 V c t) (whole9 V c t) (whole10 V c t) j
    (((cfg0.win 11).blk t).view.emb j) (cols_out t j) (rows_in V c t j)

/-- Every row of the result is in the block of the grid point numbered by the row's quotient by the block height. -/
theorem covered (i : S50000x32.Idx) :
    ∃ t : Fin cfg0.N, (cfg0.win 11).flush t = true ∧ i ∈ ((cfg0.win 11).blk t).view.set := by
  have hi0 : (i 0).val < 50000 := (i 0).isLt
  have hi1 : (i 1).val < 32 := (i 1).isLt
  have hN : cfg0.N = 5 := N_0
  have ht : (i 0).val / 10000 < cfg0.N := by rw [hN]; omega
  obtain ⟨e00, e01, e110, e111⟩ := idx_rows ⟨(i 0).val / 10000, ht⟩
  refine ⟨⟨(i 0).val / 10000, ht⟩, flush0_11 _, ?_⟩
  show i ∈ ((View.whole main_v8).slice (win0_11.rect ⟨(i 0).val / 10000, ht⟩)).set
  rw [View.set_slice_whole, Rect.mem_set_unit]
  intro a
  match a with
  | ⟨0, _⟩ =>
    show win0_11.index ⟨(i 0).val / 10000, ht⟩ (0 : Fin 2) * 10000 ≤ (i 0).val
      ∧ (i 0).val < win0_11.index ⟨(i 0).val / 10000, ht⟩ (0 : Fin 2) * 10000 + 10000
    rw [e110]
    show (i 0).val / 10000 * 10000 ≤ (i 0).val ∧ (i 0).val < (i 0).val / 10000 * 10000 + 10000
    omega
  | ⟨1, _⟩ =>
    show win0_11.index ⟨(i 0).val / 10000, ht⟩ (1 : Fin 2) * 32 ≤ (i 1).val
      ∧ (i 1).val < win0_11.index ⟨(i 0).val / 10000, ht⟩ (1 : Fin 2) * 32 + 32
    rw [e111]
    omega

end Embed

open Embed

theorem embed_value (c : Dev nD) :
    (dat0 (F := Ideal) V c).arrAt 11 cfg0.N
      = Cert.Spec.embed (R := 50000) (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) (V c (Pipeline.arrRef spec0 6))
          (V c (Pipeline.arrRef spec0 7)) (V c (Pipeline.arrRef spec0 8)) (V c (Pipeline.arrRef spec0 9)) (V c (Pipeline.arrRef spec0 10)) := by
  exact (dat0 (F := Ideal) V c).arrAt_eq_of_cover 11 _ (fun t _ => flushed_eq V c t) covered

end Cert.KernelIdeal.RegionValue

end
-- ==== Proof.Edge1Rows.lean ====
/-
  Every dense stage of the network acts on each row by itself. Hence an edge stage read at row e of one table
  agrees with the same stage read at row e' of another table whenever the target rows and the source rows at
  e and e' agree entry by entry: a block of rows of the whole result is the stage applied to that block of rows.
-/
import proofs.«419797_j47588237639715_2_alg».proof.Proof.Spec

noncomputable section

open scoped BigOperators

namespace Cert.KernelIdeal.Edge1

open Idealize.ShloMosaic Idealize.ShloMosaic.ValueIdx Cert.Spec

/-- An affine layer's entry (r, c) reads only row r of its input. -/
theorem linAt_row {R R' K C : Nat} (x : Mat R K) (x' : Mat R' K) (w : Mat K C) (b : Vec1 C) (r : Fin R) (r' : Fin R')
    (h : ∀ k : Fin K, x (ix2 r k) = x' (ix2 r' k)) (c : Fin C) : linAt x w b r c = linAt x' w b r' c := by
  unfold linAt
  exact congrArg (· + b (ix1 c)) (Finset.sum_congr rfl fun k _ => by rw [h k])

/-- So does a rectified affine layer's. -/
theorem relu_lin_row {R R' K C : Nat} (x : Mat R K) (x' : Mat R' K) (w : Mat K C) (b : Vec1 C) (r : Fin R) (r' : Fin R')
    (h : ∀ k : Fin K, x (ix2 r k) = x' (ix2 r' k)) (c : Fin C) :
    relu (lin x w b) (ix2 r c) = relu (lin x' w b) (ix2 r' c) := by
  show max (linAt x w b r c) zero = max (linAt x' w b r' c) zero
  rw [linAt_row x x' w b r r' h c]

/-- Three rectified layers read at row r only row r of the input. -/
theorem mlpR_row {R R' A B C D : Nat} (x : Mat R A) (x' : Mat R' A) (w0 : Mat A B) (b0 : Vec1 B) (w1 : Mat B C) (b1 : Vec1 C)
    (w2 : Mat C D) (b2 : Vec1 D) (r : Fin R) (r' : Fin R') (h : ∀ k : Fin A, x (ix2 r k) = x' (ix2 r' k)) (o : Fin D) :
    mlpR x w0 b0 w1 b1 w2 b2 (ix2 r o) = mlpR x' w0 b0 w1 b1 w2 b2 (ix2 r' o) := by
  unfold mlpR
  refine relu_lin_row _ _ w2 b2 r r' (fun k => ?_) o
  refine relu_lin_row _ _ w1 b1 r r' (fun k => ?_) k
  exact relu_lin_row x x' w0 b0 r r' h k

/-- An edge's input row is made of that edge's target row and source row. -/
theorem pair_row {E E' D : Nat} (N : Nat) (xi xj : Mat E D) (xi' xj' : Mat E' D) (e : Fin E) (e' : Fin E')
    (hi : ∀ k : Fin D, xi (ix2 e k) = xi' (ix2 e' k)) (hj : ∀ k : Fin D, xj (ix2 e k) = xj' (ix2 e' k)) (k : Fin N) :
    pair N xi xj (ix2 e k) = pair N xi' xj' (ix2 e' k) := by
  show pairAt xi xj e k = pairAt xi' xj' e' k
  unfold pairAt
  split
  · exact hi _
  · split
    · rw [hi, hj]
    · rfl

/-- An edge stage at edge e reads only the target row and the source row of e. -/
theorem edgeMlp_row {E E' D B C O : Nat} (N : Nat) (xi xj : Mat E D) (xi' xj' : Mat E' D) (w0 : Mat N B) (b0 : Vec1 B)
    (w1 : Mat B C) (b1 : Vec1 C) (w2 : Mat C O) (b2 : Vec1 O) (e : Fin E) (e' : Fin E')
    (hi : ∀ k : Fin D, xi (ix2 e k) = xi' (ix2 e' k)) (hj : ∀ k : Fin D, xj (ix2 e k) = xj' (ix2 e' k)) (o : Fin O) :
    edgeMlp N xi xj w0 b0 w1 b1 w2 b2 (ix2 e o) = edgeMlp N xi' xj' w0 b0 w1 b1 w2 b2 (ix2 e' o) := by
  unfold edgeMlp
  exact mlpR_row _ _ w0 b0 w1 b1 w2 b2 e e' (pair_row N xi xj xi' xj' e e' hi hj) o

/-- A block of 8000 consecutive edges: when the block's target rows and source rows are rows t·8000 + p of the whole
    tables, the edge stage of the block at (y₀, y₁) is the edge stage of the whole tables at (t·8000 + y₀, y₁). -/
theorem block_rows {xi xj : Mat 8000 32} {Xi Xj : Mat 800000 32} (t : Nat)
    (hi : ∀ (p : Fin 8000) (p' : Fin 800000) (k : Fin 32), p'.val = t * 8000 + p.val → xi (ix2 p k) = Xi (ix2 p' k))
    (hj : ∀ (p : Fin 8000) (p' : Fin 800000) (k : Fin 32), p'.val = t * 8000 + p.val → xj (ix2 p k) = Xj (ix2 p' k))
    (w0 : Mat 64 32) (b0 : Vec1 32) (w1 : Mat 32 32) (b1 : Vec1 32) (w2 : Mat 32 2) (b2 : Vec1 2)
    (y : (⟨2, ![8000, 2]⟩ : Shape).Idx) (i : (⟨2, ![800000, 2]⟩ : Shape).Idx)
    (h0 : (i 0).val = t * 8000 + (y 0).val) (h1 : (i 1).val = (y 1).val) :
    edgeMlp 64 xi xj w0 b0 w1 b1 w2 b2 y = edgeMlp 64 Xi Xj w0 b0 w1 b1 w2 b2 i := by
  obtain ⟨p, q, rfl⟩ : ∃ (p : Fin 8000) (q : Fin 2), y = ix2 p q := ⟨y 0, y 1, eq_ix2 y⟩
  obtain ⟨p', q', rfl⟩ : ∃ (p' : Fin 800000) (q' : Fin 2), i = ix2 p' q' := ⟨i 0, i 1, eq_ix2 i⟩
  obtain rfl : q' = q := Fin.ext h1
  exact edgeMlp_row 64 xi xj Xi Xj w0 b0 w1 b1 w2 b2 p p' (fun k => hi p p' k h0) (fun k => hj p p' k h0) q'

end Cert.KernelIdeal.Edge1

end
-- ==== Proof.Edge1Payload.lean ====
/-
  What one grid step of the first edge stage computes from its blocks. The step sets each edge's target row
  beside the difference source − target, giving a row of 64 entries, and applies three rectified affine layers
  64 → 32 → 32 → 2; each layer is a product into a zero accumulator plus the bias row repeated down the rows,
  and over the extended reals the change of number format before a product is the identity. So the step's
  result is the edge stage of the specification applied to the step's own 8000 rows.
-/
import proofs.«419797_j47588237639715_2_alg».proof.Proof.Gen.KernelIdeal.Skeleton
import proofs.«419797_j47588237639715_2_alg».proof.Proof.Spec
import proofs.«419797_j47588237639715_2_alg».proof.Proof.LibDot
import Idealize.ShloMosaic.Lib.Pipeline.Value
import Idealize.ShloMosaic.Lib.ValueIdx

noncomputable section

open scoped BigOperators

namespace Cert.KernelIdeal.Edge1

open Idealize.ShloMosaic Idealize.ShloMosaic.ValueIdx Cert.Spec

/-- The bias row, given as a vector, viewed as a one-row matrix and repeated down the rows, reads b(c) at (r, c). -/
theorem bias_at {R C : Nat} (b : Vec1 C) (hsc : (⟨1, ![C]⟩ : Shape).ShapeCasts ⟨2, ![1, C]⟩)
    (hbc : (⟨2, ![1, C]⟩ : Shape).Broadcasts ⟨2, ![R, C]⟩) (r : Fin R) (c : Fin C) :
    broadcastTo (⟨2, ![R, C]⟩ : Shape) (shapeCast (⟨2, ![1, C]⟩ : Shape) b hsc) hbc (ix2 r c) = b (ix1 c) := by
  refine (broadcastTo_apply _ hbc (ix2 r c) (ix2 (0 : Fin 1) c) (fun a => ?_)).trans ?_
  · match a with
    | ⟨0, _⟩ => exact (if_pos rfl).symm
    | ⟨1, _⟩ =>
      show c.val = if C = 1 then 0 else c.val
      split
      · have := c.isLt; omega
      · rfl
  · refine (shapeCast_addUnit_apply ![C] b hsc (ix2 (0 : Fin 1) c)).trans ?_
    exact congrArg b (funext fun a => match a with | ⟨0, _⟩ => rfl)

/-- One rectified layer of the step: the product of the inputs into a zero accumulator, plus the bias row, then the
    maximum with zero, is the specification's rectified affine layer. -/
theorem rect_layer {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : Mat R K) (w : Mat K C) (b : Vec1 C) (hx : FTy.bits .bf16 < FTy.bits .f32)
    (hsc : (⟨1, ![C]⟩ : Shape).ShapeCasts ⟨2, ![1, C]⟩) (hbc : (⟨2, ![1, C]⟩ : Shape).Broadcasts ⟨2, ![R, C]⟩) :
    maximumf (addf (matmul d none (truncf .bf16 x hx) (truncf .bf16 w hx) (constant (F := Ideal) ⟨2, ![R, C]⟩ .f32 0x00000000#32))
        (broadcastTo (⟨2, ![R, C]⟩ : Shape) (shapeCast (⟨2, ![1, C]⟩ : Shape) b hsc) hbc))
      (broadcast (⟨2, ![R, C]⟩ : Shape) (Scalar.ofBits .f32 0x00000000#32)) = relu (lin x w b) := by
  funext j
  obtain ⟨r, c, rfl⟩ : ∃ (r : Fin R) (c : Fin C), j = ix2 r c := ⟨j 0, j 1, eq_ix2 j⟩
  show max (FloatOps.matmul d none (truncf .bf16 x hx) (truncf .bf16 w hx) (constant (F := Ideal) ⟨2, ![R, C]⟩ .f32 0x00000000#32) (ix2 r c)
      + broadcastTo (⟨2, ![R, C]⟩ : Shape) (shapeCast (⟨2, ![1, C]⟩ : Shape) b hsc) hbc (ix2 r c)) zero
    = max ((∑ k : Fin K, x (ix2 r k) * w (ix2 k c)) + b (ix1 c)) zero
  rw [Cert.LibDot.matmul_zero_at d hl hr hln hrn hlb hrb, bias_at b hsc hbc r c]
  rfl

/-- The target rows set beside source − target are the specification's edge input rows. -/
theorem concat_eq_pair {E : Nat} (xi xj : Mat E 32)
    (h : Shape.Concatenates [(⟨2, ![E, 32]⟩ : Shape), ⟨2, ![E, 32]⟩] ⟨2, ![E, 64]⟩ 1) :
    concatenate (⟨2, ![E, 64]⟩ : Shape) 1 [⟨⟨2, ![E, 32]⟩, xi⟩, ⟨⟨2, ![E, 32]⟩, subf xj xi⟩] h = pair 64 xi xj := by
  funext j
  obtain ⟨e, k, rfl⟩ : ∃ (e : Fin E) (k : Fin 64), j = ix2 e k := ⟨j 0, j 1, eq_ix2 j⟩
  show _ = pairAt xi xj e k
  unfold pairAt
  by_cases hk : k.val < 32
  · rw [dif_pos hk]
    refine concatenate_pair_apply_left (1 : Fin 2) xi (subf xj xi) h (ix2 e k) rfl (ix2 e ⟨k.val, hk⟩) (fun b => ?_)
    match b with
    | ⟨0, _⟩ => rfl
    | ⟨1, _⟩ => rfl
  · have hk' : k.val - 32 < 32 := by have := k.isLt; omega
    rw [dif_neg hk, dif_pos hk']
    refine (concatenate_pair_apply_right (1 : Fin 2) xi (subf xj xi) h (ix2 e k) rfl rfl (ix2 e ⟨k.val - 32, hk'⟩)
      (fun b hb => ?_) ?_).trans ?_
    · match b with
      | ⟨0, _⟩ => rfl
      | ⟨1, _⟩ => exact absurd rfl hb
    · show (k.val - 32) + 32 = k.val
      omega
    · rfl

open Cert.KernelIdeal Cert.KernelIdeal.Gen in
/-- One grid step's result is the edge stage applied to the step's blocks. -/
theorem step_eq (x0 x1 : Mat 8000 32) (x2 : Mat 64 32) (x3 : Vec1 32) (x4 : Mat 32 32) (x5 : Vec1 32) (x6 : Mat 32 2)
    (x7 : Vec1 2) :
    k1_pay1 (F := Ideal) x0 x1 x2 x3 x4 x5 x6 x7 = edgeMlp (E := 8000) (D := 32) 64 x0 x1 x2 x3 x4 x5 x6 x7 := by
  unfold k1_pay1 edgeMlp mlpR
  simp only []
  rw [shapeCast_self x0, shapeCast_self x1, concat_eq_pair]
  rw [rect_layer dot_S8000x64_S64x32_S8000x32_1_0_0_1_n_n rfl rfl rfl rfl rfl rfl,
    rect_layer dot_S8000x32_S32x32_S8000x32_1_0_0_1_n_n rfl rfl rfl rfl rfl rfl,
    rect_layer dot_S8000x32_S32x2_S8000x2_1_0_0_1_n_n rfl rfl rfl rfl rfl rfl]

end Cert.KernelIdeal.Edge1

end
-- ==== Proof.Edge1Value.lean ====
import proofs.«419797_j47588237639715_2_alg».proof.Proof.Gen.KernelIdeal.Frame
import proofs.«419797_j47588237639715_2_alg».proof.Proof.Spec
import proofs.«419797_j47588237639715_2_alg».proof.Proof.Edge1Rows
import proofs.«419797_j47588237639715_2_alg».proof.Proof.Edge1Payload
import Idealize.ShloMosaic.Lib.Pipeline.Value

/-
  The first edge stage, from blocks to the whole table. The 800000 edges are cut into 100 blocks of 8000
  consecutive rows; grid step t receives rows t·8000 … t·8000 + 7999 of the target table and of the source table,
  and the three weight matrices and bias vectors whole. Each step leaves the edge stage of its own rows, and the edge
  stage acts on each row by itself, so step t writes back rows t·8000 … t·8000 + 7999 of the edge stage of the whole
  tables. Row r is written by step r / 8000, so the 100 write-backs fill the table.
-/

set_option maxRecDepth 16384

noncomputable section

namespace Cert.KernelIdeal.Edge1

open Idealize.ShloMosaic Idealize.ShloMosaic.TcCoe Idealize.SL.Sem Idealize.ShloMosaic.ValueIdx
open Cert.KernelIdeal Cert.KernelIdeal.Gen Cert.Spec

theorem zeros2 : (![0, 0] : Fin 2 → Nat) = fun _ => 0 := funext fun a => by fin_cases a <;> rfl
theorem zeros1 : (![0] : Fin 1 → Nat) = fun _ => 0 := funext fun a => by fin_cases a <;> rfl

/-- Which block of its table each operand receives at step t: the two row tables and the result their block t of
    rows, the weights and biases their one block. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

variable (V : (c : Dev nD) → (b : Ref sig .tc) → Buf (Elt Ideal) ((c : Thread nD τ).loc b))

/-- Step t's block of the target table is rows t·8000 + p of it. -/
theorem target_rows (c : Dev nD) (t : Fin cfg1.N) (p : Fin 8000) (p' : Fin 800000) (k : Fin 32)
    (h : p'.val = t.val * 8000 + p.val) :
    (iblk1 (F := Ideal) V c 0 t : Mat 8000 32) (ix2 p k) = (V c (Pipeline.arrRef spec1 0) : Mat 800000 32) (ix2 p' k) := by
  obtain ⟨e0, e1, -⟩ := block_index t
  show V c (Pipeline.arrRef spec1 0) (((cfg1.win 0).blk t).view.emb (ix2 p k)) = _
  congr 1
  funext a
  apply Fin.ext
  match a with
  | ⟨0, _⟩ => show win1_0.index t (0 : Fin 2) * 8000 + 1 * p.val = p'.val; omega
  | ⟨1, _⟩ => show win1_0.index t (1 : Fin 2) * 32 + 1 * k.val = k.val; omega

/-- Step t's block of the source table is rows t·8000 + p of it. -/
theorem source_rows (c : Dev nD) (t : Fin cfg1.N) (p : Fin 8000) (p' : Fin 800000) (k : Fin 32)
    (h : p'.val = t.val * 8000 + p.val) :
    (iblk1 (F := Ideal) V c 1 t : Mat 8000 32) (ix2 p k) = (V c (Pipeline.arrRef spec1 1) : Mat 800000 32) (ix2 p' k) := by
  obtain ⟨-, -, e0, e1, -⟩ := block_index t
  show V c (Pipeline.arrRef spec1 1) (((cfg1.win 1).blk t).view.emb (ix2 p k)) = _
  congr 1
  funext a
  apply Fin.ext
  match a with
  | ⟨0, _⟩ => show win1_1.index t (0 : Fin 2) * 8000 + 1 * p.val = p'.val; omega
  | ⟨1, _⟩ => show win1_1.index t (1 : Fin 2) * 32 + 1 * k.val = k.val; omega

/-- Every step receives the first weight matrix whole. -/
theorem weight0_whole (c : Dev nD) (t : Fin cfg1.N) :
    (iblk1 (F := Ideal) V c 2 t : Mat 64 32) = (V c (Pipeline.arrRef spec1 2) : Mat 64 32) := by
  obtain ⟨-, -, -, -, e0, e1, -⟩ := block_index t
  funext y
  show V c (Pipeline.arrRef spec1 2) (((cfg1.win 2).blk t).view.emb y) = V c (Pipeline.arrRef spec1 2) y
  congr 1
  funext a
  apply Fin.ext
  match a with
  | ⟨0, _⟩ => show win1_2.index t (0 : Fin 2) * 64 + 1 * (y 0).val = (y 0).val; omega
  | ⟨1, _⟩ => show win1_2.index t (1 : Fin 2) * 32 + 1 * (y 1).val = (y 1).val; omega

/-- Every step receives the first bias vector whole. -/
theorem bias0_whole (c : Dev nD) (t : Fin cfg1.N) :
    (iblk1 (F := Ideal) V c 3 t : Vec1 32) = (V c (Pipeline.arrRef spec1 3) : Vec1 32) := by
  obtain ⟨-, -, -, -, -, -, e0, -⟩ := block_index t
  funext y
  show V c (Pipeline.arrRef spec1 3) (((cfg1.win 3).blk t).view.emb y) = V c (Pipeline.arrRef spec1 3) y
  congr 1
  funext a
  apply Fin.ext
  match a with
  | ⟨0, _⟩ => show win1_3.index t (0 : Fin 1) * 32 + 1 * (y 0).val = (y 0).val; omega

/-- Every step receives the second weight matrix whole. -/
theorem weight1_whole (c : Dev nD) (t : Fin cfg1.N) :
    (iblk1 (F := Ideal) V c 4 t : Mat 32 32) = (V c (Pipeline.arrRef spec1 4) : Mat 32 32) := by
  obtain ⟨-, -, -, -, -, -, -, e0, e1, -⟩ := block_index t
  funext y
  show V c (Pipeline.arrRef spec1 4) (((cfg1.win 4).blk t).view.emb y) = V c (Pipeline.arrRef spec1 4) y
  congr 1
  funext a
  apply Fin.ext
  match a with
  | ⟨0, _⟩ => show win1_4.index t (0 : Fin 2) * 32 + 1 * (y 0).val = (y 0).val; omega
  | ⟨1, _⟩ => show win1_4.index t (1 : Fin 2) * 32 + 1 * (y 1).val = (y 1).val; omega

/-- Every step receives the second bias vector whole. -/
theorem bias1_whole (c : Dev nD) (t : Fin cfg1.N) :
    (iblk1 (F := Ideal) V c 5 t : Vec1 32) = (V c (Pipeline.arrRef spec1 5) : Vec1 32) := by
  obtain ⟨-, -, -, -, -, -, -, -, -, e0, -⟩ := block_index t
  funext y
  show V c (Pipeline.arrRef spec1 5) (((cfg1.win 5).blk t).view.emb y) = V c (Pipeline.arrRef spec1 5) y
  congr 1
  funext a
  apply Fin.ext
  match a with
  | ⟨0, _⟩ => show win1_5.index t (0 : Fin 1) * 32 + 1 * (y 0).val = (y 0).val; omega

/-- Every step receives the third weight matrix whole. -/
theorem weight2_whole (c : Dev nD) (t : Fin cfg1.N) :
    (iblk1 (F := Ideal) V c 6 t : Mat 32 2) = (V c (Pipeline.arrRef spec1 6) : Mat 32 2) := by
  obtain ⟨-, -, -, -, -, -, -, -, -, -, e0, e1, -⟩ := block_index t
  funext y
  show V c (Pipeline.arrRef spec1 6) (((cfg1.win 6).blk t).view.emb y) = V c (Pipeline.arrRef spec1 6) y
  congr 1
  funext a
  apply Fin.ext
  match a with
  | ⟨0, _⟩ => show win1_6.index t (0 : Fin 2) * 32 + 1 * (y 0).val = (y 0).val; omega
  | ⟨1, _⟩ => show win1_6.index t (1 : Fin 2) * 2 + 1 * (y 1).val = (y 1).val; omega

/-- Every step receives the third bias vector whole. -/
theorem bias2_whole (c : Dev nD) (t : Fin cfg1.N) :
    (iblk1 (F := Ideal) V c 7 t : Vec1 2) = (V c (Pipeline.arrRef spec1 7) : Vec1 2) := by
  obtain ⟨-, -, -, -, -, -, -, -, -, -, -, -, e0, -⟩ := block_index t
  funext y
  show V c (Pipeline.arrRef spec1 7) (((cfg1.win 7).blk t).view.emb y) = V c (Pipeline.arrRef spec1 7) y
  congr 1
  funext a
  apply Fin.ext
  match a with
  | ⟨0, _⟩ => show win1_7.index t (0 : Fin 1) * 2 + 1 * (y 0).val = (y 0).val; omega

/-- The edge stage of the whole tables as the region finds them. -/
abbrev messages (c : Dev nD) : Mat 800000 2 :=
  edgeMlp (E := 800000) (D := 32) 64 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5)) (V c (Pipeline.arrRef spec1 6))
    (V c (Pipeline.arrRef spec1 7))

/-- What step t writes back is block t of rows of the edge stage of the whole tables. -/
theorem written_eq (c : Dev nD) (t : Fin cfg1.N) :
    (dat1 (F := Ideal) V c).flushed 8 t = ((cfg1.win 8).blk t).view.read (Elt Ideal) (messages V c) := by
  show (cfg1.win 8).cut (grid1.coords t) ((dat1 V c).after 8 t) = _
  rw [after1_8]
  unfold out1_8
  rw [View.canon_unit_zero zeros2]
  simp only [View.ld_unit_zero (S := S8000x32) zeros2, View.ld_unit_zero (S := S64x32) zeros2,
    View.ld_unit_zero (S := S32x32) zeros2, View.ld_unit_zero (S := S32x2) zeros2,
    View.ld_unit_zero (S := S32) zeros1, View.ld_unit_zero (S := S2) zeros1]
  have hs := (step_eq (iblk1 (F := Ideal) V c 0 t) (iblk1 (F := Ideal) V c 1 t) (iblk1 (F := Ideal) V c 2 t)
    (iblk1 (F := Ideal) V c 3 t) (iblk1 (F := Ideal) V c 4 t) (iblk1 (F := Ideal) V c 5 t) (iblk1 (F := Ideal) V c 6 t)
    (iblk1 (F := Ideal) V c 7 t)).trans
    (show _ = edgeMlp (E := 8000) (D := 32) 64 (iblk1 (F := Ideal) V c 0 t) (iblk1 (F := Ideal) V c 1 t) (V c (Pipeline.arrRef spec1 2))
      (V c (Pipeline.arrRef spec1 3)) (V c (Pipeline.arrRef spec1 4)) (V c (Pipeline.arrRef spec1 5)) (V c (Pipeline.arrRef spec1 6))
      (V c (Pipeline.arrRef spec1 7)) by
      rw [weight0_whole V c t, bias0_whole V c t, weight1_whole V c t, bias1_whole V c t, weight2_whole V c t,
        bias2_whole V c t])
  refine (congrArg ((cfg1.win 8).cut (grid1.coords t)) hs).trans ?_
  obtain ⟨-, -, -, -, -, -, -, -, -, -, -, -, -, e0, e1⟩ := block_index t
  funext j
  show edgeMlp (E := 8000) (D := 32) 64 (iblk1 (F := Ideal) V c 0 t) (iblk1 (F := Ideal) V c 1 t) (V c (Pipeline.arrRef spec1 2))
      (V c (Pipeline.arrRef spec1 3)) (V c (Pipeline.arrRef spec1 4)) (V c (Pipeline.arrRef spec1 5)) (V c (Pipeline.arrRef spec1 6))
      (V c (Pipeline.arrRef spec1 7)) ((cfg1.win 8).xinj (grid1.coords t) j)
    = messages V c (((cfg1.win 8).blk t).view.emb j)
  refine block_rows t.val (target_rows V c t) (source_rows V c t) _ _ _ _ _ _ _ _ ?_ ?_
  · show win1_8.index t (0 : Fin 2) * 8000 + 1 * (j 0).val = t.val * 8000 + (j 0).val; omega
  · show win1_8.index t (1 : Fin 2) * 2 + 1 * (j 1).val = (j 1).val; omega

/-- Row r of the result is in the block step r / 8000 writes back. -/
theorem rows_covered (c : Dev nD) (i : ((cfg1.win 8).arr.view.loc (c.tc : Thread nD τ)).2.ty.Idx) :
    ∃ t : Fin cfg1.N, (cfg1.win 8).flush t = true ∧ i ∈ ((cfg1.win 8).blk t).view.set := by
  have hi0 : (i 0).val < 800000 := (i 0).isLt
  have hi1 : (i 1).val < 2 := (i 1).isLt
  have hN : cfg1.N = 100 := N_1
  have ht : (i 0).val / 8000 < cfg1.N := by rw [hN]; omega
  obtain ⟨-, -, -, -, -, -, -, -, -, -, -, -, -, e0, e1⟩ := block_index ⟨(i 0).val / 8000, ht⟩
  refine ⟨⟨(i 0).val / 8000, ht⟩, flush1_8 _, ?_⟩
  show i ∈ ((View.whole main_v11).slice (win1_8.rect ⟨(i 0).val / 8000, ht⟩)).set
  rw [View.set_slice_whole, Rect.mem_set_unit]
  intro a
  match a with
  | ⟨0, _⟩ =>
    show win1_8.index ⟨(i 0).val / 8000, ht⟩ (0 : Fin 2) * 8000 ≤ (i 0).val
      ∧ (i 0).val < win1_8.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win1_8.index ⟨(i 0).val / 8000, ht⟩ (1 : Fin 2) * 2 ≤ (i 1).val
      ∧ (i 1).val < win1_8.index ⟨(i 0).val / 8000, ht⟩ (1 : Fin 2) * 2 + 2
    rw [e1]
    omega

end Cert.KernelIdeal.Edge1

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

theorem edge1_value (c : Dev nD) :
    (dat1 (F := Ideal) V c).arrAt 8 cfg1.N
      = Cert.Spec.edgeMlp (E := 800000) (D := 32) 64 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) (V c (Pipeline.arrRef spec1 6))
          (V c (Pipeline.arrRef spec1 7)) :=
  (dat1 (F := Ideal) V c).arrAt_eq_of_cover 8 (Cert.KernelIdeal.Edge1.messages V c)
    (fun t _ => Cert.KernelIdeal.Edge1.written_eq V c t) (Cert.KernelIdeal.Edge1.rows_covered c)

end Cert.KernelIdeal.RegionValue

end
-- ==== Proof.Edge2Rows.lean ====
/-
  An edge stage acts on each edge by itself: the row of its result at an edge is a function of the two input rows at
  that edge alone. So two pairs of input tables that agree on a pair of rows give results that agree on that pair of rows.
-/
import proofs.«419797_j47588237639715_2_alg».proof.Proof.Spec

noncomputable section

open scoped BigOperators

namespace Cert.Edge2

open Idealize.ShloMosaic Idealize.ShloMosaic.ValueIdx Cert.Spec

/-- Row r' of x' is row r of x. -/
def RowEq {R R' C : Nat} (x : Mat R C) (x' : Mat R' C) (r : Fin R) (r' : Fin R') : Prop :=
  ∀ k : Fin C, x' (ix2 r' k) = x (ix2 r k)

/-- An affine layer keeps agreement of rows. -/
theorem lin_row {R R' K C : Nat} {x : Mat R K} {x' : Mat R' K} (w : Mat K C) (b : Vec1 C) {r : Fin R} {r' : Fin R'}
    (h : RowEq x x' r r') : RowEq (lin x w b) (lin x' w b) r r' := fun c => by
  show linAt x' w b r' c = linAt x w b r c
  unfold linAt
  exact congrArg (· + b (ix1 c)) (Finset.sum_congr rfl fun k _ => by rw [h k])

/-- The rectifier keeps agreement of rows. -/
theorem relu_row {R R' C : Nat} {x : Mat R C} {x' : Mat R' C} {r : Fin R} {r' : Fin R'}
    (h : RowEq x x' r r') : RowEq (relu x) (relu x') r r' := fun c => by
  show max (x' (ix2 r' c)) zero = max (x (ix2 r c)) zero
  rw [h c]

/-- The edge's input row keeps agreement of rows. -/
theorem pair_row {E E' D : Nat} (N : Nat) {xi xj : Mat E D} {xi' xj' : Mat E' D} {r : Fin E} {r' : Fin E'}
    (hi : RowEq xi xi' r r') (hj : RowEq xj xj' r r') : RowEq (pair N xi xj) (pair N xi' xj') r r' := fun k => by
  show pairAt xi' xj' r' k = pairAt xi xj r k
  unfold pairAt
  split
  · exact hi _
  · split
    · rw [hi, hj]
    · rfl

/-- An edge stage keeps agreement of rows. -/
theorem edgeMlp_row {E E' D B C O : Nat} (N : Nat) {xi xj : Mat E D} {xi' xj' : Mat E' D} (w0 : Mat N B) (b0 : Vec1 B)
    (w1 : Mat B C) (b1 : Vec1 C) (w2 : Mat C O) (b2 : Vec1 O) {r : Fin E} {r' : Fin E'}
    (hi : RowEq xi xi' r r') (hj : RowEq xj xj' r r') :
    RowEq (edgeMlp N xi xj w0 b0 w1 b1 w2 b2) (edgeMlp N xi' xj' w0 b0 w1 b1 w2 b2) r r' :=
  relu_row (lin_row w2 b2 (relu_row (lin_row w1 b1 (relu_row (lin_row w0 b0 (pair_row N hi hj))))))

end Cert.Edge2

end
-- ==== Proof.LibLayer.lean ====
/-
  One dense layer read at an entry.

  An affine layer sends row r of x to the row whose entry c is the sum over k of x(r, k) · w(k, c), plus b(c); the
  rectifier replaces an entry by its maximum with zero. The two programs spell the layer differently: one narrows
  both operands before the product, multiplies into a zero accumulator, and adds the bias cast to one row and copied
  down the rows; the other multiplies directly and adds the bias laid along the second axis, then down the rows.
  Over the extended reals a format change is the identity and the zero accumulator adds nothing, so both spellings are
  the same matrix, entry by entry.
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx
import Idealize.ShloMosaic.Lib.ValueLayout
import Idealize.ShloMosaic.Lib.IdealHost
import Idealize.ShloMosaic.Lib.KernelVsHost
import proofs.«419797_j47588237639715_2_alg».proof.Proof.Spec
import proofs.«419797_j47588237639715_2_alg».proof.Proof.LibDot

noncomputable section

open scoped BigOperators

namespace Cert.LibLayer

open Idealize.ShloMosaic Idealize.ShloMosaic.ValueIdx

/-! ## The rectifier and the bias row, one operation at a time -/

section Pieces

variable {R C : Nat}

/-- A matrix from its entries is determined by them: two matrices with equal entries are equal. -/
theorem mat_ext {x y : Cert.Spec.Mat R C} (h : ∀ (r : Fin R) (c : Fin C), x (ix2 r c) = y (ix2 r c)) : x = y := by
  funext i
  rw [eq_ix2 i]
  exact h _ _

/-- A one-row matrix copied down the rows and added to a matrix adds, at (r, c), the row's entry c. -/
theorem kernel_bias_at (m : Cert.Spec.Mat R C) (v : Cert.Spec.Mat 1 C)
    (hbt : (⟨2, ![1, C]⟩ : Shape).Broadcasts ⟨2, ![R, C]⟩) (r : Fin R) (c : Fin C) :
    addf m (broadcastTo ⟨2, ![R, C]⟩ v hbt) (ix2 r c) = m (ix2 r c) + v (ix2 (0 : Fin 1) c) := by
  rw [addf_apply, broadcastTo_1b_ab_apply]

/-- The maximum with the splat of the zero word is, entry by entry, the maximum with zero. -/
theorem kernel_relu_at (v : Cert.Spec.Mat R C) (i : (⟨2, ![R, C]⟩ : Shape).Idx) :
    maximumf v (broadcast ⟨2, ![R, C]⟩ (Scalar.ofBits .f32 0x00000000#32)) i = max (v i) Cert.Spec.zero := rfl

/-- The maximum with the splat of the zero word is the rectifier. -/
theorem kernel_relu_eq (v : Cert.Spec.Mat R C) :
    maximumf v (broadcast ⟨2, ![R, C]⟩ (Scalar.ofBits .f32 0x00000000#32)) = Cert.Spec.relu v := rfl

end Pieces

/-! ## The layer with narrowed operands, a zero accumulator and the bias as one row -/

section Kernel

variable {R K C : Nat} (d : DotDims ⟨2, ![R, K]⟩ ⟨2, ![K, C]⟩ ⟨2, ![R, C]⟩)
  (hl : d.lhsContracting = [1]) (hr : d.rhsContracting = [0]) (hln : d.lhsNonContracting = [0])
  (hrn : d.rhsNonContracting = [1]) (hlb : d.lhsBatch = []) (hrb : d.rhsBatch = [])

include hl hr hln hrn hlb hrb

/-- The product of the narrowed operands into the zero accumulator, at entry (r, c), is the sum over k of
    x(r, k) · w(k, c). -/
theorem kernel_matmul_at (x : Cert.Spec.Mat R K) (w : Cert.Spec.Mat K C)
    (hx : FTy.bits .bf16 < FTy.bits .f32) (hw : FTy.bits .bf16 < FTy.bits .f32) (r : Fin R) (c : Fin C) :
    matmul d none (truncf .bf16 x hx) (truncf .bf16 w hw) (constant ⟨2, ![R, C]⟩ .f32 0x00000000#32) (ix2 r c)
      = ∑ k : Fin K, x (ix2 r k) * w (ix2 k c) := by
  show FloatOps.matmul d none (truncf .bf16 x hx) (truncf .bf16 w hw) (constant ⟨2, ![R, C]⟩ .f32 0x00000000#32) (ix2 r c) = _
  rw [Cert.LibDot.matmul_zero_at d hl hr hln hrn hlb hrb]
  rfl

/-- The layer whose bias operand is already one row: entry (r, c) is the sum over k of x(r, k) · w(k, c), plus the
    row's entry c. -/
theorem kernel_layer_at' (x : Cert.Spec.Mat R K) (w : Cert.Spec.Mat K C) (v : Cert.Spec.Mat 1 C)
    (hbt : (⟨2, ![1, C]⟩ : Shape).Broadcasts ⟨2, ![R, C]⟩)
    (hx : FTy.bits .bf16 < FTy.bits .f32) (hw : FTy.bits .bf16 < FTy.bits .f32) (r : Fin R) (c : Fin C) :
    addf (matmul d none (truncf .bf16 x hx) (truncf .bf16 w hw) (constant ⟨2, ![R, C]⟩ .f32 0x00000000#32))
        (broadcastTo ⟨2, ![R, C]⟩ v hbt) (ix2 r c)
      = (∑ k : Fin K, x (ix2 r k) * w (ix2 k c)) + v (ix2 (0 : Fin 1) c) := by
  rw [kernel_bias_at, kernel_matmul_at d hl hr hln hrn hlb hrb]

/-- The layer with the bias cast to one row and copied down the rows, at entry (r, c), is the affine layer's entry. -/
theorem kernel_layer_at (x : Cert.Spec.Mat R K) (w : Cert.Spec.Mat K C) (b : Cert.Spec.Vec1 C)
    (hsc : (⟨1, ![C]⟩ : Shape).ShapeCasts ⟨2, ![1, C]⟩) (hbt : (⟨2, ![1, C]⟩ : Shape).Broadcasts ⟨2, ![R, C]⟩)
    (hx : FTy.bits .bf16 < FTy.bits .f32) (hw : FTy.bits .bf16 < FTy.bits .f32) (r : Fin R) (c : Fin C) :
    addf (matmul d none (truncf .bf16 x hx) (truncf .bf16 w hw) (constant ⟨2, ![R, C]⟩ .f32 0x00000000#32))
        (broadcastTo ⟨2, ![R, C]⟩ (shapeCast ⟨2, ![1, C]⟩ b hsc) hbt) (ix2 r c)
      = Cert.Spec.linAt x w b r c := by
  rw [kernel_layer_at' d hl hr hln hrn hlb hrb, shapeCast_a_1a_apply]
  rfl

/-- The layer with the bias cast to one row and copied down the rows is the affine layer. -/
theorem kernel_layer_eq (x : Cert.Spec.Mat R K) (w : Cert.Spec.Mat K C) (b : Cert.Spec.Vec1 C)
    (hsc : (⟨1, ![C]⟩ : Shape).ShapeCasts ⟨2, ![1, C]⟩) (hbt : (⟨2, ![1, C]⟩ : Shape).Broadcasts ⟨2, ![R, C]⟩)
    (hx : FTy.bits .bf16 < FTy.bits .f32) (hw : FTy.bits .bf16 < FTy.bits .f32) :
    addf (matmul d none (truncf .bf16 x hx) (truncf .bf16 w hw) (constant ⟨2, ![R, C]⟩ .f32 0x00000000#32))
        (broadcastTo ⟨2, ![R, C]⟩ (shapeCast ⟨2, ![1, C]⟩ b hsc) hbt)
      = Cert.Spec.lin x w b :=
  mat_ext fun r c => by
    rw [kernel_layer_at d hl hr hln hrn hlb hrb]
    rfl

end Kernel

/-! ## The layer with a direct product and the bias laid along the second axis, then down the rows -/

section HostPieces

variable {R C : Nat}

/-- A vector laid along the second axis of a one-row matrix reads, at (0, c), the vector at c. -/
theorem host_row_at (b : Cert.Spec.Vec1 C) (hb1 : (⟨1, ![C]⟩ : Shape).BroadcastsInDim ⟨2, ![1, C]⟩ ![1])
    (u : Fin 1) (c : Fin C) : broadcastInDim ⟨2, ![1, C]⟩ ![1] hb1 b (ix2 u c) = b (ix1 c) := by
  refine broadcastInDim_apply ![1] hb1 b (ix2 u c) (ix1 c) fun a => ?_
  match a with
  | ⟨0, _⟩ =>
    show c.val = if C = 1 then 0 else c.val
    split
    · have := c.isLt; omega
    · rfl

/-- A vector laid along the second axis and copied down the rows, added to a matrix, adds at (r, c) the vector's
    entry c. -/
theorem host_bias_at (m : Cert.Spec.Mat R C) (b : Cert.Spec.Vec1 C)
    (hb1 : (⟨1, ![C]⟩ : Shape).BroadcastsInDim ⟨2, ![1, C]⟩ ![1])
    (hb2 : (⟨2, ![1, C]⟩ : Shape).BroadcastsInDim ⟨2, ![R, C]⟩ ![0, 1]) (r : Fin R) (c : Fin C) :
    addf m (broadcastInDim ⟨2, ![R, C]⟩ ![0, 1] hb2 (broadcastInDim ⟨2, ![1, C]⟩ ![1] hb1 b)) (ix2 r c)
      = m (ix2 r c) + b (ix1 c) := by
  rw [addf_apply, broadcastInDim_oneRow_apply, host_row_at]

/-- The maximum with the zero scalar copied to every entry is, entry by entry, the maximum with zero. -/
theorem host_relu_at (v : Cert.Spec.Mat R C) (hb0 : (⟨0, ![]⟩ : Shape).BroadcastsInDim ⟨2, ![R, C]⟩ ![])
    (i : (⟨2, ![R, C]⟩ : Shape).Idx) :
    maximumf v (broadcastInDim ⟨2, ![R, C]⟩ ![] hb0 (constant ⟨0, ![]⟩ .f32 0x00000000#32)) i
      = max (v i) Cert.Spec.zero := by
  rw [maximumf_apply, broadcastInDim_scalar_apply, constant_apply]

/-- The maximum with the zero scalar copied to every entry is the rectifier. -/
theorem host_relu_eq (v : Cert.Spec.Mat R C) (hb0 : (⟨0, ![]⟩ : Shape).BroadcastsInDim ⟨2, ![R, C]⟩ ![]) :
    maximumf v (broadcastInDim ⟨2, ![R, C]⟩ ![] hb0 (constant ⟨0, ![]⟩ .f32 0x00000000#32)) = Cert.Spec.relu v :=
  funext fun i => host_relu_at v hb0 i

end HostPieces

section Host

variable {R K C : Nat} (d : DotDims ⟨2, ![R, K]⟩ ⟨2, ![K, C]⟩ ⟨2, ![R, C]⟩)
  (hl : d.lhsContracting = [1]) (hr : d.rhsContracting = [0]) (hln : d.lhsNonContracting = [0])
  (hrn : d.rhsNonContracting = [1]) (hlb : d.lhsBatch = []) (hrb : d.rhsBatch = [])

include hl hr hln hrn hlb hrb

/-- The direct product, at entry (r, c), is the sum over k of x(r, k) · w(k, c). -/
theorem host_dot_at (x : Cert.Spec.Mat R K) (w : Cert.Spec.Mat K C) (r : Fin R) (c : Fin C) :
    Host.dotGeneral d none x w (ix2 r c) = ∑ k : Fin K, x (ix2 r k) * w (ix2 k c) :=
  Cert.LibDot.dotGeneral_at d hl hr hln hrn hlb hrb none .single x w r c

/-- The layer with a direct product and the bias laid along the second axis, at entry (r, c), is the affine layer's
    entry. -/
theorem host_layer_at (x : Cert.Spec.Mat R K) (w : Cert.Spec.Mat K C) (b : Cert.Spec.Vec1 C)
    (hb1 : (⟨1, ![C]⟩ : Shape).BroadcastsInDim ⟨2, ![1, C]⟩ ![1])
    (hb2 : (⟨2, ![1, C]⟩ : Shape).BroadcastsInDim ⟨2, ![R, C]⟩ ![0, 1]) (r : Fin R) (c : Fin C) :
    addf (Host.dotGeneral d none x w)
        (broadcastInDim ⟨2, ![R, C]⟩ ![0, 1] hb2 (broadcastInDim ⟨2, ![1, C]⟩ ![1] hb1 b)) (ix2 r c)
      = Cert.Spec.linAt x w b r c := by
  rw [host_bias_at, host_dot_at d hl hr hln hrn hlb hrb]
  rfl

/-- The layer with a direct product and the bias laid along the second axis is the affine layer. -/
theorem host_layer_eq (x : Cert.Spec.Mat R K) (w : Cert.Spec.Mat K C) (b : Cert.Spec.Vec1 C)
    (hb1 : (⟨1, ![C]⟩ : Shape).BroadcastsInDim ⟨2, ![1, C]⟩ ![1])
    (hb2 : (⟨2, ![1, C]⟩ : Shape).BroadcastsInDim ⟨2, ![R, C]⟩ ![0, 1]) :
    addf (Host.dotGeneral d none x w)
        (broadcastInDim ⟨2, ![R, C]⟩ ![0, 1] hb2 (broadcastInDim ⟨2, ![1, C]⟩ ![1] hb1 b))
      = Cert.Spec.lin x w b :=
  mat_ext fun r c => by
    rw [host_layer_at d hl hr hln hrn hlb hrb]
    rfl

end Host

end Cert.LibLayer

end
-- ==== Proof.Edge2Pay.lean ====
/-
  What the edge stage's body leaves at an entry of its output block, over the extended reals: the block of target rows
  set beside the difference of the source and target rows, then three rectified affine layers, is the edge stage of the
  two blocks of rows.
-/
import proofs.«419797_j47588237639715_2_alg».proof.Proof.Gen.KernelIdeal.Skeleton
import proofs.«419797_j47588237639715_2_alg».proof.Proof.Spec
import proofs.«419797_j47588237639715_2_alg».proof.Proof.LibLayer
import Idealize.ShloMosaic.Lib.Pipeline.Value
import Idealize.ShloMosaic.Lib.ValueLayout

set_option maxRecDepth 16384

noncomputable section

namespace Cert.Edge2

open Idealize.ShloMosaic Idealize.ShloMosaic.ValueIdx
open Cert.KernelIdeal Cert.KernelIdeal.Gen Cert.KernelIdeal.Facts₀ Cert.Spec

/-- Two tables of two columns laid side by side, the second being the difference of the two, read at an entry: the
    first two columns are the first table's, the last two are the difference's. -/
theorem concat_at (x0 x1 : Mat 8000 2) (hs : S8000x2.ShapeCasts S8000x2)
    (h : Shape.Concatenates [S8000x2, S8000x2] S8000x4 1) (r : Fin 8000) (k : Fin 4) :
    concatenate S8000x4 1 [⟨S8000x2, shapeCast S8000x2 x0 hs⟩,
        ⟨S8000x2, subf (shapeCast S8000x2 x1 hs) (shapeCast S8000x2 x0 hs)⟩] h (ix2 r k) = pairAt x0 x1 r k := by
  rw [shapeCast_self x0 hs, shapeCast_self x1 hs]
  unfold pairAt
  by_cases hk : k.val < 2
  · rw [dif_pos hk]
    refine concatenate_pair_apply_left (1 : Fin 2) x0 (subf x1 x0) h (ix2 r k) rfl (ix2 r ⟨k.val, hk⟩) ?_
    intro b
    match b with
    | ⟨0, _⟩ => rfl
    | ⟨1, _⟩ => rfl
  · have hk' : k.val - 2 < 2 := by have := k.isLt; omega
    rw [dif_neg hk, dif_pos hk']
    refine (concatenate_pair_apply_right (1 : Fin 2) x0 (subf x1 x0) h (ix2 r k) rfl rfl (ix2 r ⟨k.val - 2, hk'⟩) ?_ ?_).trans ?_
    · intro b hb
      match b with
      | ⟨0, _⟩ => rfl
      | ⟨1, _⟩ => exact absurd rfl hb
    · show (k.val - 2) + 2 = k.val
      omega
    · rfl

/-- The same, as one table. -/
theorem concat_eq (x0 x1 : Mat 8000 2) (hs : S8000x2.ShapeCasts S8000x2)
    (h : Shape.Concatenates [S8000x2, S8000x2] S8000x4 1) :
    concatenate S8000x4 1 [⟨S8000x2, shapeCast S8000x2 x0 hs⟩,
        ⟨S8000x2, subf (shapeCast S8000x2 x1 hs) (shapeCast S8000x2 x0 hs)⟩] h = pair 4 x0 x1 :=
  Cert.LibLayer.mat_ext fun r k => concat_at x0 x1 hs h r k

/-- The body's result block is the edge stage of its two blocks of rows. -/
theorem pay_eq (x0 x1 : Mat 8000 2) (w0 : Mat 4 32) (b0 : Vec1 32) (w1 : Mat 32 32) (b1 : Vec1 32) (w2 : Mat 32 32)
    (b2 : Vec1 32) :
    k2_pay1 (F := Ideal) x0 x1 w0 b0 w1 b1 w2 b2 = edgeMlp 4 x0 x1 w0 b0 w1 b1 w2 b2 := by
  unfold k2_pay1
  dsimp only
  rw [concat_eq x0 x1]
  rw [Cert.LibLayer.kernel_layer_eq dot_S8000x4_S4x32_S8000x32_1_0_0_1_n_n rfl rfl rfl rfl rfl rfl, Cert.LibLayer.kernel_relu_eq]
  rw [Cert.LibLayer.kernel_layer_eq dot_S8000x32_S32x32_S8000x32_1_0_0_1_n_n rfl rfl rfl rfl rfl rfl, Cert.LibLayer.kernel_relu_eq]
  rw [Cert.LibLayer.kernel_layer_eq dot_S8000x32_S32x32_S8000x32_1_0_0_1_n_n rfl rfl rfl rfl rfl rfl, Cert.LibLayer.kernel_relu_eq]
  rfl

end Cert.Edge2

end
-- ==== Proof.Edge2Value.lean ====
/-
  The second edge stage's region: what its output table holds when the region is done. Each grid point takes a block of
  8000 edges: it reads those rows of the target-row and source-row tables and the whole weight tables, and writes the
  edge stage of its rows. A row's result depends on that row alone, so block t of the output is block t of the edge
  stage of the whole tables; the hundred blocks fill the 800000 rows.
-/
import proofs.«419797_j47588237639715_2_alg».proof.Proof.Gen.KernelIdeal.Frame
import proofs.«419797_j47588237639715_2_alg».proof.Proof.Spec
import proofs.«419797_j47588237639715_2_alg».proof.Proof.Edge2Rows
import proofs.«419797_j47588237639715_2_alg».proof.Proof.Edge2Pay
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Edge2

theorem zero2 : (![0, 0] : Fin 2 → Nat) = fun _ => 0 := funext fun a => by fin_cases a <;> rfl
theorem zero1 : (![0] : Fin 1 → Nat) = fun _ => 0 := funext fun a => by fin_cases a <;> rfl

/-- The block indices over the grid: the two edge tables and the result move one block of rows per point; the weights
    and offsets stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_8.index t (0 : Fin 2) = t.val ∧ win2_8.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0 :=
  (by decide +kernel : ∀ t : Fin grid2.N, _)

/-- The first layer's weights: the window's one block is the whole table. -/
theorem wblk2 (c : Dev nD) (t : Fin cfg2.N) : iblk2 V c 2 t = V c (Pipeline.arrRef spec2 2) := by
  obtain ⟨-, -, -, -, -, -, e0, e1, -⟩ := idx_facts t
  funext j
  unfold iblk2
  rw [View.read_apply]
  show V c (Pipeline.arrRef spec2 2) (((cfg2.win 2).blk t).view.emb j) = V c (Pipeline.arrRef spec2 2) j
  congr 1
  funext a; apply Fin.ext
  match a with
  | ⟨0, _⟩ => show win2_2.index t (0 : Fin 2) * 4 + 1 * (j 0).val = (j 0).val; omega
  | ⟨1, _⟩ => show win2_2.index t (1 : Fin 2) * 32 + 1 * (j 1).val = (j 1).val; omega

/-- The first layer's offsets: the whole vector. -/
theorem wblk3 (c : Dev nD) (t : Fin cfg2.N) : iblk2 V c 3 t = V c (Pipeline.arrRef spec2 3) := by
  obtain ⟨-, -, -, -, -, -, -, -, e0, -⟩ := idx_facts t
  funext j
  unfold iblk2
  rw [View.read_apply]
  show V c (Pipeline.arrRef spec2 3) (((cfg2.win 3).blk t).view.emb j) = V c (Pipeline.arrRef spec2 3) j
  congr 1
  funext a; apply Fin.ext
  match a with
  | ⟨0, _⟩ => show win2_3.index t (0 : Fin 1) * 32 + 1 * (j 0).val = (j 0).val; omega

/-- The second layer's weights: the whole table. -/
theorem wblk4 (c : Dev nD) (t : Fin cfg2.N) : iblk2 V c 4 t = V c (Pipeline.arrRef spec2 4) := by
  obtain ⟨-, -, -, -, -, -, -, -, -, e0, e1, -⟩ := idx_facts t
  funext j
  unfold iblk2
  rw [View.read_apply]
  show V c (Pipeline.arrRef spec2 4) (((cfg2.win 4).blk t).view.emb j) = V c (Pipeline.arrRef spec2 4) j
  congr 1
  funext a; apply Fin.ext
  match a with
  | ⟨0, _⟩ => show win2_4.index t (0 : Fin 2) * 32 + 1 * (j 0).val = (j 0).val; omega
  | ⟨1, _⟩ => show win2_4.index t (1 : Fin 2) * 32 + 1 * (j 1).val = (j 1).val; omega

/-- The second layer's offsets: the whole vector. -/
theorem wblk5 (c : Dev nD) (t : Fin cfg2.N) : iblk2 V c 5 t = V c (Pipeline.arrRef spec2 5) := by
  obtain ⟨-, -, -, -, -, -, -, -, -, -, -, e0, -⟩ := idx_facts t
  funext j
  unfold iblk2
  rw [View.read_apply]
  show V c (Pipeline.arrRef spec2 5) (((cfg2.win 5).blk t).view.emb j) = V c (Pipeline.arrRef spec2 5) j
  congr 1
  funext a; apply Fin.ext
  match a with
  | ⟨0, _⟩ => show win2_5.index t (0 : Fin 1) * 32 + 1 * (j 0).val = (j 0).val; omega

/-- The third layer's weights: the whole table. -/
theorem wblk6 (c : Dev nD) (t : Fin cfg2.N) : iblk2 V c 6 t = V c (Pipeline.arrRef spec2 6) := by
  obtain ⟨-, -, -, -, -, -, -, -, -, -, -, -, e0, e1, -⟩ := idx_facts t
  funext j
  unfold iblk2
  rw [View.read_apply]
  show V c (Pipeline.arrRef spec2 6) (((cfg2.win 6).blk t).view.emb j) = V c (Pipeline.arrRef spec2 6) j
  congr 1
  funext a; apply Fin.ext
  match a with
  | ⟨0, _⟩ => show win2_6.index t (0 : Fin 2) * 32 + 1 * (j 0).val = (j 0).val; omega
  | ⟨1, _⟩ => show win2_6.index t (1 : Fin 2) * 32 + 1 * (j 1).val = (j 1).val; omega

/-- The third layer's offsets: the whole vector. -/
theorem wblk7 (c : Dev nD) (t : Fin cfg2.N) : iblk2 V c 7 t = V c (Pipeline.arrRef spec2 7) := by
  obtain ⟨-, -, -, -, -, -, -, -, -, -, -, -, -, -, e0⟩ := idx_facts t
  funext j
  unfold iblk2
  rw [View.read_apply]
  show V c (Pipeline.arrRef spec2 7) (((cfg2.win 7).blk t).view.emb j) = V c (Pipeline.arrRef spec2 7) j
  congr 1
  funext a; apply Fin.ext
  match a with
  | ⟨0, _⟩ => show win2_7.index t (0 : Fin 1) * 32 + 1 * (j 0).val = (j 0).val; omega

/-- Row y of the target-row block at point t is row 8000 t + y of the target-row table. -/
theorem xi_rows (c : Dev nD) (t : Fin cfg2.N) (y : Fin 8000) (r : Fin 800000) (hr : r.val = t.val * 8000 + y.val) :
    Cert.Edge2.RowEq (R := 800000) (R' := 8000) (C := 2) (V c (Pipeline.arrRef spec2 0)) (iblk2 V c 0 t) r y := fun k => by
  obtain ⟨e0, e1, -⟩ := idx_facts t
  unfold iblk2
  rw [View.read_apply]
  show V c (Pipeline.arrRef spec2 0) (((cfg2.win 0).blk t).view.emb (ix2 y k)) = V c (Pipeline.arrRef spec2 0) (ix2 r k)
  congr 1
  funext a; apply Fin.ext
  match a with
  | ⟨0, _⟩ => show win2_0.index t (0 : Fin 2) * 8000 + 1 * y.val = r.val; omega
  | ⟨1, _⟩ => show win2_0.index t (1 : Fin 2) * 2 + 1 * k.val = k.val; omega

/-- Row y of the source-row block at point t is row 8000 t + y of the source-row table. -/
theorem xj_rows (c : Dev nD) (t : Fin cfg2.N) (y : Fin 8000) (r : Fin 800000) (hr : r.val = t.val * 8000 + y.val) :
    Cert.Edge2.RowEq (R := 800000) (R' := 8000) (C := 2) (V c (Pipeline.arrRef spec2 1)) (iblk2 V c 1 t) r y := fun k => by
  obtain ⟨-, -, e0, e1, -⟩ := idx_facts t
  unfold iblk2
  rw [View.read_apply]
  show V c (Pipeline.arrRef spec2 1) (((cfg2.win 1).blk t).view.emb (ix2 y k)) = V c (Pipeline.arrRef spec2 1) (ix2 r k)
  congr 1
  funext a; apply Fin.ext
  match a with
  | ⟨0, _⟩ => show win2_1.index t (0 : Fin 2) * 8000 + 1 * y.val = r.val; omega
  | ⟨1, _⟩ => show win2_1.index t (1 : Fin 2) * 2 + 1 * k.val = k.val; omega

/-- The edge stage of the region's whole input tables. -/
abbrev stage (c : Dev nD) : Cert.Spec.Mat 800000 32 :=
  Cert.Spec.edgeMlp (E := 800000) (D := 2) 4 (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5)) (V c (Pipeline.arrRef spec2 6))
    (V c (Pipeline.arrRef spec2 7))

/-- What point t writes back is block t of the edge stage of the whole tables. -/
theorem flushed_eq (c : Dev nD) (t : Fin cfg2.N) :
    (dat2 (F := Ideal) V c).flushed 8 t = ((cfg2.win 8).blk t).view.read (Elt Ideal) (stage V c) := by
  show (cfg2.win 8).cut (grid2.coords t) ((dat2 (F := Ideal) V c).after 8 t) = _
  rw [after2_8]
  unfold out2_8
  rw [View.canon_unit_zero zero2]
  simp only [View.ld_unit_zero (S := S8000x2) zero2, View.ld_unit_zero (S := S4x32) zero2, View.ld_unit_zero (S := S32) zero1,
    View.ld_unit_zero (S := S32x32) zero2]
  rw [wblk2, wblk3, wblk4, wblk5, wblk6, wblk7]
  obtain ⟨-, -, -, -, e0, e1, -⟩ := idx_facts t
  have hN : cfg2.N = 100 := N_2
  funext j
  obtain ⟨y, q, rfl⟩ : ∃ (y : Fin 8000) (q : Fin 32), j = ix2 y q := ⟨j 0, j 1, eq_ix2 j⟩
  have hr : t.val * 8000 + y.val < 800000 := by have := t.isLt; have := y.isLt; omega
  have hemb : ((cfg2.win 8).blk t).view.emb (ix2 y q) = (ix2 (⟨t.val * 8000 + y.val, hr⟩ : Fin 800000) q : S800000x32.Idx) := by
    funext a; apply Fin.ext
    match a with
    | ⟨0, _⟩ => show win2_8.index t (0 : Fin 2) * 8000 + 1 * y.val = t.val * 8000 + y.val; omega
    | ⟨1, _⟩ => show win2_8.index t (1 : Fin 2) * 32 + 1 * q.val = q.val; omega
  rw [View.read_apply, hemb, Cert.Edge2.pay_eq]
  exact Cert.Edge2.edgeMlp_row 4 _ _ _ _ _ _ (xi_rows V c t y ⟨_, hr⟩ rfl) (xj_rows V c t y ⟨_, hr⟩ rfl) q

/-- An index of the output table is in point t's block iff each coordinate is in the block's range on its axis. -/
theorem mem_blk (t : Fin cfg2.N) (i : S800000x32.Idx) :
    i ∈ ((cfg2.win 8).blk t).view.set ↔ ∀ a : Fin 2, win2_8.index t a * S8000x32.size a ≤ (i a).val ∧ (i a).val < win2_8.index t a * S8000x32.size a + S8000x32.size a := by
  show i ∈ ((View.whole main_v26).slice (win2_8.rect t)).set ↔ _
  rw [View.set_slice_whole, Rect.mem_set_unit]
  exact Iff.rfl

/-- Every row of the output table is in some point's block: row r is in block r / 8000. -/
theorem cover (i : S800000x32.Idx) :
    ∃ t : Fin cfg2.N, (cfg2.win 8).flush t = true ∧ i ∈ ((cfg2.win 8).blk t).view.set := by
  have hN : cfg2.N = 100 := N_2
  have h0 : (i 0).val < 800000 := (i 0).isLt
  have h1 : (i 1).val < 32 := (i 1).isLt
  have ht : (i 0).val / 8000 < cfg2.N := by rw [hN]; omega
  obtain ⟨-, -, -, -, e0, e1, -⟩ := idx_facts ⟨(i 0).val / 8000, ht⟩
  refine ⟨⟨(i 0).val / 8000, ht⟩, flush2_8 _, ?_⟩
  rw [mem_blk]
  intro a
  match a with
  | ⟨0, _⟩ =>
    show win2_8.index ⟨(i 0).val / 8000, ht⟩ (0 : Fin 2) * 8000 ≤ (i 0).val
      ∧ (i 0).val < win2_8.index ⟨(i 0).val / 8000, ht⟩ (0 : Fin 2) * 8000 + 8000
    rw [e0]
    show (i 0).val / 8000 * 8000 ≤ (i 0).val ∧ (i 0).val < (i 0).val / 8000 * 8000 + 8000
    omega
  | ⟨1, _⟩ =>
    show win2_8.index ⟨(i 0).val / 8000, ht⟩ (1 : Fin 2) * 32 ≤ (i 1).val
      ∧ (i 1).val < win2_8.index ⟨(i 0).val / 8000, ht⟩ (1 : Fin 2) * 32 + 32
    omega

end Edge2

/-- The output table after the region is the edge stage of the region's input tables. -/
theorem edge2_value (c : Dev nD) :
    (dat2 (F := Ideal) V c).arrAt 8 cfg2.N
      = Cert.Spec.edgeMlp (E := 800000) (D := 2) 4 (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) (V c (Pipeline.arrRef spec2 6))
          (V c (Pipeline.arrRef spec2 7)) :=
  (dat2 (F := Ideal) V c).arrAt_eq_of_cover 8 (Edge2.stage V c) (fun t _ => Edge2.flushed_eq V c t) (fun i => Edge2.cover i)

end Cert.KernelIdeal.RegionValue

end
-- ==== Proof.ReadoutLayer.lean ====
/-
  One dense stage of the vector unit read at an entry: the product of the operands (their format change is the
  identity over the extended reals) into a zero accumulator, plus the bias laid out as one row and repeated down
  the rows, is at entry (r, c) the sum over k of x(r, k) · w(k, c), plus b(c). The rectifier written as a maximum with
  the repeated zero word is, entry by entry, the maximum with zero.
-/
import proofs.«419797_j47588237639715_2_alg».proof.Proof.Spec
import proofs.«419797_j47588237639715_2_alg».proof.Proof.LibDot
import Idealize.ShloMosaic.Lib.ValueLayout

noncomputable section

open scoped BigOperators

namespace Cert.Readout

open Idealize.ShloMosaic Idealize.ShloMosaic.ValueIdx

/-- An affine stage of the vector unit at entry (r, c). -/
theorem layer_at {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : Cert.Spec.Mat R K) (w : Cert.Spec.Mat K C) (b : Cert.Spec.Vec1 C)
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (r : Fin R) (c : Fin C) :
    (addf (F := Ideal) (FloatOps.matmul d none (truncf (F := Ideal) .bf16 x hlt) (truncf (F := Ideal) .bf16 w hlt)
            (constant (F := Ideal) ⟨2, ![R, C]⟩ .f32 0x00000000#32))
        (broadcastTo ⟨2, ![R, C]⟩ (shapeCast ⟨2, ![1, C]⟩ b hsc) hbc)) (ix2 r c)
      = Cert.Spec.linAt x w b r c := by
  rw [addf_apply]
  unfold Cert.Spec.linAt
  refine congrArg₂ (· + ·) ?_ ?_
  · exact Cert.LibDot.matmul_zero_at d hl hr hln hrn hlb hrb none _ _ r c
  · exact (broadcastTo_1b_ab_apply _ hbc r c).trans (shapeCast_a_1a_apply b hsc 0 c)

/-- The rectifier of the vector unit at an entry. -/
theorem relu_at {s : Shape} (v : FVec Ideal s .f32) (i : s.Idx) :
    (maximumf (F := Ideal) v (broadcast s (Scalar.ofBits (F := Ideal) .f32 0x00000000#32))) i = max (v i) Cert.Spec.zero := rfl

/-- An affine stage of the vector unit, as a whole table. -/
theorem layer_eq {R K C : Nat} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : Cert.Spec.Mat R K) (w : Cert.Spec.Mat K C) (b : Cert.Spec.Vec1 C)
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩) :
    (addf (F := Ideal) (FloatOps.matmul d none (truncf (F := Ideal) .bf16 x hlt) (truncf (F := Ideal) .bf16 w hlt)
            (constant (F := Ideal) ⟨2, ![R, C]⟩ .f32 0x00000000#32))
        (broadcastTo ⟨2, ![R, C]⟩ (shapeCast ⟨2, ![1, C]⟩ b hsc) hbc))
      = Cert.Spec.lin x w b := by
  funext j
  obtain ⟨r, c, rfl⟩ : ∃ (r : Fin R) (c : Fin C), j = ix2 r c := ⟨j 0, j 1, eq_ix2 j⟩
  exact layer_at d hl hr hln hrn hlb hrb x w b hlt hsc hbc r c

/-- The rectifier of the vector unit, as a whole table. -/
theorem relu_eq {R C : Nat} (v : Cert.Spec.Mat R C) :
    (maximumf (F := Ideal) v (broadcast ⟨2, ![R, C]⟩ (Scalar.ofBits (F := Ideal) .f32 0x00000000#32))) = Cert.Spec.relu v := rfl

/-! ## Each row by itself

  Entry (r, c) of an affine stage or of the rectifier reads only row r of its operand, so a stage applied to a band of
  rows is the band of the stage applied to the whole table. -/

/-- The rows of a table from a given offset on. -/
def band {R' R K : Nat} (o : Nat) (h : ∀ y : Fin R', o + y.val < R) (x : Cert.Spec.Mat R K) : Cert.Spec.Mat R' K :=
  fun i => x (ix2 ⟨o + (i 0).val, h (i 0)⟩ (i 1))

theorem band_apply {R' R K : Nat} (o : Nat) (h : ∀ y : Fin R', o + y.val < R) (x : Cert.Spec.Mat R K) (y : Fin R') (k : Fin K) :
    band o h x (ix2 y k) = x (ix2 ⟨o + y.val, h y⟩ k) := rfl

theorem lin_band {R' R K C : Nat} (o : Nat) (h : ∀ y : Fin R', o + y.val < R) (x : Cert.Spec.Mat R K)
    (w : Cert.Spec.Mat K C) (b : Cert.Spec.Vec1 C) : Cert.Spec.lin (band o h x) w b = band o h (Cert.Spec.lin x w b) := by
  funext j
  obtain ⟨r, c, rfl⟩ : ∃ (r : Fin R') (c : Fin C), j = ix2 r c := ⟨j 0, j 1, eq_ix2 j⟩
  rfl

theorem relu_band {R' R K : Nat} (o : Nat) (h : ∀ y : Fin R', o + y.val < R) (x : Cert.Spec.Mat R K) :
    Cert.Spec.relu (band o h x) = band o h (Cert.Spec.relu x) := rfl

theorem mlpL_band {R' R A B C D : Nat} (o : Nat) (h : ∀ y : Fin R', o + y.val < R) (x : Cert.Spec.Mat R A)
    (w0 : Cert.Spec.Mat A B) (b0 : Cert.Spec.Vec1 B) (w1 : Cert.Spec.Mat B C) (b1 : Cert.Spec.Vec1 C)
    (w2 : Cert.Spec.Mat C D) (b2 : Cert.Spec.Vec1 D) :
    Cert.Spec.mlpL (band o h x) w0 b0 w1 b1 w2 b2 = band o h (Cert.Spec.mlpL x w0 b0 w1 b1 w2 b2) := by
  unfold Cert.Spec.mlpL
  rw [lin_band, relu_band, lin_band, relu_band, lin_band]

end Cert.Readout

end
-- ==== Proof.ReadoutPoint.lean ====
/-
  The read-out stage on one band of rows: what the vector unit computes from a band of node rows and the three
  weight tables and biases is three affine layers, the first two rectified, of that band.
-/
import proofs.«419797_j47588237639715_2_alg».proof.Proof.Gen.KernelIdeal.Skeleton
import proofs.«419797_j47588237639715_2_alg».proof.Proof.ReadoutLayer
import Idealize.ShloMosaic.Lib.Pipeline.Value

set_option maxRecDepth 16384

noncomputable section

namespace Cert.Readout

open Idealize.ShloMosaic Idealize.ShloMosaic.ValueIdx
open Cert.KernelIdeal Cert.KernelIdeal.Gen

/-- The read-out stage's stored value is the three layers of its band of rows. -/
theorem pay_eq (x : Cert.Spec.Mat 10000 32) (w0 : Cert.Spec.Mat 32 32) (b0 : Cert.Spec.Vec1 32) (w1 : Cert.Spec.Mat 32 32)
    (b1 : Cert.Spec.Vec1 32) (w2 : Cert.Spec.Mat 32 4) (b2 : Cert.Spec.Vec1 4) :
    k3_pay1 (F := Ideal) x w0 b0 w1 b1 w2 b2 = Cert.Spec.mlpL x w0 b0 w1 b1 w2 b2 := by
  have e0 : shapeCast S10000x32 x shapeCasts_S10000x32_S10000x32 = x := shapeCast_self _ _
  unfold k3_pay1 Cert.Spec.mlpL
  dsimp only
  rw [e0]
  rw [layer_eq dot_S10000x32_S32x4_S10000x4_1_0_0_1_n_n rfl rfl rfl rfl rfl rfl]
  rw [relu_eq]
  rw [layer_eq dot_S10000x32_S32x32_S10000x32_1_0_0_1_n_n rfl rfl rfl rfl rfl rfl]
  rw [relu_eq]
  rw [layer_eq dot_S10000x32_S32x32_S10000x32_1_0_0_1_n_n rfl rfl rfl rfl rfl rfl]

end Cert.Readout

end
-- ==== Proof.ReadoutValue.lean ====
/-
  The read-out stage over the whole node table. The grid has five points; point t reads the band of 10000 node rows
  from row 10000 t, with the three weight tables and biases whole, and writes back the same band of the result. Each
  layer acts on every row by itself, so the band of the result is the band of the three layers of the whole table, and
  the five bands fill the result.
-/
import proofs.«419797_j47588237639715_2_alg».proof.Proof.Gen.KernelIdeal.Frame
import proofs.«419797_j47588237639715_2_alg».proof.Proof.Spec
import proofs.«419797_j47588237639715_2_alg».proof.Proof.ReadoutPoint
import Idealize.ShloMosaic.Lib.Pipeline.Value

set_option maxRecDepth 16384

noncomputable section

namespace Cert.KernelIdeal.RegionValue

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

namespace Readout

theorem zeros2 : (![0, 0] : Fin 2 → Nat) = fun _ => 0 := funext fun a => by fin_cases a <;> rfl
theorem zeros1 : (![0] : Fin 1 → Nat) = fun _ => 0 := funext fun a => by fin_cases a; rfl

/-- The block index maps, decided over the five grid points: the node rows and the result move one band of rows per
    point, the weight tables and biases stay. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0
    ∧ win3_4.index t (0 : Fin 1) = 0
    ∧ win3_5.index t (0 : Fin 2) = 0 ∧ win3_5.index t (1 : Fin 2) = 0
    ∧ win3_6.index t (0 : Fin 1) = 0
    ∧ win3_7.index t (0 : Fin 2) = t.val ∧ win3_7.index t (1 : Fin 2) = 0 :=
  (by decide +kernel : ∀ t : Fin grid3.N, _)

theorem point_lt (t : Fin cfg3.N) : t.val < 5 := by
  have h := t.isLt
  have hN : cfg3.N = 5 := N_3
  omega

theorem band_inb (t : Fin cfg3.N) : ∀ y : Fin 10000, t.val * 10000 + y.val < 50000 := fun y => by
  have := point_lt t; have := y.isLt; omega

/-- The node rows' block at point t is the band of 10000 rows from row 10000 t. -/
theorem iblk_rows (c : Dev nD) (t : Fin cfg3.N) :
    (iblk3 (F := Ideal) V c 0 t : Cert.Spec.Mat 10000 32)
      = Cert.Readout.band (t.val * 10000) (band_inb t) (V c (Pipeline.arrRef spec3 0) : Cert.Spec.Mat 50000 32) := by
  obtain ⟨e0, e1, -⟩ := index_facts t
  funext j
  show V c (Pipeline.arrRef spec3 0) (((cfg3.win 0).blk t).view.emb j)
    = V c (Pipeline.arrRef spec3 0) (ix2 ⟨t.val * 10000 + (j 0).val, band_inb t (j 0)⟩ (j 1))
  refine congrArg (V c (Pipeline.arrRef spec3 0)) (funext fun a => Fin.ext ?_)
  match a with
  | ⟨0, _⟩ => show win3_0.index t (0 : Fin 2) * 10000 + 1 * (j 0).val = t.val * 10000 + (j 0).val; rw [e0]; omega
  | ⟨1, _⟩ => show win3_0.index t (1 : Fin 2) * 32 + 1 * (j 1).val = (j 1).val; rw [e1]; omega

/-- The first weight table's block at any point is the whole table. -/
theorem iblk_w0 (c : Dev nD) (t : Fin cfg3.N) :
    (iblk3 (F := Ideal) V c 1 t : Cert.Spec.Mat 32 32) = V c (Pipeline.arrRef spec3 1) := by
  obtain ⟨a00, a01, a10, a11, a20, a30, a31, a40, a50, a51, a60, a70, a71⟩ := index_facts t
  funext j
  show V c (Pipeline.arrRef spec3 1) (((cfg3.win 1).blk t).view.emb j) = V c (Pipeline.arrRef spec3 1) j
  refine congrArg (V c (Pipeline.arrRef spec3 1)) (funext fun a => Fin.ext ?_)
  match a with
  | ⟨0, _⟩ => show win3_1.index t (0 : Fin 2) * 32 + 1 * (j 0).val = (j 0).val; rw [a10]; omega
  | ⟨1, _⟩ => show win3_1.index t (1 : Fin 2) * 32 + 1 * (j 1).val = (j 1).val; rw [a11]; omega

/-- The first bias's block at any point is the whole vector. -/
theorem iblk_b0 (c : Dev nD) (t : Fin cfg3.N) :
    (iblk3 (F := Ideal) V c 2 t : Cert.Spec.Vec1 32) = V c (Pipeline.arrRef spec3 2) := by
  obtain ⟨a00, a01, a10, a11, a20, a30, a31, a40, a50, a51, a60, a70, a71⟩ := index_facts t
  funext j
  show V c (Pipeline.arrRef spec3 2) (((cfg3.win 2).blk t).view.emb j) = V c (Pipeline.arrRef spec3 2) j
  refine congrArg (V c (Pipeline.arrRef spec3 2)) (funext fun a => Fin.ext ?_)
  match a with
  | ⟨0, _⟩ => show win3_2.index t (0 : Fin 1) * 32 + 1 * (j 0).val = (j 0).val; rw [a20]; omega

/-- The second weight table's block at any point is the whole table. -/
theorem iblk_w1 (c : Dev nD) (t : Fin cfg3.N) :
    (iblk3 (F := Ideal) V c 3 t : Cert.Spec.Mat 32 32) = V c (Pipeline.arrRef spec3 3) := by
  obtain ⟨a00, a01, a10, a11, a20, a30, a31, a40, a50, a51, a60, a70, a71⟩ := index_facts t
  funext j
  show V c (Pipeline.arrRef spec3 3) (((cfg3.win 3).blk t).view.emb j) = V c (Pipeline.arrRef spec3 3) j
  refine congrArg (V c (Pipeline.arrRef spec3 3)) (funext fun a => Fin.ext ?_)
  match a with
  | ⟨0, _⟩ => show win3_3.index t (0 : Fin 2) * 32 + 1 * (j 0).val = (j 0).val; rw [a30]; omega
  | ⟨1, _⟩ => show win3_3.index t (1 : Fin 2) * 32 + 1 * (j 1).val = (j 1).val; rw [a31]; omega

/-- The second bias's block at any point is the whole vector. -/
theorem iblk_b1 (c : Dev nD) (t : Fin cfg3.N) :
    (iblk3 (F := Ideal) V c 4 t : Cert.Spec.Vec1 32) = V c (Pipeline.arrRef spec3 4) := by
  obtain ⟨a00, a01, a10, a11, a20, a30, a31, a40, a50, a51, a60, a70, a71⟩ := index_facts t
  funext j
  show V c (Pipeline.arrRef spec3 4) (((cfg3.win 4).blk t).view.emb j) = V c (Pipeline.arrRef spec3 4) j
  refine congrArg (V c (Pipeline.arrRef spec3 4)) (funext fun a => Fin.ext ?_)
  match a with
  | ⟨0, _⟩ => show win3_4.index t (0 : Fin 1) * 32 + 1 * (j 0).val = (j 0).val; rw [a40]; omega

/-- The third weight table's block at any point is the whole table. -/
theorem iblk_w2 (c : Dev nD) (t : Fin cfg3.N) :
    (iblk3 (F := Ideal) V c 5 t : Cert.Spec.Mat 32 4) = V c (Pipeline.arrRef spec3 5) := by
  obtain ⟨a00, a01, a10, a11, a20, a30, a31, a40, a50, a51, a60, a70, a71⟩ := index_facts t
  funext j
  show V c (Pipeline.arrRef spec3 5) (((cfg3.win 5).blk t).view.emb j) = V c (Pipeline.arrRef spec3 5) j
  refine congrArg (V c (Pipeline.arrRef spec3 5)) (funext fun a => Fin.ext ?_)
  match a with
  | ⟨0, _⟩ => show win3_5.index t (0 : Fin 2) * 32 + 1 * (j 0).val = (j 0).val; rw [a50]; omega
  | ⟨1, _⟩ => show win3_5.index t (1 : Fin 2) * 4 + 1 * (j 1).val = (j 1).val; rw [a51]; omega

/-- The third bias's block at any point is the whole vector. -/
theorem iblk_b2 (c : Dev nD) (t : Fin cfg3.N) :
    (iblk3 (F := Ideal) V c 6 t : Cert.Spec.Vec1 4) = V c (Pipeline.arrRef spec3 6) := by
  obtain ⟨a00, a01, a10, a11, a20, a30, a31, a40, a50, a51, a60, a70, a71⟩ := index_facts t
  funext j
  show V c (Pipeline.arrRef spec3 6) (((cfg3.win 6).blk t).view.emb j) = V c (Pipeline.arrRef spec3 6) j
  refine congrArg (V c (Pipeline.arrRef spec3 6)) (funext fun a => Fin.ext ?_)
  match a with
  | ⟨0, _⟩ => show win3_6.index t (0 : Fin 1) * 4 + 1 * (j 0).val = (j 0).val; rw [a60]; omega

/-- What the stage leaves in its result block, from the blocks it reads: the three layers of the band of rows. -/
theorem out_eq (x : Cert.Spec.Mat 10000 32) (w0 : Cert.Spec.Mat 32 32) (b0 : Cert.Spec.Vec1 32) (w1 : Cert.Spec.Mat 32 32)
    (b1 : Cert.Spec.Vec1 32) (w2 : Cert.Spec.Mat 32 4) (b2 : Cert.Spec.Vec1 4) :
    out3_7 (F := Ideal) x w0 b0 w1 b1 w2 b2 = Cert.Spec.mlpL x w0 b0 w1 b1 w2 b2 := by
  unfold out3_7
  rw [View.canon_unit_zero zeros2]
  simp only [View.ld_unit_zero (S := S10000x32) zeros2, View.ld_unit_zero (S := S32x32) zeros2,
    View.ld_unit_zero (S := S32) zeros1, View.ld_unit_zero (S := S32x4) zeros2, View.ld_unit_zero (S := S4) zeros1]
  exact Cert.Readout.pay_eq x w0 b0 w1 b1 w2 b2

/-- What the stage leaves in its result block at point t: the band of rows from row 10000 t of the three layers of the
    whole node table. -/
theorem after_eq (c : Dev nD) (t : Fin cfg3.N) :
    (dat3 (F := Ideal) V c).after 7 t = Cert.Readout.band (t.val * 10000) (band_inb t) (Cert.Spec.mlpL (R := 50000) (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5)) (V c (Pipeline.arrRef spec3 6))) := by
  refine ((after3_7 V c t).trans (out_eq _ _ _ _ _ _ _)).trans ?_
  rw [iblk_rows, iblk_w0, iblk_b0, iblk_w1, iblk_b1, iblk_w2, iblk_b2, Cert.Readout.mlpL_band]

/-- What point t writes back is its band of rows of the three layers of the whole node table. -/
theorem flushed_eq (c : Dev nD) (t : Fin cfg3.N) :
    (dat3 (F := Ideal) V c).flushed 7 t
      = ((cfg3.win 7).blk t).view.read (Elt Ideal)
          (Cert.Spec.mlpL (R := 50000) (V c (Pipeline.arrRef spec3 0)) (V c (Pipeline.arrRef spec3 1)) (V c (Pipeline.arrRef spec3 2))
            (V c (Pipeline.arrRef spec3 3)) (V c (Pipeline.arrRef spec3 4)) (V c (Pipeline.arrRef spec3 5)) (V c (Pipeline.arrRef spec3 6))) := by
  show (cfg3.win 7).cut (grid3.coords t) ((dat3 V c).after 7 t) = _
  refine (congrArg ((cfg3.win 7).cut (grid3.coords t)) (after_eq V c t)).trans ?_
  obtain ⟨a00, a01, a10, a11, a20, a30, a31, a40, a50, a51, a60, a70, a71⟩ := index_facts t
  funext j
  show Cert.Spec.mlpL (R := 50000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6))
        (ix2 ⟨t.val * 10000 + (j 0).val, band_inb t (j 0)⟩ (j 1))
      = Cert.Spec.mlpL (R := 50000) (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5)) (V c (Pipeline.arrRef spec3 6))
        (((cfg3.win 7).blk t).view.emb j)
  refine congrArg _ (funext fun a => Fin.ext ?_)
  match a with
  | ⟨0, _⟩ => show t.val * 10000 + (j 0).val = win3_7.index t (0 : Fin 2) * 10000 + 1 * (j 0).val; rw [a70]; omega
  | ⟨1, _⟩ => show (j 1).val = win3_7.index t (1 : Fin 2) * 4 + 1 * (j 1).val; rw [a71]; omega

/-- A row of the result is in point t's block iff each coordinate is in the block's range on its axis. -/
theorem mem_blk (t : Fin cfg3.N) (i : S50000x4.Idx) :
    i ∈ ((cfg3.win 7).blk t).view.set ↔ ∀ a : Fin 2, win3_7.index t a * S10000x4.size a ≤ (i a).val ∧ (i a).val < win3_7.index t a * S10000x4.size a + S10000x4.size a := by
  show i ∈ ((View.whole main_v32).slice (win3_7.rect t)).set ↔ _
  rw [View.set_slice_whole, Rect.mem_set_unit]
  exact Iff.rfl

/-- Every row of the result is written back by the point whose band holds it. -/
theorem covered (i : S50000x4.Idx) :
    ∃ t : Fin cfg3.N, (cfg3.win 7).flush t = true ∧ i ∈ ((cfg3.win 7).blk t).view.set := by
  have hi0 : (i 0).val < 50000 := (i 0).isLt
  have hi1 : (i 1).val < 4 := (i 1).isLt
  have hN : cfg3.N = 5 := N_3
  have hlt : (i 0).val / 10000 < cfg3.N := by rw [hN]; omega
  obtain ⟨a00, a01, a10, a11, a20, a30, a31, a40, a50, a51, a60, a70, a71⟩ := index_facts ⟨(i 0).val / 10000, hlt⟩
  refine ⟨⟨(i 0).val / 10000, hlt⟩, flush3_7 _, ?_⟩
  rw [mem_blk]
  intro a
  match a with
  | ⟨0, _⟩ =>
    show win3_7.index ⟨(i 0).val / 10000, hlt⟩ (0 : Fin 2) * 10000 ≤ (i 0).val ∧ (i 0).val < win3_7.index ⟨(i 0).val / 10000, hlt⟩ (0 : Fin 2) * 10000 + 10000
    rw [a70]; show (i 0).val / 10000 * 10000 ≤ (i 0).val ∧ (i 0).val < (i 0).val / 10000 * 10000 + 10000; omega
  | ⟨1, _⟩ =>
    show win3_7.index ⟨(i 0).val / 10000, hlt⟩ (1 : Fin 2) * 4 ≤ (i 1).val ∧ (i 1).val < win3_7.index ⟨(i 0).val / 10000, hlt⟩ (1 : Fin 2) * 4 + 4
    rw [a71]; omega

end Readout

open Readout

/-- The result array after the run: three affine layers, the first two rectified, of the node table. -/
theorem deembed_value (c : Dev nD) :
    (dat3 (F := Ideal) V c).arrAt 7 cfg3.N
      = Cert.Spec.mlpL (R := 50000) (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) (V c (Pipeline.arrRef spec3 6)) :=
  (dat3 (F := Ideal) V c).arrAt_eq_of_cover 7 _ (fun t _ => flushed_eq V c t) covered

end Cert.KernelIdeal.RegionValue

end
-- ==== Proof.LibTypedRef.lean ====
/-
  Typed references to host buffers: contents moved to a reference's own buffer type and back are unchanged.
-/
import Idealize.ShloMosaic.Lib.StableHlo

noncomputable section

namespace Cert.LibTypedRef

open Idealize.ShloMosaic

/-- Contents at a value's type, moved to the typed reference's buffer type and back, are the contents: the two moves
    are transports along one equation and its inverse. -/
theorem ofBuf_toBuf {sig : RefSig} {Val : EltTy → Type} {T : BufTy} (x : StableHlo.TRef sig T) (v : T.Contents Val) :
    x.ofBuf (x.toBuf v) = v := by
  obtain ⟨r, h, _, _⟩ := x
  subst h
  rfl

end Cert.LibTypedRef

end
-- ==== Proof.KHostTake.lean ====
/-
  The host stretches between the regions, as values: the two rows of the edge list, the column means and variances
  of the input, and the four row gathers. A row gather on the host tests every start index against the table's
  extent and replaces out-of-range rows by a fixed word; when every position word names a node the test is true
  everywhere and the result is the plain gather at the positions.
-/
import proofs.«419797_j47588237639715_2_alg».proof.Proof.Gen.KernelIdeal.Launch
import proofs.«419797_j47588237639715_2_alg».proof.Proof.Spec
import proofs.«419797_j47588237639715_2_alg».proof.Proof.LibTypedRef
import Idealize.ShloMosaic.Lib.StableHlo.Run
import Idealize.ShloMosaic.Lib.ValueLayout
import Idealize.ShloMosaic.PureOps.Reduce

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

variable (X : Valuation τ sig (Elt Ideal))

/-- The source row of the edge list (row 0) as a vector of position words. -/
def srcT (ei : IVec S2x800000 32) : Cert.Spec.IVec1 800000 :=
  shapeCast S800000 (extractStridedSlice S1x800000 ![0, 0] ei slices_S2x800000_S1x800000_0_0) shapeCasts_S1x800000_S800000
/-- The target row of the edge list (row 1). -/
def dstT (ei : IVec S2x800000 32) : Cert.Spec.IVec1 800000 :=
  shapeCast S800000 (extractStridedSlice S1x800000 ![1, 0] ei slices_S2x800000_S1x800000_1_0) shapeCasts_S1x800000_S800000
/-- The column means of the input. -/
def meanT (x : Cert.Spec.Mat 50000 4) : Cert.Spec.Vec1 4 :=
  Host.divf (F := Ideal) (Host.reduceAdd (F := Ideal) x (constant S_ .f32 0x00000000#32) reducesTo_S50000x4_S4_d0 h_S_)
    (broadcastInDim S4 ![] bcast_S_S4 (constant (F := Ideal) S_ .f32 0x47435000#32))
/-- The column variances of the input. -/
def varT (x : Cert.Spec.Mat 50000 4) : Cert.Spec.Vec1 4 :=
  select
    (broadcastInDim S4 ![] bcast_S_S4
      (cmpf (F := Ideal) .ogt
        (subf (F := Ideal) (constant S_ .f32 0x47435000#32) (sitofp .f32 (constantI S_ 32 0#32)))
        (constant S_ .f32 0x00000000#32)))
    (Host.divf (F := Ideal)
      (Host.reduceAdd (F := Ideal)
        (mulf (F := Ideal)
          (subf (F := Ideal) x
            (broadcastInDim S50000x4 ![0, 1] bcast_S1x4_S50000x4_0_1
              (Host.divf (F := Ideal)
                (broadcastInDim S1x4 ![1] bcast_S4_S1x4_1
                  (Host.reduceAdd (F := Ideal) x (constant S_ .f32 0x00000000#32) reducesTo_S50000x4_S4_d0 h_S_))
                (broadcastInDim S1x4 ![] bcast_S_S1x4 (constant (F := Ideal) S_ .f32 0x47435000#32)))))
          (subf (F := Ideal) x
            (broadcastInDim S50000x4 ![0, 1] bcast_S1x4_S50000x4_0_1
              (Host.divf (F := Ideal)
                (broadcastInDim S1x4 ![1] bcast_S4_S1x4_1
                  (Host.reduceAdd (F := Ideal) x (constant S_ .f32 0x00000000#32) reducesTo_S50000x4_S4_d0 h_S_))
                (broadcastInDim S1x4 ![] bcast_S_S1x4 (constant (F := Ideal) S_ .f32 0x47435000#32))))))
        (constant S_ .f32 0x00000000#32) reducesTo_S50000x4_S4_d0 h_S_)
      (broadcastInDim S4 ![] bcast_S_S4
        (subf (F := Ideal) (constant S_ .f32 0x47435000#32) (sitofp .f32 (constantI S_ 32 0#32)))))
    (broadcastInDim S4 ![] bcast_S_S4 (id (constant (F := Ideal) S_ .f32 0x7FC00000#32)))
/-- A position vector as the column of start indices a row gather reads: a negative word counted from the end. -/
def normCol (idx : Cert.Spec.IVec1 800000) : Cert.Spec.ICol 800000 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

/-- Every word of a position vector names a node. -/
def RowInRange (idx : Cert.Spec.IVec1 800000) : Prop := ∀ e : Fin 800000, 0 ≤ (idx (ix1 e)).toInt ∧ (idx (ix1 e)).toInt < 50000

theorem pre_v1 : after hostOps0_1 (after hostOps0 X) (main_v1 : DevRef τ sig) = srcT (X (main_arg1 : DevRef τ sig)) := by
  after_results
  rfl
theorem pre_v3 : after hostOps0_1 (after hostOps0 X) (main_v3 : DevRef τ sig) = dstT (X (main_arg1 : DevRef τ sig)) := by
  after_results
  rfl
theorem pre_v6 : after hostOps0_1 (after hostOps0 X) (main_v6 : DevRef τ sig) = meanT (X (main_arg0 : DevRef τ sig)) := by
  after_results
  rfl
set_option maxHeartbeats 4000000 in
theorem pre_v7 : after hostOps0_1 (after hostOps0 X) (main_v7 : DevRef τ sig) = varT (X (main_arg0 : DevRef τ sig)) := by
  after_results_simp
  simp only [Cert.LibTypedRef.ofBuf_toBuf]
  rfl

theorem rows_in_range (ei : IVec S2x800000 32) (h : Cert.Spec.InRange ei) : RowInRange (srcT ei) ∧ RowInRange (dstT ei) := by
  constructor
  · intro e
    unfold srcT
    rw [shapeCast_1a_a_apply, slice2_axis0_eq]
    exact h _
  · intro e
    unfold dstT
    rw [shapeCast_1a_a_apply, slice2_axis0_eq]
    exact h _

/-! ## The range test of a row gather -/

/-- A word that is not negative is left by the wrap. -/
theorem wrap_word (w : BitVec 32) (h0 : 0 ≤ w.toInt) :
    Scalar.select (IntOp.cmpi .slt w 0#32) (IntOp.addi w 50000#32) w = w := by
  have hs : w.slt 0#32 = false := by
    rw [Bool.eq_false_iff]
    intro hlt
    rw [BitVec.slt_iff_toInt_lt] at hlt
    have hz : (0#32 : BitVec 32).toInt = 0 := by decide
    omega
  show Scalar.select (BitVec.ofBool (w.slt 0#32)) _ _ = _
  rw [hs]
  exact select_zero _ _

/-- A word that is not negative passes the lower test. -/
theorem ge_word (w : BitVec 32) (h0 : 0 ≤ w.toInt) : IntOp.cmpi .sge w 0#32 = 1#1 := by
  have hs : (0#32 : BitVec 32).sle w = true := by
    rw [BitVec.sle_iff_toInt_le]
    have hz : (0#32 : BitVec 32).toInt = 0 := by decide
    omega
  show BitVec.ofBool ((0#32 : BitVec 32).sle w) = 1#1
  rw [hs]
  rfl

/-- A word below the extent passes the upper test. -/
theorem le_word (w : BitVec 32) (h1 : w.toInt < 50000) : IntOp.cmpi .sle w 49999#32 = 1#1 := by
  have hs : w.sle 49999#32 = true := by
    rw [BitVec.sle_iff_toInt_le]
    have hz : (49999#32 : BitVec 32).toInt = 49999 := by decide
    omega
  show BitVec.ofBool (w.sle 49999#32) = 1#1
  rw [hs]
  rfl

/-- A fold by `and` from the bit one over bits that are all one is one. -/
theorem fold_andi_one {ι : Type} [DecidableEq ι] (S : Finset ι) (x : ι → BitVec 1) (h : ∀ i ∈ S, x i = 1#1) :
    S.fold IntOp.andi 1#1 x = 1#1 := by
  induction S using Finset.induction_on with
  | empty => rfl
  | insert a S ha ih =>
    rw [Finset.fold_insert ha, h a (Finset.mem_insert_self a S), ih (fun i hi => h i (Finset.mem_insert_of_mem hi))]
    rfl

/-- Under a mask that is one everywhere, broadcast along the rows, a select is its first branch. -/
theorem select_rows_one {D : Nat} {α : Type} (hb : S800000.BroadcastsInDim (⟨2, ![800000, D]⟩ : Shape) ![0])
    (m : IVec S800000 1) (hm : ∀ j, m j = 1#1) (a b : (⟨2, ![800000, D]⟩ : Shape).Idx → α) :
    select (broadcastInDim (⟨2, ![800000, D]⟩ : Shape) ![0] hb m) a b = a := by
  funext i
  rw [select_apply]
  show Scalar.select (m _) _ _ = _
  rw [hm, select_one]

/-- Every start index of the column is the position word it came from, when the words name nodes. -/
theorem normCol_word (idx : Cert.Spec.IVec1 800000) (hr : RowInRange idx) (i : S800000x1.Idx) :
    0 ≤ (normCol idx i).toInt ∧ (normCol idx i).toInt < 50000 := by
  have hr' : ∀ k : S800000.Idx, 0 ≤ (idx k).toInt ∧ (idx k).toInt < 50000 := fun k => by
    rw [eq_ix1 k]; exact hr _
  have key : ∀ k : S800000.Idx,
      select (cmpi .slt idx (broadcastInDim S800000 ![] bcast_S_S800000 (constantI S_ 32 0#32)))
        (addi idx (broadcastInDim S800000 ![] bcast_S_S800000 (constantI S_ 32 50000#32))) idx k = idx k := fun k => by
    rw [select_apply]
    exact wrap_word _ (hr' k).1
  unfold normCol
  simp only [broadcastInDim]
  rw [key]
  exact hr' _

/-- The range test of a row gather is true at every row when the position words name nodes. -/
theorem range_test_one (idx : Cert.Spec.IVec1 800000) (hr : RowInRange idx) (j : S800000.Idx) :
    Host.reduce IntOp.andi
      (andi (cmpi .sge (normCol idx) (broadcastInDim S800000x1 ![] bcast_S_S800000x1 (constantI S_ 32 0#32)))
        (cmpi .sle (normCol idx)
          (broadcastInDim S800000x1 ![0, 1] bcast_S1x1_S800000x1_0_1
            (broadcastInDim S1x1 ![1] bcast_S1_S1x1_1 (constantI S1 32 49999#32)))))
      (constantI S_ 1 1#1) reducesTo_S800000x1_S800000_d1 h_S_ j = 1#1 := by
  rw [Host.reduce_eq_fold]
  apply fold_andi_one
  intro i _
  show IntOp.andi (IntOp.cmpi .sge (normCol idx i) 0#32) (IntOp.cmpi .sle (normCol idx i) 49999#32) = 1#1
  rw [ge_word _ (normCol_word idx hr i).1, le_word _ (normCol_word idx hr i).2]
  rfl

/-- The tested row gather is the plain one when the position words name nodes. -/
theorem take_eq {D : Nat} {α : Type} (hb : S800000.BroadcastsInDim (⟨2, ![800000, D]⟩ : Shape) ![0])
    (idx : Cert.Spec.IVec1 800000) (hr : RowInRange idx) (g fill : (⟨2, ![800000, D]⟩ : Shape).Idx → α) :
    select
      (broadcastInDim (⟨2, ![800000, D]⟩ : Shape) ![0] hb
        (Host.reduce IntOp.andi
          (andi (cmpi .sge (normCol idx) (broadcastInDim S800000x1 ![] bcast_S_S800000x1 (constantI S_ 32 0#32)))
            (cmpi .sle (normCol idx)
              (broadcastInDim S800000x1 ![0, 1] bcast_S1x1_S800000x1_0_1
                (broadcastInDim S1x1 ![1] bcast_S1_S1x1_1 (constantI S1 32 49999#32)))))
          (constantI S_ 1 1#1) reducesTo_S800000x1_S800000_d1 h_S_))
      g fill = g :=
  select_rows_one hb _ (range_test_one idx hr) g fill

attribute [local irreducible] Host.gather Idealize.ShloMosaic.select

set_option maxHeartbeats 4000000 in
theorem take_v9 (hr : RowInRange (X (main_v3 : DevRef τ sig))) : after hostOps1 X (main_v9 : DevRef τ sig)
    = Host.gather gather_S50000x32_S800000x1_S800000x32_1_0_n_n_0_1_132 (X (main_v8 : DevRef τ sig)) (normCol (X (main_v3 : DevRef τ sig))) := by
  after_results_simp
  simp only [Cert.LibTypedRef.ofBuf_toBuf]
  exact take_eq (D := 32) bcast_S800000_S800000x32_0 (X (main_v3 : DevRef τ sig)) hr _ _
set_option maxHeartbeats 4000000 in
theorem take_v10 (hr : RowInRange (X (main_v1 : DevRef τ sig))) : after hostOps1_1 X (main_v10 : DevRef τ sig)
    = Host.gather gather_S50000x32_S800000x1_S800000x32_1_0_n_n_0_1_132 (X (main_v8 : DevRef τ sig)) (normCol (X (main_v1 : DevRef τ sig))) := by
  after_results_simp
  simp only [Cert.LibTypedRef.ofBuf_toBuf]
  exact take_eq (D := 32) bcast_S800000_S800000x32_0 (X (main_v1 : DevRef τ sig)) hr _ _
set_option maxHeartbeats 4000000 in
theorem take_v24 (hr : RowInRange (X (main_v3 : DevRef τ sig))) : after hostOps2_1 X (main_v24 : DevRef τ sig)
    = Host.gather gather_S50000x2_S800000x1_S800000x2_1_0_n_n_0_1_12 (X (main_v23 : DevRef τ sig)) (normCol (X (main_v3 : DevRef τ sig))) := by
  after_results_simp
  simp only [Cert.LibTypedRef.ofBuf_toBuf]
  exact take_eq (D := 2) bcast_S800000_S800000x2_0 (X (main_v3 : DevRef τ sig)) hr _ _
set_option maxHeartbeats 4000000 in
theorem take_v25 (hr : RowInRange (X (main_v1 : DevRef τ sig))) : after hostOps2_2 X (main_v25 : DevRef τ sig)
    = Host.gather gather_S50000x2_S800000x1_S800000x2_1_0_n_n_0_1_12 (X (main_v23 : DevRef τ sig)) (normCol (X (main_v1 : DevRef τ sig))) := by
  after_results_simp
  simp only [Cert.LibTypedRef.ofBuf_toBuf]
  exact take_eq (D := 2) bcast_S800000_S800000x2_0 (X (main_v1 : DevRef τ sig)) hr _ _

end Cert.KernelIdeal.HostValue

end
-- ==== Proof.KHostAgg.lean ====
import proofs.«419797_j47588237639715_2_alg».proof.Proof.Gen.KernelIdeal.Launch
import proofs.«419797_j47588237639715_2_alg».proof.Proof.Spec
import Idealize.ShloMosaic.Lib.StableHlo.Run
import Idealize.ShloMosaic.Lib.Pipeline.Value
import Idealize.ShloMosaic.Lib.IdealHost
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx

variable (X : Valuation τ sig (Elt Ideal))

attribute [local irreducible] Host.scatterAdd

/-- A position vector broadcast along axis 0 into a column reads, at row j, the vector's entry j. -/
theorem bcast_col (v : Cert.Spec.IVec1 800000) :
    broadcastInDim S800000x1 ![0] bcast_S800000_S800000x1_0 v = Cert.Spec.col v := by
  funext j
  refine broadcastInDim_apply _ _ v j (ix1 (j 0)) (fun a => ?_)
  match a with
  | ⟨0, _⟩ => rfl

/-- A vector broadcast along axis 0 into a one-column matrix reads, at row j, the vector's entry j. -/
theorem bcast_vcol (v : Cert.Spec.Vec1 50000) (j : S50000x1.Idx) :
    broadcastInDim S50000x1 ![0] bcast_S50000_S50000x1_0 v j = v (ix1 (j 0)) := by
  refine broadcastInDim_apply _ _ v j (ix1 (j 0)) (fun a => ?_)
  match a with
  | ⟨0, _⟩ => rfl

/-- A one-column matrix broadcast along both axes into two columns reads, at (r, c), the column's row r. -/
theorem bcast_c2 (d : Cert.Spec.Mat 50000 1) (i : S50000x2.Idx) :
    broadcastInDim S50000x2 ![0, 1] bcast_S50000x1_S50000x2_0_1 d i = d (ix2 (i 0) (0 : Fin 1)) := by
  refine broadcastInDim_apply _ _ d i (ix2 (i 0) (0 : Fin 1)) (fun a => ?_)
  match a with
  | ⟨0, _⟩ => rfl
  | ⟨1, _⟩ => rfl

/-- The same into thirty-two columns. -/
theorem bcast_c32 (d : Cert.Spec.Mat 50000 1) (i : S50000x32.Idx) :
    broadcastInDim S50000x32 ![0, 1] bcast_S50000x1_S50000x32_0_1 d i = d (ix2 (i 0) (0 : Fin 1)) := by
  refine broadcastInDim_apply _ _ d i (ix2 (i 0) (0 : Fin 1)) (fun a => ?_)
  match a with
  | ⟨0, _⟩ => rfl
  | ⟨1, _⟩ => rfl

/-- The counts scattered from zeros by ones, as a column, with one where a count is below one. -/
theorem cnt_pure (v : Cert.Spec.IVec1 800000) :
    maximumf (F := Ideal)
      (broadcastInDim S50000x1 ![0] bcast_S50000_S50000x1_0
        (Host.scatterAdd (F := Ideal) scatter_S50000_S800000x1_S800000_n_0_0_1
          (broadcastInDim S50000 ![] bcast_S_S50000 (constant S_ FTy.f32 0x00000000#32))
          (broadcastInDim S800000x1 ![0] bcast_S800000_S800000x1_0 v)
          (broadcastInDim S800000 ![] bcast_S_S800000 (constant S_ FTy.f32 0x3F800000#32))))
      (broadcastInDim S50000x1 ![] bcast_S_S50000x1 (constant S_ FTy.f32 0x3F800000#32))
    = Cert.Spec.cntCol (Cert.Spec.count scatter_S50000_S800000x1_S800000_n_0_0_1 (Cert.Spec.col v)) := by
  rw [bcast_col]
  funext j
  rw [maximumf_apply, bcast_vcol]
  rfl

theorem cnt_v18 : after hostOps2 X (main_v18 : DevRef τ sig)
    = Cert.Spec.cntCol (Cert.Spec.count scatter_S50000_S800000x1_S800000_n_0_0_1 (Cert.Spec.col (X (main_v3 : DevRef τ sig)))) := by
  after_results
  exact cnt_pure _

theorem agg_v23 : after hostOps2 X (main_v23 : DevRef τ sig)
    = Cert.Spec.agg1 scatter_S50000_S800000x1_S800000_n_0_0_1 scatter_S50000x2_S800000x1_S800000x2_1_0_0_1 (X (main_v11 : DevRef τ sig)) (Cert.Spec.col (X (main_v3 : DevRef τ sig))) := by
  after_results_simp
  rw [cnt_pure, bcast_col]
  funext i
  rw [hostDivf_apply, bcast_c2]
  rfl

theorem agg_v31 : after hostOps3 X (main_v31 : DevRef τ sig)
    = Cert.Spec.divCol (Host.scatterAdd (F := Ideal) scatter_S50000x32_S800000x1_S800000x32_1_0_0_1 (Cert.Spec.zerosM 50000 32) (Cert.Spec.col (X (main_v3 : DevRef τ sig))) (X (main_v26 : DevRef τ sig))) (X (main_v18 : DevRef τ sig)) := by
  after_results
  rw [bcast_col]
  funext i
  rw [hostDivf_apply, bcast_c32]
  rfl

end Cert.KernelIdeal.HostValue

end
-- ==== Proof.KValue.lean ====
/-
  The kernel program's result as the network of the specification: boundary by boundary, each buffer a later
  stage reads is named — an argument as launched, an intermediate as the stage that wrote it — and the four regions
  and the host stretches between them are the stages of the specification in order.
-/
import proofs.«419797_j47588237639715_2_alg».proof.Proof.Gen.KernelIdeal.Frame
import proofs.«419797_j47588237639715_2_alg».proof.Proof.Spec
import proofs.«419797_j47588237639715_2_alg».proof.Proof.KKept
import proofs.«419797_j47588237639715_2_alg».proof.Proof.EmbedValue
import proofs.«419797_j47588237639715_2_alg».proof.Proof.Edge1Value
import proofs.«419797_j47588237639715_2_alg».proof.Proof.Edge2Value
import proofs.«419797_j47588237639715_2_alg».proof.Proof.ReadoutValue
import proofs.«419797_j47588237639715_2_alg».proof.Proof.KHostTake
import proofs.«419797_j47588237639715_2_alg».proof.Proof.KHostAgg

set_option maxRecDepth 16384

noncomputable section

namespace Cert.KernelIdeal.Value

open Cert.KernelIdeal Cert.KernelIdeal.Gen Cert.KernelIdeal.HostValue Cert.KernelIdeal.RegionValue Cert.KernelIdeal.Kept
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The embedded nodes. -/
def h1 : Cert.Spec.Mat 50000 32 :=
  Cert.Spec.embed (m ((c : Thread nD τ).loc main_arg0)) (meanT (m ((c : Thread nD τ).loc main_arg0))) (varT (m ((c : Thread nD τ).loc main_arg0))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- The source and target words as columns of start indices, and the target words as a plain column. -/
def srcN : Cert.Spec.ICol 800000 := normCol (srcT (m ((c : Thread nD τ).loc main_arg1)))
def dstN : Cert.Spec.ICol 800000 := normCol (dstT (m ((c : Thread nD τ).loc main_arg1)))
def dstC : Cert.Spec.ICol 800000 := Cert.Spec.col (dstT (m ((c : Thread nD τ).loc main_arg1)))
/-- The first round of messages. -/
def m1 : Cert.Spec.Mat 800000 2 :=
  Cert.Spec.msg1 gather_S50000x32_S800000x1_S800000x32_1_0_n_n_0_1_132 (h1 m c) (srcN m c) (dstN m c) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
/-- The nodes after the first round. -/
def h2 : Cert.Spec.Mat 50000 2 :=
  Cert.Spec.agg1 scatter_S50000_S800000x1_S800000_n_0_0_1 scatter_S50000x2_S800000x1_S800000x2_1_0_0_1 (m1 m c) (dstC m c)
/-- The second round of messages. -/
def m2 : Cert.Spec.Mat 800000 32 :=
  Cert.Spec.msg2 gather_S50000x2_S800000x1_S800000x2_1_0_n_n_0_1_12 (h2 m c) (srcN m c) (dstN m c) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))
/-- The nodes after the second round. -/
def h3 : Cert.Spec.Mat 50000 32 :=
  Cert.Spec.agg2 scatter_S50000_S800000x1_S800000_n_0_0_1 scatter_S50000x32_S800000x1_S800000x32_1_0_0_1 (m2 m c) (dstC m c)

/-- The specification's network is these stages in order. -/
theorem out_eq :
    Cert.Spec.out gather_S50000x32_S800000x1_S800000x32_1_0_n_n_0_1_132 gather_S50000x2_S800000x1_S800000x2_1_0_n_n_0_1_12
        scatter_S50000_S800000x1_S800000_n_0_0_1 scatter_S50000x2_S800000x1_S800000x2_1_0_0_1 scatter_S50000x32_S800000x1_S800000x32_1_0_0_1
        (m ((c : Thread nD τ).loc main_arg0)) (meanT (m ((c : Thread nD τ).loc main_arg0))) (varT (m ((c : Thread nD τ).loc main_arg0))) (srcN m c) (dstN m c) (dstC m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27))
      = Cert.Spec.mlpL (h3 m c) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := rfl

/-! ## Boundary 2: the rows of the edge list and the column statistics -/

theorem v1_W2 : (W2 m ρ c (Proc.devRef .tc main_v1)) = srcT (m ((c : Thread nD τ).loc main_arg1)) := pre_v1 (W0 m ρ c)
theorem v3_W2 : (W2 m ρ c (Proc.devRef .tc main_v3)) = dstT (m ((c : Thread nD τ).loc main_arg1)) := pre_v3 (W0 m ρ c)
theorem v6_W2 : (W2 m ρ c (Proc.devRef .tc main_v6)) = meanT (m ((c : Thread nD τ).loc main_arg0)) := pre_v6 (W0 m ρ c)
theorem v7_W2 : (W2 m ρ c (Proc.devRef .tc main_v7)) = varT (m ((c : Thread nD τ).loc main_arg0)) := pre_v7 (W0 m ρ c)

/-! ## Region 0: the embedding -/

theorem v8_W3 : (W3 m ρ c (Proc.devRef .tc main_v8)) = h1 m c := by
  refine ((W3_arr m ρ c 11).trans (embed_value (V2 m ρ) c)).trans ?_
  show Cert.Spec.embed (W2 m ρ c (Proc.devRef .tc main_arg0)) (W2 m ρ c (Proc.devRef .tc main_v6)) (W2 m ρ c (Proc.devRef .tc main_v7)) (W2 m ρ c (Proc.devRef .tc main_arg2)) (W2 m ρ c (Proc.devRef .tc main_arg3)) (W2 m ρ c (Proc.devRef .tc main_arg4)) (W2 m ρ c (Proc.devRef .tc main_arg5)) (W2 m ρ c (Proc.devRef .tc main_arg6)) (W2 m ρ c (Proc.devRef .tc main_arg7)) (W2 m ρ c (Proc.devRef .tc main_arg8)) (W2 m ρ c (Proc.devRef .tc main_arg9)) = _
  rw [arg0_W2, v6_W2, v7_W2, arg2_W2, arg3_W2, arg4_W2, arg5_W2, arg6_W2, arg7_W2, arg8_W2, arg9_W2]
  rfl

/-! ## Boundaries 4 and 5: the embedded rows at each edge's target and source -/

variable (hr : Cert.Spec.InRange (m ((c : Thread nD τ).loc main_arg1)))
include hr

theorem v9_W4 : (W4 m ρ c (Proc.devRef .tc main_v9))
    = Host.gather gather_S50000x32_S800000x1_S800000x32_1_0_n_n_0_1_132 (h1 m c) (dstN m c) := by
  have h3' : (W3 m ρ c (Proc.devRef .tc main_v3)) = dstT (m ((c : Thread nD τ).loc main_arg1)) := (v3_W3 m ρ c).trans (v3_W2 m ρ c)
  refine (take_v9 (W3 m ρ c) (by rw [h3']; exact (rows_in_range _ hr).2)).trans ?_
  rw [h3', v8_W3]
  rfl

theorem v10_W5 : (W5 m ρ c (Proc.devRef .tc main_v10))
    = Host.gather gather_S50000x32_S800000x1_S800000x32_1_0_n_n_0_1_132 (h1 m c) (srcN m c) := by
  have h1' : (W4 m ρ c (Proc.devRef .tc main_v1)) = srcT (m ((c : Thread nD τ).loc main_arg1)) := (v1_W4 m ρ c).trans (v1_W2 m ρ c)
  refine (take_v10 (W4 m ρ c) (by rw [h1']; exact (rows_in_range _ hr).1)).trans ?_
  rw [h1', v8_W4, v8_W3]
  rfl

/-! ## Region 1: the first round of messages -/

theorem v11_W6 : (W6 m ρ c (Proc.devRef .tc main_v11)) = m1 m c := by
  refine ((W6_arr m ρ c 8).trans (edge1_value (V5 m ρ) c)).trans ?_
  show Cert.Spec.edgeMlp 64 (W5 m ρ c (Proc.devRef .tc main_v9)) (W5 m ρ c (Proc.devRef .tc main_v10)) (W5 m ρ c (Proc.devRef .tc main_arg10)) (W5 m ρ c (Proc.devRef .tc main_arg11)) (W5 m ρ c (Proc.devRef .tc main_arg12)) (W5 m ρ c (Proc.devRef .tc main_arg13)) (W5 m ρ c (Proc.devRef .tc main_arg14)) (W5 m ρ c (Proc.devRef .tc main_arg15)) = _
  rw [v9_W5, v9_W4 m ρ c hr, v10_W5 m ρ c hr, arg10_W5, arg11_W5, arg12_W5, arg13_W5, arg14_W5, arg15_W5]
  rfl

/-! ## Boundary 7: the first aggregation -/

theorem v3_W6' : (W6 m ρ c (Proc.devRef .tc main_v3)) = dstT (m ((c : Thread nD τ).loc main_arg1)) := (v3_W6 m ρ c).trans (v3_W2 m ρ c)

theorem v23_W7 : (W7 m ρ c (Proc.devRef .tc main_v23)) = h2 m c := by
  refine (agg_v23 (W6 m ρ c)).trans ?_
  rw [v11_W6 m ρ c hr, v3_W6' m ρ c hr]
  rfl

theorem v18_W7 : (W7 m ρ c (Proc.devRef .tc main_v18))
    = Cert.Spec.cntCol (Cert.Spec.count scatter_S50000_S800000x1_S800000_n_0_0_1 (dstC m c)) := by
  refine (cnt_v18 (W6 m ρ c)).trans ?_
  rw [v3_W6' m ρ c hr]
  rfl

/-! ## Boundaries 8 and 9: the aggregated rows at each edge's target and source -/

theorem v24_W8 : (W8 m ρ c (Proc.devRef .tc main_v24))
    = Host.gather gather_S50000x2_S800000x1_S800000x2_1_0_n_n_0_1_12 (h2 m c) (dstN m c) := by
  have h3' : (W7 m ρ c (Proc.devRef .tc main_v3)) = dstT (m ((c : Thread nD τ).loc main_arg1)) := (v3_W7 m ρ c).trans (v3_W2 m ρ c)
  refine (take_v24 (W7 m ρ c) (by rw [h3']; exact (rows_in_range _ hr).2)).trans ?_
  rw [h3', v23_W7 m ρ c hr]
  rfl

theorem v25_W9 : (W9 m ρ c (Proc.devRef .tc main_v25))
    = Host.gather gather_S50000x2_S800000x1_S800000x2_1_0_n_n_0_1_12 (h2 m c) (srcN m c) := by
  have h1' : (W8 m ρ c (Proc.devRef .tc main_v1)) = srcT (m ((c : Thread nD τ).loc main_arg1)) := (v1_W8 m ρ c).trans (v1_W2 m ρ c)
  refine (take_v25 (W8 m ρ c) (by rw [h1']; exact (rows_in_range _ hr).1)).trans ?_
  rw [h1', v23_W8, v23_W7 m ρ c hr]
  rfl

/-! ## Region 2: the second round of messages -/

theorem v26_W10 : (W10 m ρ c (Proc.devRef .tc main_v26)) = m2 m c := by
  refine ((W10_arr m ρ c 8).trans (edge2_value (V9 m ρ) c)).trans ?_
  show Cert.Spec.edgeMlp 4 (W9 m ρ c (Proc.devRef .tc main_v24)) (W9 m ρ c (Proc.devRef .tc main_v25)) (W9 m ρ c (Proc.devRef .tc main_arg16)) (W9 m ρ c (Proc.devRef .tc main_arg17)) (W9 m ρ c (Proc.devRef .tc main_arg18)) (W9 m ρ c (Proc.devRef .tc main_arg19)) (W9 m ρ c (Proc.devRef .tc main_arg20)) (W9 m ρ c (Proc.devRef .tc main_arg21)) = _
  rw [v24_W9, v24_W8 m ρ c hr, v25_W9 m ρ c hr, arg16_W9, arg17_W9, arg18_W9, arg19_W9, arg20_W9, arg21_W9]
  rfl

/-! ## Boundary 11: the second aggregation -/

theorem v31_W11 : (W11 m ρ c (Proc.devRef .tc main_v31)) = h3 m c := by
  refine (agg_v31 (W10 m ρ c)).trans ?_
  rw [v26_W10 m ρ c hr, (v3_W10 m ρ c).trans (v3_W2 m ρ c), (v18_W10 m ρ c).trans (v18_W7 m ρ c hr)]
  rfl

/-! ## Region 3: the read-out -/

/-- The kernel program's result buffer ends at the specification's network of the launch contents. -/
theorem value : (W12 m ρ c (Proc.devRef .tc main_v32))
    = Cert.Spec.out gather_S50000x32_S800000x1_S800000x32_1_0_n_n_0_1_132 gather_S50000x2_S800000x1_S800000x2_1_0_n_n_0_1_12
        scatter_S50000_S800000x1_S800000_n_0_0_1 scatter_S50000x2_S800000x1_S800000x2_1_0_0_1 scatter_S50000x32_S800000x1_S800000x32_1_0_0_1
        (m ((c : Thread nD τ).loc main_arg0)) (meanT (m ((c : Thread nD τ).loc main_arg0))) (varT (m ((c : Thread nD τ).loc main_arg0))) (srcN m c) (dstN m c) (dstC m c) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) := by
  rw [out_eq]
  refine ((W12_arr m ρ c 7).trans (deembed_value (V11 m ρ) c)).trans ?_
  show Cert.Spec.mlpL (W11 m ρ c (Proc.devRef .tc main_v31)) (W11 m ρ c (Proc.devRef .tc main_arg22)) (W11 m ρ c (Proc.devRef .tc main_arg23)) (W11 m ρ c (Proc.devRef .tc main_arg24)) (W11 m ρ c (Proc.devRef .tc main_arg25)) (W11 m ρ c (Proc.devRef .tc main_arg26)) (W11 m ρ c (Proc.devRef .tc main_arg27)) = _
  rw [v31_W11 m ρ c hr, arg22_W11, arg23_W11, arg24_W11, arg25_W11, arg26_W11, arg27_W11]

end Cert.KernelIdeal.Value

end
-- ==== Proof.PreRange.lean ====
/-
  From the precondition to the range of the edge list: the precondition's last conjunct says that every position
  word w of the edge list has 0 ≤ w and w < 50000 as signed words, and the precondition's value is one exactly when
  every conjunct's is.
-/
import proofs.«419797_j47588237639715_2_alg».proof.Defs
import proofs.«419797_j47588237639715_2_alg».proof.Proof.Spec
import Idealize.ShloMosaic.Lib.ReduceAll
import Idealize.ShloMosaic.Lib.ValueIdx

noncomputable section

namespace Cert.Proof.PreRange

open Idealize.ShloMosaic Idealize.SL.Sem Idealize.ShloMosaic.ValueIdx

instance : Subsingleton (Cert.Pre_finite_inputs.S_).Idx := ⟨fun a b => funext fun d => d.elim0⟩

/-- The last conjunct of the precondition, read back at one position word. -/
theorem inRange_of_fn [hP : Cert.Pre_finite_inputs.Facts]
    (a0 a1 a2 a3 a4 a5 a6 a7 a8 a9 a10 a11 a12 a13 a14 a15 a16 a17 a18 a19 a20 a21 a22 a23 a24 a25 a26 a27)
    (h : Cert.Pre_finite_inputs.fn (F := Ideal) a0 a1 a2 a3 a4 a5 a6 a7 a8 a9 a10 a11 a12 a13 a14 a15 a16 a17 a18 a19 a20 a21 a22 a23 a24 a25 a26 a27 = fun _ => 1#1) :
    Cert.Spec.InRange a1 := by
  intro j
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7, Cert.Pre_finite_inputs.fn_part8] at h0
  have h1 := (IntOp.andi_eq_one.1 h0).2
  have h2 := Host.reduce_andi_all _ _ _ _ _ h1 j
  obtain ⟨hge, hlt⟩ := IntOp.andi_eq_one.1 h2
  have hge' := IntOp.cmpi_sge.1 hge
  have hlt' := IntOp.cmpi_slt.1 hlt
  exact ⟨hge', hlt'⟩

end Cert.Proof.PreRange

end
-- ==== Proof.RefOps.lean ====
import proofs.«419797_j47588237639715_2_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- 32 operations: the two rows of the edge list, the column means and the column variances. -/
abbrev opsA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x00000000#32),
    StableHlo.binary main_arg0 main_cst main_v4 ((fun x v => Host.reduceAdd x v reducesTo_S50000x4_S4_d0 h_S_) : (⟨S50000x4, .f32⟩ : BufTy).Contents (Elt F) → (⟨S_, .f32⟩ : BufTy).Contents (Elt F) → (⟨S4, .f32⟩ : BufTy).Contents (Elt F)),
    StableHlo.nullary main_cst_0 (constant S_ .f32 0x47435000#32),
    StableHlo.unary main_cst_0 main_v5 (broadcastInDim S4 ![] bcast_S_S4 : (⟨S_, .f32⟩ : BufTy).Contents (Elt F) → (⟨S4, .f32⟩ : BufTy).Contents (Elt F)),
    StableHlo.binary main_v4 main_v5 main_v6 (Host.divf : (⟨S4, .f32⟩ : BufTy).Contents (Elt F) → (⟨S4, .f32⟩ : BufTy).Contents (Elt F) → (⟨S4, .f32⟩ : BufTy).Contents (Elt F)),
    StableHlo.nullary main_c (constantI S_ 32 0#32),
    StableHlo.TRef.nullary main_call0.cst (constant S_ .f32 0x00000000#32),
    StableHlo.TRef.binary (.of main_arg0) main_call0.cst main_call0.v0 (fun x v => Host.reduceAdd x v reducesTo_S50000x4_S4_d0 h_S_),
    StableHlo.TRef.unary main_call0.v0 main_call0.v1 (broadcastInDim S1x4 ![1] bcast_S4_S1x4_1),
    StableHlo.TRef.nullary main_call0.cst_0 (constant S_ .f32 0x47435000#32),
    StableHlo.TRef.unary main_call0.cst_0 main_call0.v2 (broadcastInDim S1x4 ![] bcast_S_S1x4),
    StableHlo.TRef.binary main_call0.v1 main_call0.v2 main_call0.v3 Host.divf,
    StableHlo.TRef.unary main_call0.v3 main_call0.v4 (broadcastInDim S50000x4 ![0, 1] bcast_S1x4_S50000x4_0_1),
    StableHlo.TRef.binary (.of main_arg0) main_call0.v4 main_call0.v5 subf,
    StableHlo.TRef.binary main_call0.v5 main_call0.v5 main_call0.v6 mulf,
    StableHlo.TRef.unary (.of main_c) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x4_S4_d0 h_S_),
    StableHlo.TRef.unary main_call0.v8 main_call0.v10 (broadcastInDim S4 ![] bcast_S_S4),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4 ![] bcast_S_S4),
    StableHlo.TRef.ternary main_call0.v12 main_call0.v11 main_call0.call0.v1 main_call0.call0.v2 (fun p a b => select (broadcastInDim S4 ![] bcast_S_S4 p) a b) ]
theorem opsA_sub : (opsA : List (HloOp τ sig (Elt F))).Forall fun op => op.bufs ⊆ tcRefs τ sig :=
  ⟨unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- 37 operations: the normalised input and the three embedding layers. -/
abbrev opsB : List (HloOp τ sig (Elt F)) :=
  [ StableHlo.unary main_v6 main_v8 (broadcastInDim S1x4 ![1] bcast_S4_S1x4_1 : (⟨S4, .f32⟩ : BufTy).Contents (Elt F) → (⟨S1x4, .f32⟩ : BufTy).Contents (Elt F)),
    StableHlo.unary main_v8 main_v9 (broadcastInDim S50000x4 ![0, 1] bcast_S1x4_S50000x4_0_1 : (⟨S1x4, .f32⟩ : BufTy).Contents (Elt F) → (⟨S50000x4, .f32⟩ : BufTy).Contents (Elt F)),
    StableHlo.binary main_arg0 main_v9 main_v10 (subf : (⟨S50000x4, .f32⟩ : BufTy).Contents (Elt F) → (⟨S50000x4, .f32⟩ : BufTy).Contents (Elt F) → (⟨S50000x4, .f32⟩ : BufTy).Contents (Elt F)),
    StableHlo.nullary main_cst_1 (constant S_ .f32 0x3727C5AC#32),
    StableHlo.unary main_cst_1 main_v11 (broadcastInDim S4 ![] bcast_S_S4 : (⟨S_, .f32⟩ : BufTy).Contents (Elt F) → (⟨S4, .f32⟩ : BufTy).Contents (Elt F)),
    StableHlo.binary main_v7 main_v11 main_v12 (addf : (⟨S4, .f32⟩ : BufTy).Contents (Elt F) → (⟨S4, .f32⟩ : BufTy).Contents (Elt F) → (⟨S4, .f32⟩ : BufTy).Contents (Elt F)),
    StableHlo.unary main_v12 main_v13 (Host.rsqrt : (⟨S4, .f32⟩ : BufTy).Contents (Elt F) → (⟨S4, .f32⟩ : BufTy).Contents (Elt F)),
    StableHlo.unary main_v13 main_v14 (broadcastInDim S1x4 ![1] bcast_S4_S1x4_1 : (⟨S4, .f32⟩ : BufTy).Contents (Elt F) → (⟨S1x4, .f32⟩ : BufTy).Contents (Elt F)),
    StableHlo.unary main_v14 main_v15 (broadcastInDim S50000x4 ![0, 1] bcast_S1x4_S50000x4_0_1 : (⟨S1x4, .f32⟩ : BufTy).Contents (Elt F) → (⟨S50000x4, .f32⟩ : BufTy).Contents (Elt F)),
    StableHlo.binary main_v10 main_v15 main_v16 (mulf : (⟨S50000x4, .f32⟩ : BufTy).Contents (Elt F) → (⟨S50000x4, .f32⟩ : BufTy).Contents (Elt F) → (⟨S50000x4, .f32⟩ : BufTy).Contents (Elt F)),
    StableHlo.unary main_arg2 main_v17 (broadcastInDim S1x4 ![1] bcast_S4_S1x4_1 : (⟨S4, .f32⟩ : BufTy).Contents (Elt F) → (⟨S1x4, .f32⟩ : BufTy).Contents (Elt F)),
    StableHlo.unary main_v17 main_v18 (broadcastInDim S50000x4 ![0, 1] bcast_S1x4_S50000x4_0_1 : (⟨S1x4, .f32⟩ : BufTy).Contents (Elt F) → (⟨S50000x4, .f32⟩ : BufTy).Contents (Elt F)),
    StableHlo.binary main_v16 main_v18 main_v19 (mulf : (⟨S50000x4, .f32⟩ : BufTy).Contents (Elt F) → (⟨S50000x4, .f32⟩ : BufTy).Contents (Elt F) → (⟨S50000x4, .f32⟩ : BufTy).Contents (Elt F)),
    StableHlo.unary main_arg3 main_v20 (broadcastInDim S1x4 ![1] bcast_S4_S1x4_1 : (⟨S4, .f32⟩ : BufTy).Contents (Elt F) → (⟨S1x4, .f32⟩ : BufTy).Contents (Elt F)),
    StableHlo.unary main_v20 main_v21 (broadcastInDim S50000x4 ![0, 1] bcast_S1x4_S50000x4_0_1 : (⟨S1x4, .f32⟩ : BufTy).Contents (Elt F) → (⟨S50000x4, .f32⟩ : BufTy).Contents (Elt F)),
    StableHlo.binary main_v19 main_v21 main_v22 (addf : (⟨S50000x4, .f32⟩ : BufTy).Contents (Elt F) → (⟨S50000x4, .f32⟩ : BufTy).Contents (Elt F) → (⟨S50000x4, .f32⟩ : BufTy).Contents (Elt F)),
    StableHlo.binary main_v22 main_arg4 main_v23 ((fun l r => Host.dotGeneral dot_S50000x4_S4x32_S50000x32_1_0_0_1_n_n none l r) : (⟨S50000x4, .f32⟩ : BufTy).Contents (Elt F) → (⟨S4x32, .f32⟩ : BufTy).Contents (Elt F) → (⟨S50000x32, .f32⟩ : BufTy).Contents (Elt F)),
    StableHlo.unary main_arg5 main_v24 (broadcastInDim S1x32 ![1] bcast_S32_S1x32_1 : (⟨S32, .f32⟩ : BufTy).Contents (Elt F) → (⟨S1x32, .f32⟩ : BufTy).Contents (Elt F)),
    StableHlo.unary main_v24 main_v25 (broadcastInDim S50000x32 ![0, 1] bcast_S1x32_S50000x32_0_1 : (⟨S1x32, .f32⟩ : BufTy).Contents (Elt F) → (⟨S50000x32, .f32⟩ : BufTy).Contents (Elt F)),
    StableHlo.binary main_v23 main_v25 main_v26 (addf : (⟨S50000x32, .f32⟩ : BufTy).Contents (Elt F) → (⟨S50000x32, .f32⟩ : BufTy).Contents (Elt F) → (⟨S50000x32, .f32⟩ : BufTy).Contents (Elt F)),
    StableHlo.TRef.nullary main_call1.cst (constant S_ .f32 0x00000000#32),
    StableHlo.TRef.unary main_call1.cst main_call1.v0 (broadcastInDim S50000x32 ![] bcast_S_S50000x32),
    StableHlo.TRef.binary (.of main_v26) main_call1.v0 main_call1.v1 maximumf,
    StableHlo.binary main_v27 main_arg6 main_v28 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg7 main_v29 (broadcastInDim S1x32 ![1] bcast_S32_S1x32_1 : (⟨S32, .f32⟩ : BufTy).Contents (Elt F) → (⟨S1x32, .f32⟩ : BufTy).Contents (Elt F)),
    StableHlo.unary main_v29 main_v30 (broadcastInDim S50000x32 ![0, 1] bcast_S1x32_S50000x32_0_1 : (⟨S1x32, .f32⟩ : BufTy).Contents (Elt F) → (⟨S50000x32, .f32⟩ : BufTy).Contents (Elt F)),
    StableHlo.binary main_v28 main_v30 main_v31 (addf : (⟨S50000x32, .f32⟩ : BufTy).Contents (Elt F) → (⟨S50000x32, .f32⟩ : BufTy).Contents (Elt F) → (⟨S50000x32, .f32⟩ : BufTy).Contents (Elt F)),
    StableHlo.TRef.nullary main_call2.cst (constant S_ .f32 0x00000000#32),
    StableHlo.TRef.unary main_call2.cst main_call2.v0 (broadcastInDim S50000x32 ![] bcast_S_S50000x32),
    StableHlo.TRef.binary (.of main_v31) main_call2.v0 main_call2.v1 maximumf,
    StableHlo.binary main_v32 main_arg8 main_v33 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg9 main_v34 (broadcastInDim S1x32 ![1] bcast_S32_S1x32_1 : (⟨S32, .f32⟩ : BufTy).Contents (Elt F) → (⟨S1x32, .f32⟩ : BufTy).Contents (Elt F)),
    StableHlo.unary main_v34 main_v35 (broadcastInDim S50000x32 ![0, 1] bcast_S1x32_S50000x32_0_1 : (⟨S1x32, .f32⟩ : BufTy).Contents (Elt F) → (⟨S50000x32, .f32⟩ : BufTy).Contents (Elt F)),
    StableHlo.binary main_v33 main_v35 main_v36 (addf : (⟨S50000x32, .f32⟩ : BufTy).Contents (Elt F) → (⟨S50000x32, .f32⟩ : BufTy).Contents (Elt F) → (⟨S50000x32, .f32⟩ : BufTy).Contents (Elt F)),
    StableHlo.TRef.nullary main_call3.cst (constant S_ .f32 0x00000000#32),
    StableHlo.TRef.unary main_call3.cst main_call3.v0 (broadcastInDim S50000x32 ![] bcast_S_S50000x32),
    StableHlo.TRef.binary (.of main_v36) main_call3.v0 main_call3.v1 maximumf ]
theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- 18 operations: the rows of the embedded nodes at each edge's target and source. -/
abbrev opsC : List (HloOp τ sig (Elt F)) :=
  [ StableHlo.nullary main_c_2 (constantI S_ 32 0#32),
    StableHlo.unary main_c_2 main_v38 (broadcastInDim S800000 ![] bcast_S_S800000 : (⟨S_, .i32⟩ : BufTy).Contents (Elt F) → (⟨S800000, .i32⟩ : BufTy).Contents (Elt F)),
    StableHlo.binary main_v3 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_3 (constantI S_ 32 50000#32),
    StableHlo.unary main_c_3 main_v40 (broadcastInDim S800000 ![] bcast_S_S800000 : (⟨S_, .i32⟩ : BufTy).Contents (Elt F) → (⟨S800000, .i32⟩ : BufTy).Contents (Elt F)),
    StableHlo.binary main_v3 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_v3 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)),
    StableHlo.nullary main_c_4 (constantI S_ 32 0#32),
    StableHlo.unary main_c_4 main_v45 (broadcastInDim S800000 ![] bcast_S_S800000 : (⟨S_, .i32⟩ : BufTy).Contents (Elt F) → (⟨S800000, .i32⟩ : BufTy).Contents (Elt F)),
    StableHlo.binary main_v1 main_v45 main_v46 (cmpi .slt : (⟨S800000, .i32⟩ : BufTy).Contents (Elt F) → (⟨S800000, .i32⟩ : BufTy).Contents (Elt F) → (⟨S800000, .i1⟩ : BufTy).Contents (Elt F)),
    StableHlo.nullary main_c_5 (constantI S_ 32 50000#32),
    StableHlo.unary main_c_5 main_v47 (broadcastInDim S800000 ![] bcast_S_S800000 : (⟨S_, .i32⟩ : BufTy).Contents (Elt F) → (⟨S800000, .i32⟩ : BufTy).Contents (Elt F)),
    StableHlo.binary main_v1 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)),
    StableHlo.binary main_v37 main_v50 main_v51 ((fun x i => Host.gather gather_S50000x32_S800000x1_S800000x32_1_0_n_n_0_1_132 x i) : (⟨S50000x32, .f32⟩ : BufTy).Contents (Elt F) → (⟨S800000x1, .i32⟩ : BufTy).Contents (Elt F) → (⟨S800000x32, .f32⟩ : BufTy).Contents (Elt F)) ]
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- 23 operations: the first edge stage. -/
abbrev opsD : List (HloOp τ sig (Elt F)) :=
  [ StableHlo.binary main_v51 main_v44 main_v52 (subf : (⟨S800000x32, .f32⟩ : BufTy).Contents (Elt F) → (⟨S800000x32, .f32⟩ : BufTy).Contents (Elt F) → (⟨S800000x32, .f32⟩ : BufTy).Contents (Elt F)),
    StableHlo.binary main_v44 main_v52 main_v53 ((fun a b => concatenate S800000x64 1 [⟨S800000x32, a⟩, ⟨S800000x32, b⟩] concatenates_S800000x32_S800000x32_S800000x64_d1) : (⟨S800000x32, .f32⟩ : BufTy).Contents (Elt F) → (⟨S800000x32, .f32⟩ : BufTy).Contents (Elt F) → (⟨S800000x64, .f32⟩ : BufTy).Contents (Elt F)),
    StableHlo.binary main_v53 main_arg10 main_v54 ((fun l r => Host.dotGeneral dot_S800000x64_S64x32_S800000x32_1_0_0_1_n_n none l r) : (⟨S800000x64, .f32⟩ : BufTy).Contents (Elt F) → (⟨S64x32, .f32⟩ : BufTy).Contents (Elt F) → (⟨S800000x32, .f32⟩ : BufTy).Contents (Elt F)),
    StableHlo.unary main_arg11 main_v55 (broadcastInDim S1x32 ![1] bcast_S32_S1x32_1 : (⟨S32, .f32⟩ : BufTy).Contents (Elt F) → (⟨S1x32, .f32⟩ : BufTy).Contents (Elt F)),
    StableHlo.unary main_v55 main_v56 (broadcastInDim S800000x32 ![0, 1] bcast_S1x32_S800000x32_0_1 : (⟨S1x32, .f32⟩ : BufTy).Contents (Elt F) → (⟨S800000x32, .f32⟩ : BufTy).Contents (Elt F)),
    StableHlo.binary main_v54 main_v56 main_v57 (addf : (⟨S800000x32, .f32⟩ : BufTy).Contents (Elt F) → (⟨S800000x32, .f32⟩ : BufTy).Contents (Elt F) → (⟨S800000x32, .f32⟩ : BufTy).Contents (Elt F)),
    StableHlo.TRef.nullary main_call4.cst (constant S_ .f32 0x00000000#32),
    StableHlo.TRef.unary main_call4.cst main_call4.v0 (broadcastInDim S800000x32 ![] bcast_S_S800000x32),
    StableHlo.TRef.binary (.of main_v57) main_call4.v0 main_call4.v1 maximumf,
    StableHlo.binary main_v58 main_arg12 main_v59 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg13 main_v60 (broadcastInDim S1x32 ![1] bcast_S32_S1x32_1 : (⟨S32, .f32⟩ : BufTy).Contents (Elt F) → (⟨S1x32, .f32⟩ : BufTy).Contents (Elt F)),
    StableHlo.unary main_v60 main_v61 (broadcastInDim S800000x32 ![0, 1] bcast_S1x32_S800000x32_0_1 : (⟨S1x32, .f32⟩ : BufTy).Contents (Elt F) → (⟨S800000x32, .f32⟩ : BufTy).Contents (Elt F)),
    StableHlo.binary main_v59 main_v61 main_v62 (addf : (⟨S800000x32, .f32⟩ : BufTy).Contents (Elt F) → (⟨S800000x32, .f32⟩ : BufTy).Contents (Elt F) → (⟨S800000x32, .f32⟩ : BufTy).Contents (Elt F)),
    StableHlo.TRef.nullary main_call5.cst (constant S_ .f32 0x00000000#32),
    StableHlo.TRef.unary main_call5.cst main_call5.v0 (broadcastInDim S800000x32 ![] bcast_S_S800000x32),
    StableHlo.TRef.binary (.of main_v62) main_call5.v0 main_call5.v1 maximumf,
    StableHlo.binary main_v63 main_arg14 main_v64 ((fun l r => Host.dotGeneral dot_S800000x32_S32x2_S800000x2_1_0_0_1_n_n none l r) : (⟨S800000x32, .f32⟩ : BufTy).Contents (Elt F) → (⟨S32x2, .f32⟩ : BufTy).Contents (Elt F) → (⟨S800000x2, .f32⟩ : BufTy).Contents (Elt F)),
    StableHlo.unary main_arg15 main_v65 (broadcastInDim S1x2 ![1] bcast_S2_S1x2_1 : (⟨S2, .f32⟩ : BufTy).Contents (Elt F) → (⟨S1x2, .f32⟩ : BufTy).Contents (Elt F)),
    StableHlo.unary main_v65 main_v66 (broadcastInDim S800000x2 ![0, 1] bcast_S1x2_S800000x2_0_1 : (⟨S1x2, .f32⟩ : BufTy).Contents (Elt F) → (⟨S800000x2, .f32⟩ : BufTy).Contents (Elt F)),
    StableHlo.binary main_v64 main_v66 main_v67 (addf : (⟨S800000x2, .f32⟩ : BufTy).Contents (Elt F) → (⟨S800000x2, .f32⟩ : BufTy).Contents (Elt F) → (⟨S800000x2, .f32⟩ : BufTy).Contents (Elt F)),
    StableHlo.TRef.nullary main_call6.cst (constant S_ .f32 0x00000000#32),
    StableHlo.TRef.unary main_call6.cst main_call6.v0 (broadcastInDim S800000x2 ![] bcast_S_S800000x2),
    StableHlo.TRef.binary (.of main_v67) main_call6.v0 main_call6.v1 maximumf ]
theorem opsD_sub : (opsD : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- 16 operations: the first aggregation: message sums, edge counts, the mean. -/
abbrev opsE : List (HloOp τ sig (Elt F)) :=
  [ StableHlo.nullary main_cst_6 (constant S_ .f32 0x00000000#32),
    StableHlo.unary main_cst_6 main_v69 (broadcastInDim S50000x2 ![] bcast_S_S50000x2 : (⟨S_, .f32⟩ : BufTy).Contents (Elt F) → (⟨S50000x2, .f32⟩ : BufTy).Contents (Elt F)),
    StableHlo.unary main_v3 main_v70 (broadcastInDim S800000x1 ![0] bcast_S800000_S800000x1_0 : (⟨S800000, .i32⟩ : BufTy).Contents (Elt F) → (⟨S800000x1, .i32⟩ : BufTy).Contents (Elt F)),
    StableHlo.ternary main_v69 main_v70 main_v68 main_v71 ((fun x i u => Host.scatterAdd scatter_S50000x2_S800000x1_S800000x2_1_0_0_1 x i u) : (⟨S50000x2, .f32⟩ : BufTy).Contents (Elt F) → (⟨S800000x1, .i32⟩ : BufTy).Contents (Elt F) → (⟨S800000x2, .f32⟩ : BufTy).Contents (Elt F) → (⟨S50000x2, .f32⟩ : BufTy).Contents (Elt F)),
    StableHlo.nullary main_cst_7 (constant S_ .f32 0x3F800000#32),
    StableHlo.unary main_cst_7 main_v72 (broadcastInDim S800000 ![] bcast_S_S800000 : (⟨S_, .f32⟩ : BufTy).Contents (Elt F) → (⟨S800000, .f32⟩ : BufTy).Contents (Elt F)),
    StableHlo.nullary main_cst_8 (constant S_ .f32 0x00000000#32),
    StableHlo.unary main_cst_8 main_v73 (broadcastInDim S50000 ![] bcast_S_S50000 : (⟨S_, .f32⟩ : BufTy).Contents (Elt F) → (⟨S50000, .f32⟩ : BufTy).Contents (Elt F)),
    StableHlo.unary main_v3 main_v74 (broadcastInDim S800000x1 ![0] bcast_S800000_S800000x1_0 : (⟨S800000, .i32⟩ : BufTy).Contents (Elt F) → (⟨S800000x1, .i32⟩ : BufTy).Contents (Elt F)),
    StableHlo.ternary main_v73 main_v74 main_v72 main_v75 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_9 (constant S_ .f32 0x3F800000#32),
    StableHlo.unary main_cst_9 main_v76 (broadcastInDim S50000 ![] bcast_S_S50000 : (⟨S_, .f32⟩ : BufTy).Contents (Elt F) → (⟨S50000, .f32⟩ : BufTy).Contents (Elt F)),
    StableHlo.binary main_v75 main_v76 main_v77 (maximumf : (⟨S50000, .f32⟩ : BufTy).Contents (Elt F) → (⟨S50000, .f32⟩ : BufTy).Contents (Elt F) → (⟨S50000, .f32⟩ : BufTy).Contents (Elt F)),
    StableHlo.unary main_v77 main_v78 (broadcastInDim S50000x1 ![0] bcast_S50000_S50000x1_0 : (⟨S50000, .f32⟩ : BufTy).Contents (Elt F) → (⟨S50000x1, .f32⟩ : BufTy).Contents (Elt F)),
    StableHlo.unary main_v78 main_v79 (broadcastInDim S50000x2 ![0, 1] bcast_S50000x1_S50000x2_0_1 : (⟨S50000x1, .f32⟩ : BufTy).Contents (Elt F) → (⟨S50000x2, .f32⟩ : BufTy).Contents (Elt F)),
    StableHlo.binary main_v71 main_v79 main_v80 (Host.divf : (⟨S50000x2, .f32⟩ : BufTy).Contents (Elt F) → (⟨S50000x2, .f32⟩ : BufTy).Contents (Elt F) → (⟨S50000x2, .f32⟩ : BufTy).Contents (Elt F)) ]
theorem opsE_sub : (opsE : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- 18 operations: the rows of the aggregated nodes at each edge's target and source. -/
abbrev opsF : List (HloOp τ sig (Elt F)) :=
  [ StableHlo.nullary main_c_10 (constantI S_ 32 0#32),
    StableHlo.unary main_c_10 main_v81 (broadcastInDim S800000 ![] bcast_S_S800000 : (⟨S_, .i32⟩ : BufTy).Contents (Elt F) → (⟨S800000, .i32⟩ : BufTy).Contents (Elt F)),
    StableHlo.binary main_v3 main_v81 main_v82 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v83 (broadcastInDim S800000 ![] bcast_S_S800000 : (⟨S_, .i32⟩ : BufTy).Contents (Elt F) → (⟨S800000, .i32⟩ : BufTy).Contents (Elt F)),
    StableHlo.binary main_v3 main_v83 main_v84 (addi : (⟨S800000, .i32⟩ : BufTy).Contents (Elt F) → (⟨S800000, .i32⟩ : BufTy).Contents (Elt F) → (⟨S800000, .i32⟩ : BufTy).Contents (Elt F)),
    StableHlo.ternary main_v82 main_v84 main_v3 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v85 main_v86 (broadcastInDim S800000x1 ![0] bcast_S800000_S800000x1_0 : (⟨S800000, .i32⟩ : BufTy).Contents (Elt F) → (⟨S800000x1, .i32⟩ : BufTy).Contents (Elt F)),
    StableHlo.binary main_v80 main_v86 main_v87 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    StableHlo.nullary main_c_12 (constantI S_ 32 0#32),
    StableHlo.unary main_c_12 main_v88 (broadcastInDim S800000 ![] bcast_S_S800000 : (⟨S_, .i32⟩ : BufTy).Contents (Elt F) → (⟨S800000, .i32⟩ : BufTy).Contents (Elt F)),
    StableHlo.binary main_v1 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v90 (broadcastInDim S800000 ![] bcast_S_S800000 : (⟨S_, .i32⟩ : BufTy).Contents (Elt F) → (⟨S800000, .i32⟩ : BufTy).Contents (Elt F)),
    StableHlo.binary main_v1 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v80 main_v93 main_v94 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)) ]
theorem opsF_sub : (opsF : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- 11 operations: the second edge stage, up to its second layer's bias. -/
abbrev opsG1 : List (HloOp τ sig (Elt F)) :=
  [ StableHlo.binary main_v94 main_v87 main_v95 (subf : (⟨S800000x2, .f32⟩ : BufTy).Contents (Elt F) → (⟨S800000x2, .f32⟩ : BufTy).Contents (Elt F) → (⟨S800000x2, .f32⟩ : BufTy).Contents (Elt F)),
    StableHlo.binary main_v87 main_v95 main_v96 ((fun a b => concatenate S800000x4 1 [⟨S800000x2, a⟩, ⟨S800000x2, b⟩] concatenates_S800000x2_S800000x2_S800000x4_d1) : (⟨S800000x2, .f32⟩ : BufTy).Contents (Elt F) → (⟨S800000x2, .f32⟩ : BufTy).Contents (Elt F) → (⟨S800000x4, .f32⟩ : BufTy).Contents (Elt F)),
    StableHlo.binary main_v96 main_arg16 main_v97 ((fun l r => Host.dotGeneral dot_S800000x4_S4x32_S800000x32_1_0_0_1_n_n none l r) : (⟨S800000x4, .f32⟩ : BufTy).Contents (Elt F) → (⟨S4x32, .f32⟩ : BufTy).Contents (Elt F) → (⟨S800000x32, .f32⟩ : BufTy).Contents (Elt F)),
    StableHlo.unary main_arg17 main_v98 (broadcastInDim S1x32 ![1] bcast_S32_S1x32_1 : (⟨S32, .f32⟩ : BufTy).Contents (Elt F) → (⟨S1x32, .f32⟩ : BufTy).Contents (Elt F)),
    StableHlo.unary main_v98 main_v99 (broadcastInDim S800000x32 ![0, 1] bcast_S1x32_S800000x32_0_1 : (⟨S1x32, .f32⟩ : BufTy).Contents (Elt F) → (⟨S800000x32, .f32⟩ : BufTy).Contents (Elt F)),
    StableHlo.binary main_v97 main_v99 main_v100 (addf : (⟨S800000x32, .f32⟩ : BufTy).Contents (Elt F) → (⟨S800000x32, .f32⟩ : BufTy).Contents (Elt F) → (⟨S800000x32, .f32⟩ : BufTy).Contents (Elt F)),
    StableHlo.TRef.nullary main_call7.cst (constant S_ .f32 0x00000000#32),
    StableHlo.TRef.unary main_call7.cst main_call7.v0 (broadcastInDim S800000x32 ![] bcast_S_S800000x32),
    StableHlo.TRef.binary (.of main_v100) main_call7.v0 main_call7.v1 maximumf,
    StableHlo.binary main_v101 main_arg18 main_v102 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg19 main_v103 (broadcastInDim S1x32 ![1] bcast_S32_S1x32_1 : (⟨S32, .f32⟩ : BufTy).Contents (Elt F) → (⟨S1x32, .f32⟩ : BufTy).Contents (Elt F)) ]
theorem opsG1_sub : (opsG1 : List (HloOp τ sig (Elt F))).Forall fun op => op.bufs ⊆ tcRefs τ sig :=
  ⟨binary_bufs_sub .., binary_bufs_sub .., binary_bufs_sub .., unary_bufs_sub .., unary_bufs_sub .., binary_bufs_sub .., nullary_bufs_sub .., unary_bufs_sub .., binary_bufs_sub .., binary_bufs_sub .., unary_bufs_sub ..⟩

/-- 12 operations: the second edge stage, from its second layer on. -/
abbrev opsG2 : List (HloOp τ sig (Elt F)) :=
  [ StableHlo.unary main_v103 main_v104 (broadcastInDim S800000x32 ![0, 1] bcast_S1x32_S800000x32_0_1 : (⟨S1x32, .f32⟩ : BufTy).Contents (Elt F) → (⟨S800000x32, .f32⟩ : BufTy).Contents (Elt F)),
    StableHlo.binary main_v102 main_v104 main_v105 (addf : (⟨S800000x32, .f32⟩ : BufTy).Contents (Elt F) → (⟨S800000x32, .f32⟩ : BufTy).Contents (Elt F) → (⟨S800000x32, .f32⟩ : BufTy).Contents (Elt F)),
    StableHlo.TRef.nullary main_call8.cst (constant S_ .f32 0x00000000#32),
    StableHlo.TRef.unary main_call8.cst main_call8.v0 (broadcastInDim S800000x32 ![] bcast_S_S800000x32),
    StableHlo.TRef.binary (.of main_v105) main_call8.v0 main_call8.v1 maximumf,
    StableHlo.binary main_v106 main_arg20 main_v107 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    StableHlo.unary main_arg21 main_v108 (broadcastInDim S1x32 ![1] bcast_S32_S1x32_1 : (⟨S32, .f32⟩ : BufTy).Contents (Elt F) → (⟨S1x32, .f32⟩ : BufTy).Contents (Elt F)),
    StableHlo.unary main_v108 main_v109 (broadcastInDim S800000x32 ![0, 1] bcast_S1x32_S800000x32_0_1 : (⟨S1x32, .f32⟩ : BufTy).Contents (Elt F) → (⟨S800000x32, .f32⟩ : BufTy).Contents (Elt F)),
    StableHlo.binary main_v107 main_v109 main_v110 (addf : (⟨S800000x32, .f32⟩ : BufTy).Contents (Elt F) → (⟨S800000x32, .f32⟩ : BufTy).Contents (Elt F) → (⟨S800000x32, .f32⟩ : BufTy).Contents (Elt F)),
    StableHlo.TRef.nullary main_call9.cst (constant S_ .f32 0x00000000#32),
    StableHlo.TRef.unary main_call9.cst main_call9.v0 (broadcastInDim S800000x32 ![] bcast_S_S800000x32),
    StableHlo.TRef.binary (.of main_v110) main_call9.v0 main_call9.v1 maximumf ]
theorem opsG2_sub : (opsG2 : List (HloOp τ sig (Elt F))).Forall fun op => op.bufs ⊆ tcRefs τ sig :=
  ⟨unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩

/-- 16 operations: the second aggregation. -/
abbrev opsH : List (HloOp τ sig (Elt F)) :=
  [ StableHlo.nullary main_cst_14 (constant S_ .f32 0x00000000#32),
    StableHlo.unary main_cst_14 main_v112 (broadcastInDim S50000x32 ![] bcast_S_S50000x32 : (⟨S_, .f32⟩ : BufTy).Contents (Elt F) → (⟨S50000x32, .f32⟩ : BufTy).Contents (Elt F)),
    StableHlo.unary main_v3 main_v113 (broadcastInDim S800000x1 ![0] bcast_S800000_S800000x1_0 : (⟨S800000, .i32⟩ : BufTy).Contents (Elt F) → (⟨S800000x1, .i32⟩ : BufTy).Contents (Elt F)),
    StableHlo.ternary main_v112 main_v113 main_v111 main_v114 ((fun x i u => Host.scatterAdd scatter_S50000x32_S800000x1_S800000x32_1_0_0_1 x i u) : (⟨S50000x32, .f32⟩ : BufTy).Contents (Elt F) → (⟨S800000x1, .i32⟩ : BufTy).Contents (Elt F) → (⟨S800000x32, .f32⟩ : BufTy).Contents (Elt F) → (⟨S50000x32, .f32⟩ : BufTy).Contents (Elt F)),
    StableHlo.nullary main_cst_15 (constant S_ .f32 0x3F800000#32),
    StableHlo.unary main_cst_15 main_v115 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v116 (broadcastInDim S50000 ![] bcast_S_S50000 : (⟨S_, .f32⟩ : BufTy).Contents (Elt F) → (⟨S50000, .f32⟩ : BufTy).Contents (Elt F)),
    StableHlo.unary main_v3 main_v117 (broadcastInDim S800000x1 ![0] bcast_S800000_S800000x1_0 : (⟨S800000, .i32⟩ : BufTy).Contents (Elt F) → (⟨S800000x1, .i32⟩ : BufTy).Contents (Elt F)),
    StableHlo.ternary main_v116 main_v117 main_v115 main_v118 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_17 (constant S_ .f32 0x3F800000#32),
    StableHlo.unary main_cst_17 main_v119 (broadcastInDim S50000 ![] bcast_S_S50000 : (⟨S_, .f32⟩ : BufTy).Contents (Elt F) → (⟨S50000, .f32⟩ : BufTy).Contents (Elt F)),
    StableHlo.binary main_v118 main_v119 main_v120 (maximumf : (⟨S50000, .f32⟩ : BufTy).Contents (Elt F) → (⟨S50000, .f32⟩ : BufTy).Contents (Elt F) → (⟨S50000, .f32⟩ : BufTy).Contents (Elt F)),
    StableHlo.unary main_v120 main_v121 (broadcastInDim S50000x1 ![0] bcast_S50000_S50000x1_0 : (⟨S50000, .f32⟩ : BufTy).Contents (Elt F) → (⟨S50000x1, .f32⟩ : BufTy).Contents (Elt F)),
    StableHlo.unary main_v121 main_v122 (broadcastInDim S50000x32 ![0, 1] bcast_S50000x1_S50000x32_0_1 : (⟨S50000x1, .f32⟩ : BufTy).Contents (Elt F) → (⟨S50000x32, .f32⟩ : BufTy).Contents (Elt F)),
    StableHlo.binary main_v114 main_v122 main_v123 (Host.divf : (⟨S50000x32, .f32⟩ : BufTy).Contents (Elt F) → (⟨S50000x32, .f32⟩ : BufTy).Contents (Elt F) → (⟨S50000x32, .f32⟩ : BufTy).Contents (Elt F)) ]
theorem opsH_sub : (opsH : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- 18 operations: the read-out layers. -/
abbrev opsI : List (HloOp τ sig (Elt F)) :=
  [ StableHlo.binary main_v123 main_arg22 main_v124 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg23 main_v125 (broadcastInDim S1x32 ![1] bcast_S32_S1x32_1 : (⟨S32, .f32⟩ : BufTy).Contents (Elt F) → (⟨S1x32, .f32⟩ : BufTy).Contents (Elt F)),
    StableHlo.unary main_v125 main_v126 (broadcastInDim S50000x32 ![0, 1] bcast_S1x32_S50000x32_0_1 : (⟨S1x32, .f32⟩ : BufTy).Contents (Elt F) → (⟨S50000x32, .f32⟩ : BufTy).Contents (Elt F)),
    StableHlo.binary main_v124 main_v126 main_v127 (addf : (⟨S50000x32, .f32⟩ : BufTy).Contents (Elt F) → (⟨S50000x32, .f32⟩ : BufTy).Contents (Elt F) → (⟨S50000x32, .f32⟩ : BufTy).Contents (Elt F)),
    StableHlo.TRef.nullary main_call10.cst (constant S_ .f32 0x00000000#32),
    StableHlo.TRef.unary main_call10.cst main_call10.v0 (broadcastInDim S50000x32 ![] bcast_S_S50000x32),
    StableHlo.TRef.binary (.of main_v127) main_call10.v0 main_call10.v1 maximumf,
    StableHlo.binary main_v128 main_arg24 main_v129 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    StableHlo.unary main_arg25 main_v130 (broadcastInDim S1x32 ![1] bcast_S32_S1x32_1 : (⟨S32, .f32⟩ : BufTy).Contents (Elt F) → (⟨S1x32, .f32⟩ : BufTy).Contents (Elt F)),
    StableHlo.unary main_v130 main_v131 (broadcastInDim S50000x32 ![0, 1] bcast_S1x32_S50000x32_0_1 : (⟨S1x32, .f32⟩ : BufTy).Contents (Elt F) → (⟨S50000x32, .f32⟩ : BufTy).Contents (Elt F)),
    StableHlo.binary main_v129 main_v131 main_v132 (addf : (⟨S50000x32, .f32⟩ : BufTy).Contents (Elt F) → (⟨S50000x32, .f32⟩ : BufTy).Contents (Elt F) → (⟨S50000x32, .f32⟩ : BufTy).Contents (Elt F)),
    StableHlo.TRef.nullary main_call11.cst (constant S_ .f32 0x00000000#32),
    StableHlo.TRef.unary main_call11.cst main_call11.v0 (broadcastInDim S50000x32 ![] bcast_S_S50000x32),
    StableHlo.TRef.binary (.of main_v132) main_call11.v0 main_call11.v1 maximumf,
    StableHlo.binary main_v133 main_arg26 main_v134 ((fun l r => Host.dotGeneral dot_S50000x32_S32x4_S50000x4_1_0_0_1_n_n none l r) : (⟨S50000x32, .f32⟩ : BufTy).Contents (Elt F) → (⟨S32x4, .f32⟩ : BufTy).Contents (Elt F) → (⟨S50000x4, .f32⟩ : BufTy).Contents (Elt F)),
    StableHlo.unary main_arg27 main_v135 (broadcastInDim S1x4 ![1] bcast_S4_S1x4_1 : (⟨S4, .f32⟩ : BufTy).Contents (Elt F) → (⟨S1x4, .f32⟩ : BufTy).Contents (Elt F)),
    StableHlo.unary main_v135 main_v136 (broadcastInDim S50000x4 ![0, 1] bcast_S1x4_S50000x4_0_1 : (⟨S1x4, .f32⟩ : BufTy).Contents (Elt F) → (⟨S50000x4, .f32⟩ : BufTy).Contents (Elt F)),
    StableHlo.binary main_v134 main_v136 main_v137 (addf : (⟨S50000x4, .f32⟩ : BufTy).Contents (Elt F) → (⟨S50000x4, .f32⟩ : BufTy).Contents (Elt F) → (⟨S50000x4, .f32⟩ : BufTy).Contents (Elt F)) ]
theorem opsI_sub : (opsI : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- The whole program, in order. -/
abbrev ops : List (HloOp τ sig (Elt F)) :=
  opsA ++ opsB ++ opsC ++ opsD ++ opsE ++ opsF ++ opsG1 ++ opsG2 ++ opsH ++ opsI

end Cert.ReferenceIdeal.Ops

end
-- ==== Proof.LibKeepAll.lean ====
/-
  A buffer that no operation of a list writes keeps its contents across the list — for lists that also hold
  operations of any number of operands.
-/
import Idealize.ShloMosaic.Lib.StableHlo.Run

namespace Cert.LibKeepAll

open Idealize.ShloMosaic

/-- Closes `after ops X (devRef b) = X (devRef b)` for a literal list `ops` (named by the identifier given) none of
    whose operations writes `b`: each operation writes one literal reference, and it differs from `b`. -/
macro "kept_all" ops:ident : tactic => `(tactic|
  exact StableHlo.after_of_forall_not_mem _ _ (List.forall_iff_forall_mem.mp (by
    simp only [$ops:ident, List.flatten_cons, List.flatten_nil, List.append_nil, List.cons_append, List.nil_append,
      List.Forall, StableHlo.nullary_writes, StableHlo.unary_writes, StableHlo.binary_writes, StableHlo.ternary_writes,
      StableHlo.quaternary_writes, StableHlo.reshape_writes, StableHlo.binaryIndexed_writes, StableHlo.nary_writes,
      StableHlo.unaryIndexed_writes, Finset.mem_singleton]
    repeat' apply And.intro
    all_goals exact StableHlo.devRef_ne_of_ne (by decide))))

end Cert.LibKeepAll
-- ==== Proof.RefRun.lean ====
/-
  The reference program as one straight line of host operations, and its run: every weakly fair execution ends
  with each buffer at the fold of the operations' results over the launch contents; no operation writes an argument.
-/
import proofs.«419797_j47588237639715_2_alg».proof.Proof.RefOps
import proofs.«419797_j47588237639715_2_alg».proof.Proof.LibKeepAll
import Idealize.ShloMosaic.Lib.StableHlo.Run
import Mathlib.Data.List.Basic

noncomputable section

namespace Cert.ReferenceIdeal.Run

open Cert.ReferenceIdeal Cert.ReferenceIdeal.Gen Cert.ReferenceIdeal.Ops Idealize.ShloMosaic Idealize.ShloMosaic.TcCoe Idealize.SL.Sem Idealize.ShloMosaic.StableHlo

variable {F : FTy → Type} [FloatOps F]

/-- The contents after two lines run one after the other: the second line's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxRecDepth 8192 in
/-- The first window is the first three stages. -/
theorem main_part0_eq (c : Dev nD) : main_part0 (F := F) c = seq (opsA ++ opsB ++ opsC) := rfl

set_option maxRecDepth 8192 in
/-- The second window is the next four stages. -/
theorem main_part1_eq (c : Dev nD) : main_part1 (F := F) c = seq (opsD ++ opsE ++ opsF ++ opsG1) := rfl

set_option maxRecDepth 8192 in
/-- The third window is the last three stages. -/
theorem main_part2_eq (c : Dev nD) : main_part2 (F := F) c = seq (opsG2 ++ opsH ++ opsI) := rfl

/-- The ten stages, grouped by window. -/
theorem ops_split : (ops : List (HloOp τ sig (Elt F)))
    = (opsA ++ opsB ++ opsC) ++ ((opsD ++ opsE ++ opsF ++ opsG1) ++ (opsG2 ++ opsH ++ opsI)) := by
  simp only [ops, List.append_assoc]

/-- The program is the straight line of its operations. -/
theorem main_eq (c : Dev nD) : main (F := F) c = seq ops := by
  rw [ops_split, seq_append (opsA ++ opsB ++ opsC), seq_append (opsD ++ opsE ++ opsF ++ opsG1), ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨List.forall_append.mpr ⟨List.forall_append.mpr ⟨List.forall_append.mpr ⟨List.forall_append.mpr ⟨opsA_sub, opsB_sub⟩, opsC_sub⟩,
      opsD_sub⟩, opsE_sub⟩, opsF_sub⟩, opsG1_sub⟩, opsG2_sub⟩, opsH_sub⟩, opsI_sub⟩

/-- On every device, for any float values, from any memory with zero counters: every weakly fair execution of the
    program terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A buffer none of the stages after the first writes. -/
structure KeptFromB (F : FTy → Type) [FloatOps F] (b : DevRef τ sig) : Prop where
  kB : ∀ V : Valuation τ sig (Elt F), after opsB V b = V b
  kC : ∀ V : Valuation τ sig (Elt F), after opsC V b = V b
  kD : ∀ V : Valuation τ sig (Elt F), after opsD V b = V b
  kE : ∀ V : Valuation τ sig (Elt F), after opsE V b = V b
  kF : ∀ V : Valuation τ sig (Elt F), after opsF V b = V b
  kG1 : ∀ V : Valuation τ sig (Elt F), after opsG1 V b = V b
  kG2 : ∀ V : Valuation τ sig (Elt F), after opsG2 V b = V b
  kH : ∀ V : Valuation τ sig (Elt F), after opsH V b = V b
  kI : ∀ V : Valuation τ sig (Elt F), after opsI V b = V b

/-- A buffer no stage writes. -/
structure KeptAll (F : FTy → Type) [FloatOps F] (b : DevRef τ sig) : Prop where
  kA : ∀ V : Valuation τ sig (Elt F), after opsA V b = V b
  kB : ∀ V : Valuation τ sig (Elt F), after opsB V b = V b
  kC : ∀ V : Valuation τ sig (Elt F), after opsC V b = V b
  kD : ∀ V : Valuation τ sig (Elt F), after opsD V b = V b
  kE : ∀ V : Valuation τ sig (Elt F), after opsE V b = V b
  kF : ∀ V : Valuation τ sig (Elt F), after opsF V b = V b
  kG1 : ∀ V : Valuation τ sig (Elt F), after opsG1 V b = V b
  kG2 : ∀ V : Valuation τ sig (Elt F), after opsG2 V b = V b
  kH : ∀ V : Valuation τ sig (Elt F), after opsH V b = V b
  kI : ∀ V : Valuation τ sig (Elt F), after opsI V b = V b

namespace KeptFromB

variable {b : DevRef τ sig} (h : KeptFromB F b) (Y : Valuation τ sig (Elt F))
include h

/-! The buffer's contents after the stages from the second up to a given one, from any contents. -/
theorem toB : after opsB Y b = Y b := by rw [h.kB]
theorem toC : after opsC (after opsB Y) b = Y b := by rw [h.kC, h.kB]
theorem toD : after opsD (after opsC (after opsB Y)) b = Y b := by rw [h.kD, h.kC, h.kB]
theorem toE : after opsE (after opsD (after opsC (after opsB Y))) b = Y b := by rw [h.kE, h.kD, h.kC, h.kB]
theorem toF : after opsF (after opsE (after opsD (after opsC (after opsB Y)))) b = Y b := by rw [h.kF, h.kE, h.kD, h.kC, h.kB]
theorem toG1 : after opsG1 (after opsF (after opsE (after opsD (after opsC (after opsB Y))))) b = Y b := by rw [h.kG1, h.kF, h.kE, h.kD, h.kC, h.kB]
theorem toG2 : after opsG2 (after opsG1 (after opsF (after opsE (after opsD (after opsC (after opsB Y)))))) b = Y b := by rw [h.kG2, h.kG1, h.kF, h.kE, h.kD, h.kC, h.kB]
theorem toH : after opsH (after opsG2 (after opsG1 (after opsF (after opsE (after opsD (after opsC (after opsB Y))))))) b = Y b := by rw [h.kH, h.kG2, h.kG1, h.kF, h.kE, h.kD, h.kC, h.kB]
theorem toI : after opsI (after opsH (after opsG2 (after opsG1 (after opsF (after opsE (after opsD (after opsC (after opsB Y)))))))) b = Y b := by rw [h.kI, h.kH, h.kG2, h.kG1, h.kF, h.kE, h.kD, h.kC, h.kB]

end KeptFromB

namespace KeptAll

variable {b : DevRef τ sig} (h : KeptAll F b) (X : Valuation τ sig (Elt F))
include h

/-! The buffer's contents after the stages up to a given one. -/
theorem atA : after opsA X b = X b := by rw [h.kA]
theorem atB : after opsB (after opsA X) b = X b := by rw [h.kB, h.kA]
theorem atC : after opsC (after opsB (after opsA X)) b = X b := by rw [h.kC, h.kB, h.kA]
theorem atD : after opsD (after opsC (after opsB (after opsA X))) b = X b := by rw [h.kD, h.kC, h.kB, h.kA]
theorem atE : after opsE (after opsD (after opsC (after opsB (after opsA X)))) b = X b := by rw [h.kE, h.kD, h.kC, h.kB, h.kA]
theorem atF : after opsF (after opsE (after opsD (after opsC (after opsB (after opsA X))))) b = X b := by rw [h.kF, h.kE, h.kD, h.kC, h.kB, h.kA]
theorem atG1 : after opsG1 (after opsF (after opsE (after opsD (after opsC (after opsB (after opsA X)))))) b = X b := by rw [h.kG1, h.kF, h.kE, h.kD, h.kC, h.kB, h.kA]
theorem atG2 : after opsG2 (after opsG1 (after opsF (after opsE (after opsD (after opsC (after opsB (after opsA X))))))) b = X b := by rw [h.kG2, h.kG1, h.kF, h.kE, h.kD, h.kC, h.kB, h.kA]
theorem atH : after opsH (after opsG2 (after opsG1 (after opsF (after opsE (after opsD (after opsC (after opsB (after opsA X)))))))) b = X b := by rw [h.kH, h.kG2, h.kG1, h.kF, h.kE, h.kD, h.kC, h.kB, h.kA]
theorem atI : after opsI (after opsH (after opsG2 (after opsG1 (after opsF (after opsE (after opsD (after opsC (after opsB (after opsA X))))))))) b = X b := by rw [h.kI, h.kH, h.kG2, h.kG1, h.kF, h.kE, h.kD, h.kC, h.kB, h.kA]

/-- Kept by the whole line. -/
theorem all : after ops X b = X b := by
  simp only [ops, after_append]
  exact h.atI X

end KeptAll

open Cert.LibKeepAll

/-- Proves `KeptFromB F b` for a literal buffer none of the stages after the first writes. -/
macro "kept_from_B" : tactic => `(tactic|
  exact ⟨fun _ => by kept_all opsB, fun _ => by kept_all opsC, fun _ => by kept_all opsD, fun _ => by kept_all opsE, fun _ => by kept_all opsF, fun _ => by kept_all opsG1, fun _ => by kept_all opsG2, fun _ => by kept_all opsH, fun _ => by kept_all opsI⟩)

/-- Proves `KeptAll F b` for a literal buffer no stage writes. -/
macro "kept_ten" : tactic => `(tactic|
  exact ⟨fun _ => by kept_all opsA, fun _ => by kept_all opsB, fun _ => by kept_all opsC, fun _ => by kept_all opsD, fun _ => by kept_all opsE, fun _ => by kept_all opsF, fun _ => by kept_all opsG1, fun _ => by kept_all opsG2, fun _ => by kept_all opsH, fun _ => by kept_all opsI⟩)

/-! No operation writes an argument. -/
theorem arg0_keptAll : KeptAll F (main_arg0 : DevRef τ sig) := by kept_ten
theorem arg1_keptAll : KeptAll F (main_arg1 : DevRef τ sig) := by kept_ten
theorem arg2_keptAll : KeptAll F (main_arg2 : DevRef τ sig) := by kept_ten
theorem arg3_keptAll : KeptAll F (main_arg3 : DevRef τ sig) := by kept_ten
theorem arg4_keptAll : KeptAll F (main_arg4 : DevRef τ sig) := by kept_ten
theorem arg5_keptAll : KeptAll F (main_arg5 : DevRef τ sig) := by kept_ten
theorem arg6_keptAll : KeptAll F (main_arg6 : DevRef τ sig) := by kept_ten
theorem arg7_keptAll : KeptAll F (main_arg7 : DevRef τ sig) := by kept_ten
theorem arg8_keptAll : KeptAll F (main_arg8 : DevRef τ sig) := by kept_ten
theorem arg9_keptAll : KeptAll F (main_arg9 : DevRef τ sig) := by kept_ten
theorem arg10_keptAll : KeptAll F (main_arg10 : DevRef τ sig) := by kept_ten
theorem arg11_keptAll : KeptAll F (main_arg11 : DevRef τ sig) := by kept_ten
theorem arg12_keptAll : KeptAll F (main_arg12 : DevRef τ sig) := by kept_ten
theorem arg13_keptAll : KeptAll F (main_arg13 : DevRef τ sig) := by kept_ten
theorem arg14_keptAll : KeptAll F (main_arg14 : DevRef τ sig) := by kept_ten
theorem arg15_keptAll : KeptAll F (main_arg15 : DevRef τ sig) := by kept_ten
theorem arg16_keptAll : KeptAll F (main_arg16 : DevRef τ sig) := by kept_ten
theorem arg17_keptAll : KeptAll F (main_arg17 : DevRef τ sig) := by kept_ten
theorem arg18_keptAll : KeptAll F (main_arg18 : DevRef τ sig) := by kept_ten
theorem arg19_keptAll : KeptAll F (main_arg19 : DevRef τ sig) := by kept_ten
theorem arg20_keptAll : KeptAll F (main_arg20 : DevRef τ sig) := by kept_ten
theorem arg21_keptAll : KeptAll F (main_arg21 : DevRef τ sig) := by kept_ten
theorem arg22_keptAll : KeptAll F (main_arg22 : DevRef τ sig) := by kept_ten
theorem arg23_keptAll : KeptAll F (main_arg23 : DevRef τ sig) := by kept_ten
theorem arg24_keptAll : KeptAll F (main_arg24 : DevRef τ sig) := by kept_ten
theorem arg25_keptAll : KeptAll F (main_arg25 : DevRef τ sig) := by kept_ten
theorem arg26_keptAll : KeptAll F (main_arg26 : DevRef τ sig) := by kept_ten
theorem arg27_keptAll : KeptAll F (main_arg27 : DevRef τ sig) := by kept_ten

theorem arg0_kept (V : Valuation τ sig (Elt F)) : after ops V (main_arg0 : DevRef τ sig) = V (main_arg0 : DevRef τ sig) := arg0_keptAll.all V
theorem arg1_kept (V : Valuation τ sig (Elt F)) : after ops V (main_arg1 : DevRef τ sig) = V (main_arg1 : DevRef τ sig) := arg1_keptAll.all V
theorem arg2_kept (V : Valuation τ sig (Elt F)) : after ops V (main_arg2 : DevRef τ sig) = V (main_arg2 : DevRef τ sig) := arg2_keptAll.all V
theorem arg3_kept (V : Valuation τ sig (Elt F)) : after ops V (main_arg3 : DevRef τ sig) = V (main_arg3 : DevRef τ sig) := arg3_keptAll.all V
theorem arg4_kept (V : Valuation τ sig (Elt F)) : after ops V (main_arg4 : DevRef τ sig) = V (main_arg4 : DevRef τ sig) := arg4_keptAll.all V
theorem arg5_kept (V : Valuation τ sig (Elt F)) : after ops V (main_arg5 : DevRef τ sig) = V (main_arg5 : DevRef τ sig) := arg5_keptAll.all V
theorem arg6_kept (V : Valuation τ sig (Elt F)) : after ops V (main_arg6 : DevRef τ sig) = V (main_arg6 : DevRef τ sig) := arg6_keptAll.all V
theorem arg7_kept (V : Valuation τ sig (Elt F)) : after ops V (main_arg7 : DevRef τ sig) = V (main_arg7 : DevRef τ sig) := arg7_keptAll.all V
theorem arg8_kept (V : Valuation τ sig (Elt F)) : after ops V (main_arg8 : DevRef τ sig) = V (main_arg8 : DevRef τ sig) := arg8_keptAll.all V
theorem arg9_kept (V : Valuation τ sig (Elt F)) : after ops V (main_arg9 : DevRef τ sig) = V (main_arg9 : DevRef τ sig) := arg9_keptAll.all V
theorem arg10_kept (V : Valuation τ sig (Elt F)) : after ops V (main_arg10 : DevRef τ sig) = V (main_arg10 : DevRef τ sig) := arg10_keptAll.all V
theorem arg11_kept (V : Valuation τ sig (Elt F)) : after ops V (main_arg11 : DevRef τ sig) = V (main_arg11 : DevRef τ sig) := arg11_keptAll.all V
theorem arg12_kept (V : Valuation τ sig (Elt F)) : after ops V (main_arg12 : DevRef τ sig) = V (main_arg12 : DevRef τ sig) := arg12_keptAll.all V
theorem arg13_kept (V : Valuation τ sig (Elt F)) : after ops V (main_arg13 : DevRef τ sig) = V (main_arg13 : DevRef τ sig) := arg13_keptAll.all V
theorem arg14_kept (V : Valuation τ sig (Elt F)) : after ops V (main_arg14 : DevRef τ sig) = V (main_arg14 : DevRef τ sig) := arg14_keptAll.all V
theorem arg15_kept (V : Valuation τ sig (Elt F)) : after ops V (main_arg15 : DevRef τ sig) = V (main_arg15 : DevRef τ sig) := arg15_keptAll.all V
theorem arg16_kept (V : Valuation τ sig (Elt F)) : after ops V (main_arg16 : DevRef τ sig) = V (main_arg16 : DevRef τ sig) := arg16_keptAll.all V
theorem arg17_kept (V : Valuation τ sig (Elt F)) : after ops V (main_arg17 : DevRef τ sig) = V (main_arg17 : DevRef τ sig) := arg17_keptAll.all V
theorem arg18_kept (V : Valuation τ sig (Elt F)) : after ops V (main_arg18 : DevRef τ sig) = V (main_arg18 : DevRef τ sig) := arg18_keptAll.all V
theorem arg19_kept (V : Valuation τ sig (Elt F)) : after ops V (main_arg19 : DevRef τ sig) = V (main_arg19 : DevRef τ sig) := arg19_keptAll.all V
theorem arg20_kept (V : Valuation τ sig (Elt F)) : after ops V (main_arg20 : DevRef τ sig) = V (main_arg20 : DevRef τ sig) := arg20_keptAll.all V
theorem arg21_kept (V : Valuation τ sig (Elt F)) : after ops V (main_arg21 : DevRef τ sig) = V (main_arg21 : DevRef τ sig) := arg21_keptAll.all V
theorem arg22_kept (V : Valuation τ sig (Elt F)) : after ops V (main_arg22 : DevRef τ sig) = V (main_arg22 : DevRef τ sig) := arg22_keptAll.all V
theorem arg23_kept (V : Valuation τ sig (Elt F)) : after ops V (main_arg23 : DevRef τ sig) = V (main_arg23 : DevRef τ sig) := arg23_keptAll.all V
theorem arg24_kept (V : Valuation τ sig (Elt F)) : after ops V (main_arg24 : DevRef τ sig) = V (main_arg24 : DevRef τ sig) := arg24_keptAll.all V
theorem arg25_kept (V : Valuation τ sig (Elt F)) : after ops V (main_arg25 : DevRef τ sig) = V (main_arg25 : DevRef τ sig) := arg25_keptAll.all V
theorem arg26_kept (V : Valuation τ sig (Elt F)) : after ops V (main_arg26 : DevRef τ sig) = V (main_arg26 : DevRef τ sig) := arg26_keptAll.all V
theorem arg27_kept (V : Valuation τ sig (Elt F)) : after ops V (main_arg27 : DevRef τ sig) = V (main_arg27 : DevRef τ sig) := arg27_keptAll.all V

/-! The two rows of the edge list are written by the first stage only. -/
theorem v1_keptFromB : KeptFromB F (main_v1 : DevRef τ sig) := by kept_from_B
theorem v3_keptFromB : KeptFromB F (main_v3 : DevRef τ sig) := by kept_from_B

end Cert.ReferenceIdeal.Run

end
-- ==== Proof.RefStageRest.lean ====
import proofs.«419797_j47588237639715_2_alg».proof.Proof.RefOps
import proofs.«419797_j47588237639715_2_alg».proof.Proof.Spec
import proofs.«419797_j47588237639715_2_alg».proof.Proof.LibTypedRef

set_option maxRecDepth 16384

noncomputable section

namespace Cert.ReferenceIdeal.Stage

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

variable (X : Valuation τ sig (Elt Ideal))

/-- The source row of the edge list (row 0) as a vector of position words. -/
def srcT (ei : IVec S2x800000 32) : Cert.Spec.IVec1 800000 :=
  shapeCast S800000 (extractStridedSlice S1x800000 ![0, 0] ei slices_S2x800000_S1x800000_0_0) shapeCasts_S1x800000_S800000

/-- The target row of the edge list (row 1). -/
def dstT (ei : IVec S2x800000 32) : Cert.Spec.IVec1 800000 :=
  shapeCast S800000 (extractStridedSlice S1x800000 ![1, 0] ei slices_S2x800000_S1x800000_1_0) shapeCasts_S1x800000_S800000

/-- The column means of the input. -/
def meanT (x : Cert.Spec.Mat 50000 4) : Cert.Spec.Vec1 4 :=
  Host.divf (Host.reduceAdd x (constant (F := Ideal) S_ .f32 0x00000000#32) reducesTo_S50000x4_S4_d0 h_S_)
    (broadcastInDim S4 ![] bcast_S_S4 (constant (F := Ideal) S_ .f32 0x47435000#32))

/-- The column variances of the input: the mean of the squared deviations from the column means, kept where the
    number of rows less the zero correction is positive. -/
def varT (x : Cert.Spec.Mat 50000 4) : Cert.Spec.Vec1 4 :=
  select
    (broadcastInDim S4 ![] bcast_S_S4
      (cmpf .ogt
        (subf (constant (F := Ideal) S_ .f32 0x47435000#32) (sitofp .f32 (constantI S_ 32 0#32)))
        (constant (F := Ideal) S_ .f32 0x00000000#32)))
    (Host.divf
      (Host.reduceAdd
        (mulf
          (subf x
            (broadcastInDim S50000x4 ![0, 1] bcast_S1x4_S50000x4_0_1
              (Host.divf
                (broadcastInDim S1x4 ![1] bcast_S4_S1x4_1
                  (Host.reduceAdd x (constant (F := Ideal) S_ .f32 0x00000000#32) reducesTo_S50000x4_S4_d0 h_S_))
                (broadcastInDim S1x4 ![] bcast_S_S1x4 (constant (F := Ideal) S_ .f32 0x47435000#32)))))
          (subf x
            (broadcastInDim S50000x4 ![0, 1] bcast_S1x4_S50000x4_0_1
              (Host.divf
                (broadcastInDim S1x4 ![1] bcast_S4_S1x4_1
                  (Host.reduceAdd x (constant (F := Ideal) S_ .f32 0x00000000#32) reducesTo_S50000x4_S4_d0 h_S_))
                (broadcastInDim S1x4 ![] bcast_S_S1x4 (constant (F := Ideal) S_ .f32 0x47435000#32))))))
        (constant (F := Ideal) S_ .f32 0x00000000#32) reducesTo_S50000x4_S4_d0 h_S_)
      (broadcastInDim S4 ![] bcast_S_S4
        (subf (constant (F := Ideal) S_ .f32 0x47435000#32) (sitofp .f32 (constantI S_ 32 0#32)))))
    (broadcastInDim S4 ![] bcast_S_S4 (id (constant (F := Ideal) S_ .f32 0x7FC00000#32)))

/-- A position vector as the column of start indices a row gather reads: a negative word counted from the end. -/
def normCol (idx : Cert.Spec.IVec1 800000) : Cert.Spec.ICol 800000 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32)))
      idx)

/-- A position vector broadcast along a new unit axis is the vector as a column. -/
theorem bcast_col_eq (h : (⟨1, ![800000]⟩ : Shape).BroadcastsInDim ⟨2, ![800000, 1]⟩ ![0]) (idx : Cert.Spec.IVec1 800000) :
    broadcastInDim (⟨2, ![800000, 1]⟩ : Shape) ![0] h idx = Cert.Spec.col idx := by
  funext j
  unfold broadcastInDim Cert.Spec.col
  congr 1
  funext a
  have ha : a = 0 := Subsingleton.elim _ _
  subst ha
  rfl

/-- A vector of node values laid down the rows of a matrix reads, at any entry, the vector at the entry's row. -/
theorem bcast_rows_at {α : Type} {m : Nat} (h1 : (⟨1, ![50000]⟩ : Shape).BroadcastsInDim ⟨2, ![50000, 1]⟩ ![0])
    (h2 : (⟨2, ![50000, 1]⟩ : Shape).BroadcastsInDim ⟨2, ![50000, m]⟩ ![0, 1]) (v : (⟨1, ![50000]⟩ : Shape).Idx → α)
    (i : (⟨2, ![50000, m]⟩ : Shape).Idx) :
    broadcastInDim (⟨2, ![50000, m]⟩ : Shape) ![0, 1] h2 (broadcastInDim (⟨2, ![50000, 1]⟩ : Shape) ![0] h1 v) i = v (ix1 (i 0)) := by
  unfold broadcastInDim
  congr 1
  funext a
  have ha : a = 0 := Subsingleton.elim _ _
  subst ha
  rfl

/-- A table divided entry by entry by the column "count or one", laid along the rows, is the table divided row by row
    by the count column. -/
theorem div_rows {D : Nat}
    (hz1 : (⟨0, ![]⟩ : Shape).BroadcastsInDim ⟨1, ![50000]⟩ ![])
    (h1 : (⟨1, ![50000]⟩ : Shape).BroadcastsInDim ⟨2, ![50000, 1]⟩ ![0])
    (h2 : (⟨2, ![50000, 1]⟩ : Shape).BroadcastsInDim ⟨2, ![50000, D]⟩ ![0, 1])
    (s : Cert.Spec.Mat 50000 D) (cnt : Cert.Spec.Vec1 50000) :
    Host.divf s
      (broadcastInDim (⟨2, ![50000, D]⟩ : Shape) ![0, 1] h2
        (broadcastInDim (⟨2, ![50000, 1]⟩ : Shape) ![0] h1
          (maximumf cnt (broadcastInDim (⟨1, ![50000]⟩ : Shape) ![] hz1 (constant (F := Ideal) S_ .f32 0x3F800000#32)))))
      = Cert.Spec.divCol s (Cert.Spec.cntCol cnt) := by
  funext i
  show Ideal.div (s i) _ = Ideal.div (s i) _
  congr 1
  rw [bcast_rows_at h1 h2]
  rfl

/-- The mean of the incoming messages, as the operations spell it, is the specification's: the scatters' operands are
    the all-zero table, the target column and the all-one vector, and the division is row by row by the count column. -/
theorem agg_eq {D : Nat}
    (ds1 : ScatterDims (⟨1, ![50000]⟩ : Shape) (⟨2, ![800000, 1]⟩ : Shape) (⟨1, ![800000]⟩ : Shape))
    (dsD : ScatterDims (⟨2, ![50000, D]⟩ : Shape) (⟨2, ![800000, 1]⟩ : Shape) (⟨2, ![800000, D]⟩ : Shape))
    (hzD : (⟨0, ![]⟩ : Shape).BroadcastsInDim ⟨2, ![50000, D]⟩ ![])
    (hc : (⟨1, ![800000]⟩ : Shape).BroadcastsInDim ⟨2, ![800000, 1]⟩ ![0])
    (hz1 : (⟨0, ![]⟩ : Shape).BroadcastsInDim ⟨1, ![50000]⟩ ![])
    (ho : (⟨0, ![]⟩ : Shape).BroadcastsInDim ⟨1, ![800000]⟩ ![])
    (h1 : (⟨1, ![50000]⟩ : Shape).BroadcastsInDim ⟨2, ![50000, 1]⟩ ![0])
    (h2 : (⟨2, ![50000, 1]⟩ : Shape).BroadcastsInDim ⟨2, ![50000, D]⟩ ![0, 1])
    (upd : Cert.Spec.Mat 800000 D) (idx : Cert.Spec.IVec1 800000) :
    Host.divf
      (Host.scatterAdd dsD (broadcastInDim (⟨2, ![50000, D]⟩ : Shape) ![] hzD (constant (F := Ideal) S_ .f32 0x00000000#32))
        (broadcastInDim (⟨2, ![800000, 1]⟩ : Shape) ![0] hc idx) upd)
      (broadcastInDim (⟨2, ![50000, D]⟩ : Shape) ![0, 1] h2
        (broadcastInDim (⟨2, ![50000, 1]⟩ : Shape) ![0] h1
          (maximumf
            (Host.scatterAdd ds1 (broadcastInDim (⟨1, ![50000]⟩ : Shape) ![] hz1 (constant (F := Ideal) S_ .f32 0x00000000#32))
              (broadcastInDim (⟨2, ![800000, 1]⟩ : Shape) ![0] hc idx)
              (broadcastInDim (⟨1, ![800000]⟩ : Shape) ![] ho (constant (F := Ideal) S_ .f32 0x3F800000#32)))
            (broadcastInDim (⟨1, ![50000]⟩ : Shape) ![] hz1 (constant (F := Ideal) S_ .f32 0x3F800000#32)))))
      = Cert.Spec.divCol (Host.scatterAdd (F := Ideal) dsD (Cert.Spec.zerosM 50000 D) (Cert.Spec.col idx) upd)
          (Cert.Spec.cntCol (Host.scatterAdd (F := Ideal) ds1 (Cert.Spec.zerosV 50000) (Cert.Spec.col idx) (Cert.Spec.onesV 800000))) := by
  have e0 : broadcastInDim (⟨2, ![50000, D]⟩ : Shape) ![] hzD (constant (F := Ideal) S_ .f32 0x00000000#32) = Cert.Spec.zerosM 50000 D :=
    funext fun _ => rfl
  have e1 : broadcastInDim (⟨1, ![50000]⟩ : Shape) ![] hz1 (constant (F := Ideal) S_ .f32 0x00000000#32) = Cert.Spec.zerosV 50000 :=
    funext fun _ => rfl
  have e2 : broadcastInDim (⟨1, ![800000]⟩ : Shape) ![] ho (constant (F := Ideal) S_ .f32 0x3F800000#32) = Cert.Spec.onesV 800000 :=
    funext fun _ => rfl
  rw [e0, e1, e2, bcast_col_eq hc idx]
  exact div_rows hz1 h1 h2 _ _

theorem A_v1 : after opsA X (main_v1 : DevRef τ sig) = srcT (X (main_arg1 : DevRef τ sig)) := by
  after_results
  rfl

theorem A_v3 : after opsA X (main_v3 : DevRef τ sig) = dstT (X (main_arg1 : DevRef τ sig)) := by
  after_results
  rfl

theorem A_v6 : after opsA X (main_v6 : DevRef τ sig) = meanT (X (main_arg0 : DevRef τ sig)) := by
  after_results
  rfl

set_option maxHeartbeats 2000000 in
theorem A_v7 : after opsA X (main_v7 : DevRef τ sig) = varT (X (main_arg0 : DevRef τ sig)) := by
  after_results_simp
  simp only [Cert.LibTypedRef.ofBuf_toBuf]
  rfl

theorem C_v44 : after opsC X (main_v44 : DevRef τ sig)
    = Host.gather gather_S50000x32_S800000x1_S800000x32_1_0_n_n_0_1_132 (X (main_v37 : DevRef τ sig)) (normCol (X (main_v3 : DevRef τ sig))) := by
  after_results
  rfl

set_option maxHeartbeats 1000000 in
theorem C_v51 : after opsC X (main_v51 : DevRef τ sig)
    = Host.gather gather_S50000x32_S800000x1_S800000x32_1_0_n_n_0_1_132 (X (main_v37 : DevRef τ sig)) (normCol (X (main_v1 : DevRef τ sig))) := by
  after_results_simp
  rfl

theorem E_v80 : after opsE X (main_v80 : DevRef τ sig)
    = Cert.Spec.agg1 scatter_S50000_S800000x1_S800000_n_0_0_1 scatter_S50000x2_S800000x1_S800000x2_1_0_0_1 (X (main_v68 : DevRef τ sig)) (Cert.Spec.col (X (main_v3 : DevRef τ sig))) := by
  after_results
  exact agg_eq _ _ _ _ _ _ _ _ _ _

theorem F_v87 : after opsF X (main_v87 : DevRef τ sig)
    = Host.gather gather_S50000x2_S800000x1_S800000x2_1_0_n_n_0_1_12 (X (main_v80 : DevRef τ sig)) (normCol (X (main_v3 : DevRef τ sig))) := by
  after_results
  rfl

set_option maxHeartbeats 1000000 in
theorem F_v94 : after opsF X (main_v94 : DevRef τ sig)
    = Host.gather gather_S50000x2_S800000x1_S800000x2_1_0_n_n_0_1_12 (X (main_v80 : DevRef τ sig)) (normCol (X (main_v1 : DevRef τ sig))) := by
  after_results_simp
  rfl
theorem H_v123 : after opsH X (main_v123 : DevRef τ sig)
    = Cert.Spec.agg2 scatter_S50000_S800000x1_S800000_n_0_0_1 scatter_S50000x32_S800000x1_S800000x32_1_0_0_1 (X (main_v111 : DevRef τ sig)) (Cert.Spec.col (X (main_v3 : DevRef τ sig))) := by
  after_results
  exact agg_eq _ _ _ _ _ _ _ _ _ _

end Cert.ReferenceIdeal.Stage

end
-- ==== Proof.RefMlpPieces.lean ====
/-
  Two whole-array readings on the plain-operation side.

  The input normalisation is spelled with each per-column vector laid along the second axis of a one-row matrix and
  copied down the rows: at entry (r, c) it is (x(r, c) − mean(c)) · rsqrt(variance(c) + small constant) · gain(c) + offset(c).
  An edge's input row is the two-piece concatenation, along the columns, of the target row and the difference
  source − target: below the first piece's width it reads the target row, from there on the difference.
-/
import Idealize.ShloMosaic.PureOps.Ideal
import Idealize.ShloMosaic.PureOps.Ideal.Laws
import Idealize.ShloMosaic.PureOps.ShapeOps
import Idealize.ShloMosaic.Lib.ValueIdx
import Idealize.ShloMosaic.Lib.IdealHost
import Idealize.ShloMosaic.Lib.KernelVsHost
import Idealize.ShloMosaic.Lib.Pipeline.Value
import proofs.«419797_j47588237639715_2_alg».proof.Proof.Spec
import proofs.«419797_j47588237639715_2_alg».proof.Proof.LibLayer

noncomputable section

namespace Cert.RefMlpPieces

open Idealize.ShloMosaic Idealize.ShloMosaic.ValueIdx

section Norm

variable {R C : Nat}

/-- A vector laid along the second axis of a one-row matrix and copied down the rows reads, at (r, c), the vector at c. -/
theorem rows_of_at (v : Cert.Spec.Vec1 C) (hb1 : (⟨1, ![C]⟩ : Shape).BroadcastsInDim ⟨2, ![1, C]⟩ ![1])
    (hb2 : (⟨2, ![1, C]⟩ : Shape).BroadcastsInDim ⟨2, ![R, C]⟩ ![0, 1]) (r : Fin R) (c : Fin C) :
    broadcastInDim ⟨2, ![R, C]⟩ ![0, 1] hb2 (broadcastInDim ⟨2, ![1, C]⟩ ![1] hb1 v) (ix2 r c) = v (ix1 c) := by
  rw [broadcastInDim_oneRow_apply, Cert.LibLayer.host_row_at]

/-- The reciprocal square root of the variance plus the small constant, at column c. -/
theorem scale_at (var : Cert.Spec.Vec1 C) (hb0 : (⟨0, ![]⟩ : Shape).BroadcastsInDim ⟨1, ![C]⟩ ![]) (c : Fin C) :
    Host.rsqrt (addf var (broadcastInDim ⟨1, ![C]⟩ ![] hb0 (constant ⟨0, ![]⟩ .f32 0x3727C5AC#32))) (ix1 c)
      = Ideal.rsqrt (var (ix1 c) + Cert.Spec.eps) := by
  show Ideal.rsqrt (var (ix1 c) + broadcastInDim ⟨1, ![C]⟩ ![] hb0 (constant (F := Ideal) ⟨0, ![]⟩ .f32 0x3727C5AC#32) (ix1 c)) = _
  rw [broadcastInDim_scalar_apply]
  rfl

/-- The normalisation, at entry (r, c). -/
theorem host_norm_at (x : Cert.Spec.Mat R C) (mu var g b : Cert.Spec.Vec1 C)
    (hb0 : (⟨0, ![]⟩ : Shape).BroadcastsInDim ⟨1, ![C]⟩ ![])
    (hb1 : (⟨1, ![C]⟩ : Shape).BroadcastsInDim ⟨2, ![1, C]⟩ ![1])
    (hb2 : (⟨2, ![1, C]⟩ : Shape).BroadcastsInDim ⟨2, ![R, C]⟩ ![0, 1]) (r : Fin R) (c : Fin C) :
    addf
        (mulf
          (mulf (subf x (broadcastInDim ⟨2, ![R, C]⟩ ![0, 1] hb2 (broadcastInDim ⟨2, ![1, C]⟩ ![1] hb1 mu)))
            (broadcastInDim ⟨2, ![R, C]⟩ ![0, 1] hb2
              (broadcastInDim ⟨2, ![1, C]⟩ ![1] hb1
                (Host.rsqrt (addf var (broadcastInDim ⟨1, ![C]⟩ ![] hb0 (constant ⟨0, ![]⟩ .f32 0x3727C5AC#32)))))))
          (broadcastInDim ⟨2, ![R, C]⟩ ![0, 1] hb2 (broadcastInDim ⟨2, ![1, C]⟩ ![1] hb1 g)))
        (broadcastInDim ⟨2, ![R, C]⟩ ![0, 1] hb2 (broadcastInDim ⟨2, ![1, C]⟩ ![1] hb1 b)) (ix2 r c)
      = Cert.Spec.bnAt x mu var g b r c := by
  rw [addf_apply, mulf_apply, mulf_apply, subf_apply, rows_of_at, rows_of_at, rows_of_at, rows_of_at, scale_at]
  rfl

/-- The normalisation, as a whole array. -/
theorem host_norm_eq (x : Cert.Spec.Mat R C) (mu var g b : Cert.Spec.Vec1 C)
    (hb0 : (⟨0, ![]⟩ : Shape).BroadcastsInDim ⟨1, ![C]⟩ ![])
    (hb1 : (⟨1, ![C]⟩ : Shape).BroadcastsInDim ⟨2, ![1, C]⟩ ![1])
    (hb2 : (⟨2, ![1, C]⟩ : Shape).BroadcastsInDim ⟨2, ![R, C]⟩ ![0, 1]) :
    addf
        (mulf
          (mulf (subf x (broadcastInDim ⟨2, ![R, C]⟩ ![0, 1] hb2 (broadcastInDim ⟨2, ![1, C]⟩ ![1] hb1 mu)))
            (broadcastInDim ⟨2, ![R, C]⟩ ![0, 1] hb2
              (broadcastInDim ⟨2, ![1, C]⟩ ![1] hb1
                (Host.rsqrt (addf var (broadcastInDim ⟨1, ![C]⟩ ![] hb0 (constant ⟨0, ![]⟩ .f32 0x3727C5AC#32)))))))
          (broadcastInDim ⟨2, ![R, C]⟩ ![0, 1] hb2 (broadcastInDim ⟨2, ![1, C]⟩ ![1] hb1 g)))
        (broadcastInDim ⟨2, ![R, C]⟩ ![0, 1] hb2 (broadcastInDim ⟨2, ![1, C]⟩ ![1] hb1 b))
      = Cert.Spec.bnorm x mu var g b :=
  Cert.LibLayer.mat_ext fun r c => by
    rw [host_norm_at]
    rfl

end Norm

section Pair

variable {E D N : Nat}

/-- The target row set beside the difference source − target, at entry (e, k). -/
theorem host_pair_at (hN : N = D + D) (xi xj : Cert.Spec.Mat E D)
    (h : Shape.Concatenates [(⟨2, ![E, D]⟩ : Shape), ⟨2, ![E, D]⟩] ⟨2, ![E, N]⟩ 1) (e : Fin E) (k : Fin N) :
    concatenate (⟨2, ![E, N]⟩ : Shape) 1 [⟨(⟨2, ![E, D]⟩ : Shape), xi⟩, ⟨(⟨2, ![E, D]⟩ : Shape), subf xj xi⟩] h (ix2 e k)
      = Cert.Spec.pairAt xi xj e k := by
  unfold Cert.Spec.pairAt
  by_cases hk : k.val < D
  · rw [dif_pos hk]
    exact concatenate_pair_apply_left 1 xi (subf xj xi) h (ix2 e k) rfl (ix2 e ⟨k.val, hk⟩) (fun b => by
      match b with
      | ⟨0, _⟩ => rfl
      | ⟨1, _⟩ => rfl)
  · have h' : k.val - D < D := by have := k.isLt; omega
    rw [dif_neg hk, dif_pos h']
    rw [concatenate_pair_apply_right 1 xi (subf xj xi) h (ix2 e k) rfl rfl (ix2 e ⟨k.val - D, h'⟩)
      (fun b hb => by
        match b with
        | ⟨0, _⟩ => rfl
        | ⟨1, _⟩ => exact absurd rfl hb)
      (by show k.val - D + D = k.val; omega)]
    rfl

/-- The target row set beside the difference source − target, as a whole array. -/
theorem host_pair_eq (hN : N = D + D) (xi xj : Cert.Spec.Mat E D)
    (h : Shape.Concatenates [(⟨2, ![E, D]⟩ : Shape), ⟨2, ![E, D]⟩] ⟨2, ![E, N]⟩ 1) :
    concatenate (⟨2, ![E, N]⟩ : Shape) 1 [⟨(⟨2, ![E, D]⟩ : Shape), xi⟩, ⟨(⟨2, ![E, D]⟩ : Shape), subf xj xi⟩] h
      = Cert.Spec.pair N xi xj :=
  Cert.LibLayer.mat_ext fun e k => by
    rw [host_pair_at hN]
    rfl

end Pair

end Cert.RefMlpPieces

end
-- ==== Proof.RefStageMlp.lean ====
/-
  The four dense stages of the plain-operation program, each as one function of the arrays it starts from.

  Each stage's result is the composition of its operations. An affine layer spelled as a product plus the bias laid
  along the second axis and copied down the rows is the specification's layer; the maximum with the zero scalar copied
  to every entry is the rectifier; the shift by the column means, the scaling by the reciprocal square root of the
  column variances plus the small constant, the gain and the offset are the specification's normalisation; the target
  rows set beside the difference source − target are the specification's edge input. Contents moved to a value's own
  buffer type and back are unchanged, so the compositions agree with the specification's nests term by term.
-/
import proofs.«419797_j47588237639715_2_alg».proof.Proof.RefOps
import proofs.«419797_j47588237639715_2_alg».proof.Proof.Spec
import proofs.«419797_j47588237639715_2_alg».proof.Proof.LibTypedRef
import proofs.«419797_j47588237639715_2_alg».proof.Proof.LibLayer
import proofs.«419797_j47588237639715_2_alg».proof.Proof.RefMlpPieces

set_option maxRecDepth 16384

noncomputable section

namespace Cert.ReferenceIdeal.Stage

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

variable (X : Valuation τ sig (Elt Ideal))

set_option maxHeartbeats 2000000 in
/-- The embedded nodes: the normalised input through three rectified layers. -/
theorem B_v37 : after opsB X (main_v37 : DevRef τ sig)
    = Cert.Spec.embed (R := 50000) (X (main_arg0 : DevRef τ sig)) (X (main_v6 : DevRef τ sig)) (X (main_v7 : DevRef τ sig)) (X (main_arg2 : DevRef τ sig)) (X (main_arg3 : DevRef τ sig)) (X (main_arg4 : DevRef τ sig)) (X (main_arg5 : DevRef τ sig))
        (X (main_arg6 : DevRef τ sig)) (X (main_arg7 : DevRef τ sig)) (X (main_arg8 : DevRef τ sig)) (X (main_arg9 : DevRef τ sig)) := by
  after_results_simp
  simp only [Cert.LibTypedRef.ofBuf_toBuf]
  rw [Cert.RefMlpPieces.host_norm_eq,
      Cert.LibLayer.host_layer_eq _ rfl rfl rfl rfl rfl rfl, Cert.LibLayer.host_relu_eq,
      Cert.LibLayer.host_layer_eq _ rfl rfl rfl rfl rfl rfl, Cert.LibLayer.host_relu_eq,
      Cert.LibLayer.host_layer_eq _ rfl rfl rfl rfl rfl rfl, Cert.LibLayer.host_relu_eq]
  rfl

set_option maxHeartbeats 1000000 in
/-- The first round of messages: the edge stage on the gathered rows of width thirty-two. -/
theorem D_v68 : after opsD X (main_v68 : DevRef τ sig)
    = Cert.Spec.edgeMlp (E := 800000) (D := 32) 64 (X (main_v44 : DevRef τ sig)) (X (main_v51 : DevRef τ sig)) (X (main_arg10 : DevRef τ sig)) (X (main_arg11 : DevRef τ sig)) (X (main_arg12 : DevRef τ sig))
        (X (main_arg13 : DevRef τ sig)) (X (main_arg14 : DevRef τ sig)) (X (main_arg15 : DevRef τ sig)) := by
  after_results_simp
  simp only [Cert.LibTypedRef.ofBuf_toBuf]
  rw [binary_result]
  rw [binary_result_ne]; rotate_left; decide
  rw [Cert.RefMlpPieces.host_pair_eq (N := 64) (D := 32) rfl,
      Cert.LibLayer.host_layer_eq _ rfl rfl rfl rfl rfl rfl, Cert.LibLayer.host_relu_eq,
      Cert.LibLayer.host_layer_eq _ rfl rfl rfl rfl rfl rfl, Cert.LibLayer.host_relu_eq,
      Cert.LibLayer.host_layer_eq _ rfl rfl rfl rfl rfl rfl, Cert.LibLayer.host_relu_eq]
  rfl

set_option maxHeartbeats 1000000 in
/-- The second round of messages: the edge stage on the gathered rows of width two. -/
theorem G_v111 : after opsG2 (after opsG1 X) (main_v111 : DevRef τ sig)
    = Cert.Spec.edgeMlp (E := 800000) (D := 2) 4 (X (main_v87 : DevRef τ sig)) (X (main_v94 : DevRef τ sig)) (X (main_arg16 : DevRef τ sig)) (X (main_arg17 : DevRef τ sig)) (X (main_arg18 : DevRef τ sig))
        (X (main_arg19 : DevRef τ sig)) (X (main_arg20 : DevRef τ sig)) (X (main_arg21 : DevRef τ sig)) := by
  after_results_simp
  simp only [Cert.LibTypedRef.ofBuf_toBuf]
  rw [binary_result]
  rw [binary_result_ne]; rotate_left; decide
  rw [Cert.RefMlpPieces.host_pair_eq (N := 4) (D := 2) rfl,
      Cert.LibLayer.host_layer_eq _ rfl rfl rfl rfl rfl rfl, Cert.LibLayer.host_relu_eq,
      Cert.LibLayer.host_layer_eq _ rfl rfl rfl rfl rfl rfl, Cert.LibLayer.host_relu_eq,
      Cert.LibLayer.host_layer_eq _ rfl rfl rfl rfl rfl rfl, Cert.LibLayer.host_relu_eq]
  rfl

set_option maxHeartbeats 1000000 in
/-- The read-out: three layers, the first two rectified. -/
theorem I_v137 : after opsI X (main_v137 : DevRef τ sig)
    = Cert.Spec.mlpL (R := 50000) (X (main_v123 : DevRef τ sig)) (X (main_arg22 : DevRef τ sig)) (X (main_arg23 : DevRef τ sig)) (X (main_arg24 : DevRef τ sig)) (X (main_arg25 : DevRef τ sig)) (X (main_arg26 : DevRef τ sig)) (X (main_arg27 : DevRef τ sig)) := by
  after_results_simp
  simp only [Cert.LibTypedRef.ofBuf_toBuf]
  rw [Cert.LibLayer.host_layer_eq _ rfl rfl rfl rfl rfl rfl, Cert.LibLayer.host_relu_eq,
      Cert.LibLayer.host_layer_eq _ rfl rfl rfl rfl rfl rfl, Cert.LibLayer.host_relu_eq,
      Cert.LibLayer.host_layer_eq _ rfl rfl rfl rfl rfl rfl]
  rfl

end Cert.ReferenceIdeal.Stage

end
-- ==== Proof.RefValue.lean ====
import proofs.«419797_j47588237639715_2_alg».proof.Proof.RefStageRest
import proofs.«419797_j47588237639715_2_alg».proof.Proof.RefStageMlp
import proofs.«419797_j47588237639715_2_alg».proof.Proof.RefRun

set_option maxRecDepth 16384

noncomputable section

namespace Cert.ReferenceIdeal.Stage

open Cert.ReferenceIdeal Cert.ReferenceIdeal.Gen Cert.ReferenceIdeal.Ops
open Idealize.ShloMosaic Idealize.ShloMosaic.TcCoe Idealize.SL.Sem Idealize.ShloMosaic.StableHlo Idealize.ShloMosaic.ValueIdx

variable (X : Valuation τ sig (Elt Ideal))

/-- The reference's result is the network of the specification, of the launch contents. -/
theorem value : after ops X (main_v137 : DevRef τ sig)
    = Cert.Spec.out gather_S50000x32_S800000x1_S800000x32_1_0_n_n_0_1_132 gather_S50000x2_S800000x1_S800000x2_1_0_n_n_0_1_12
        scatter_S50000_S800000x1_S800000_n_0_0_1 scatter_S50000x2_S800000x1_S800000x2_1_0_0_1 scatter_S50000x32_S800000x1_S800000x32_1_0_0_1
        (X (main_arg0 : DevRef τ sig)) (meanT (X (main_arg0 : DevRef τ sig))) (varT (X (main_arg0 : DevRef τ sig)))
        (normCol (srcT (X (main_arg1 : DevRef τ sig)))) (normCol (dstT (X (main_arg1 : DevRef τ sig)))) (Cert.Spec.col (dstT (X (main_arg1 : DevRef τ sig))))
        (X (main_arg2 : DevRef τ sig)) (X (main_arg3 : DevRef τ sig)) (X (main_arg4 : DevRef τ sig)) (X (main_arg5 : DevRef τ sig)) (X (main_arg6 : DevRef τ sig)) (X (main_arg7 : DevRef τ sig)) (X (main_arg8 : DevRef τ sig)) (X (main_arg9 : DevRef τ sig)) (X (main_arg10 : DevRef τ sig)) (X (main_arg11 : DevRef τ sig)) (X (main_arg12 : DevRef τ sig)) (X (main_arg13 : DevRef τ sig)) (X (main_arg14 : DevRef τ sig)) (X (main_arg15 : DevRef τ sig)) (X (main_arg16 : DevRef τ sig)) (X (main_arg17 : DevRef τ sig)) (X (main_arg18 : DevRef τ sig)) (X (main_arg19 : DevRef τ sig)) (X (main_arg20 : DevRef τ sig)) (X (main_arg21 : DevRef τ sig)) (X (main_arg22 : DevRef τ sig)) (X (main_arg23 : DevRef τ sig)) (X (main_arg24 : DevRef τ sig)) (X (main_arg25 : DevRef τ sig)) (X (main_arg26 : DevRef τ sig)) (X (main_arg27 : DevRef τ sig)) := by
  have hops : after ops X = after opsI (after opsH (after opsG2 (after opsG1 (after opsF (after opsE (after opsD (after opsC (after opsB (after opsA X))))))))) := by
    simp only [ops, Cert.ReferenceIdeal.Run.after_append]
  rw [Cert.Spec.out, Cert.Spec.msg2, Cert.Spec.msg1, hops]
  -- the read-out, of the second aggregation and its own weights
  rw [I_v137 (after opsH (after opsG2 (after opsG1 (after opsF (after opsE (after opsD (after opsC (after opsB (after opsA X)))))))))]
  rw [Run.arg22_keptAll.atH X, Run.arg23_keptAll.atH X, Run.arg24_keptAll.atH X, Run.arg25_keptAll.atH X, Run.arg26_keptAll.atH X, Run.arg27_keptAll.atH X]
  -- the second aggregation, of the second round of messages and the target row
  rw [H_v123 (after opsG2 (after opsG1 (after opsF (after opsE (after opsD (after opsC (after opsB (after opsA X)))))))), Run.v3_keptFromB.toG2 (after opsA X), A_v3 X]
  -- the second edge stage, of the two gathers and its own weights
  rw [G_v111 (after opsF (after opsE (after opsD (after opsC (after opsB (after opsA X))))))]
  rw [Run.arg16_keptAll.atF X, Run.arg17_keptAll.atF X, Run.arg18_keptAll.atF X, Run.arg19_keptAll.atF X, Run.arg20_keptAll.atF X, Run.arg21_keptAll.atF X]
  -- the gathers of the first aggregation at the two rows
  rw [F_v87 (after opsE (after opsD (after opsC (after opsB (after opsA X))))), F_v94 (after opsE (after opsD (after opsC (after opsB (after opsA X))))), Run.v3_keptFromB.toE (after opsA X), Run.v1_keptFromB.toE (after opsA X), A_v3 X, A_v1 X]
  -- the first aggregation, of the first round of messages and the target row
  rw [E_v80 (after opsD (after opsC (after opsB (after opsA X)))), Run.v3_keptFromB.toD (after opsA X), A_v3 X]
  -- the first edge stage, of the two gathers and its own weights
  rw [D_v68 (after opsC (after opsB (after opsA X)))]
  rw [Run.arg10_keptAll.atC X, Run.arg11_keptAll.atC X, Run.arg12_keptAll.atC X, Run.arg13_keptAll.atC X, Run.arg14_keptAll.atC X, Run.arg15_keptAll.atC X]
  -- the gathers of the embedding at the two rows
  rw [C_v44 (after opsB (after opsA X)), C_v51 (after opsB (after opsA X)), Run.v3_keptFromB.toB (after opsA X), Run.v1_keptFromB.toB (after opsA X), A_v3 X, A_v1 X]
  -- the embedding, of the input, its column means and variances, and its own weights
  rw [B_v37 (after opsA X), A_v6 X, A_v7 X]
  rw [Run.arg0_keptAll.atA X, Run.arg2_keptAll.atA X, Run.arg3_keptAll.atA X, Run.arg4_keptAll.atA X, Run.arg5_keptAll.atA X, Run.arg6_keptAll.atA X, Run.arg7_keptAll.atA X, Run.arg8_keptAll.atA X, Run.arg9_keptAll.atA X]

end Cert.ReferenceIdeal.Stage

end
-- ==== Proof.Bridge.lean ====
/-
  The two programs compute one network: the reference's stages and the kernel program's stages are the same
  functions of the same arguments — the same gathers and scatter-adds under the same dimension numbers, the same
  column statistics and the same index columns, operation for operation.
-/
import proofs.«419797_j47588237639715_2_alg».proof.Proof.Spec
import proofs.«419797_j47588237639715_2_alg».proof.Proof.KHostTake
import proofs.«419797_j47588237639715_2_alg».proof.Proof.RefStageRest

set_option maxRecDepth 16384

noncomputable section

namespace Cert.Proof.Bridge

open Idealize.ShloMosaic Idealize.ShloMosaic.ValueIdx

theorem srcT_eq (ei) : Cert.ReferenceIdeal.Stage.srcT ei = Cert.KernelIdeal.HostValue.srcT ei := rfl
theorem dstT_eq (ei) : Cert.ReferenceIdeal.Stage.dstT ei = Cert.KernelIdeal.HostValue.dstT ei := rfl
theorem meanT_eq (x) : Cert.ReferenceIdeal.Stage.meanT x = Cert.KernelIdeal.HostValue.meanT x := rfl
theorem varT_eq (x) : Cert.ReferenceIdeal.Stage.varT x = Cert.KernelIdeal.HostValue.varT x := rfl
theorem normCol_eq (idx) : Cert.ReferenceIdeal.Stage.normCol idx = Cert.KernelIdeal.HostValue.normCol idx := rfl

theorem g32_eq : Cert.ReferenceIdeal.gather_S50000x32_S800000x1_S800000x32_1_0_n_n_0_1_132 = Cert.KernelIdeal.gather_S50000x32_S800000x1_S800000x32_1_0_n_n_0_1_132 := rfl
theorem g2_eq : Cert.ReferenceIdeal.gather_S50000x2_S800000x1_S800000x2_1_0_n_n_0_1_12 = Cert.KernelIdeal.gather_S50000x2_S800000x1_S800000x2_1_0_n_n_0_1_12 := rfl
theorem s1_eq : Cert.ReferenceIdeal.scatter_S50000_S800000x1_S800000_n_0_0_1 = Cert.KernelIdeal.scatter_S50000_S800000x1_S800000_n_0_0_1 := rfl
theorem s2_eq : Cert.ReferenceIdeal.scatter_S50000x2_S800000x1_S800000x2_1_0_0_1 = Cert.KernelIdeal.scatter_S50000x2_S800000x1_S800000x2_1_0_0_1 := rfl
theorem s32_eq : Cert.ReferenceIdeal.scatter_S50000x32_S800000x1_S800000x32_1_0_0_1 = Cert.KernelIdeal.scatter_S50000x32_S800000x1_S800000x32_1_0_0_1 := rfl

end Cert.Proof.Bridge

end
-- ==== Proof.lean ====
/-
  The certificate. Both programs compute one network over the extended reals (Proof/Spec.lean): the input's
  columns normalised by their mean and variance, three rectified affine layers per node, two rounds of message
  passing — per edge three rectified affine layers of the target node's row beside the difference of the source's
  and the target's rows, per node the mean of the incoming messages — and three affine layers per node to read out.
  The kernel program runs the dense stages as four blocked kernels (a block of rows at a time: a dense stage acts on
  each row by itself, so the blocks tile the whole array) and the gathers and scatter-adds on the host; the reference
  runs everything on the host. The two differ in one place: where an edge's position word names no node, the
  kernel program's row gather fills a marker and the reference's clips the position. The precondition asks that
  every position word name a node (0 ≤ w < 50000), and there the two gathers read the same row. A product into a
  zero accumulator and the host's product are the same sum, and a change of float format is the identity, so each
  dense stage is the same function on both sides; the scatter-adds are applied to equal operands.
  The three frames: the two kernel programs' are the generated ones; the reference's is its run, read off the list of
  its host operations, none of which writes an argument.
-/
import proofs.«419797_j47588237639715_2_alg».proof.Defs
import proofs.«419797_j47588237639715_2_alg».proof.Proof.Gen.Kernel
import proofs.«419797_j47588237639715_2_alg».proof.Proof.Gen.Kernel.Frame
import proofs.«419797_j47588237639715_2_alg».proof.Proof.Gen.KernelIdeal
import proofs.«419797_j47588237639715_2_alg».proof.Proof.Gen.KernelIdeal.Frame
import proofs.«419797_j47588237639715_2_alg».proof.Proof.Gen.ReferenceIdeal
import proofs.«419797_j47588237639715_2_alg».proof.Proof.Gen.Pre_finite_inputs
import proofs.«419797_j47588237639715_2_alg».proof.Proof.KRun
import proofs.«419797_j47588237639715_2_alg».proof.Proof.KValue
import proofs.«419797_j47588237639715_2_alg».proof.Proof.PreRange
import proofs.«419797_j47588237639715_2_alg».proof.Proof.RefRun
import proofs.«419797_j47588237639715_2_alg».proof.Proof.RefValue
import proofs.«419797_j47588237639715_2_alg».proof.Proof.Bridge

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run ends with every buffer at the fold of its operations over the launch
    contents, and no operation writes an argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Run.arg0_kept _),
     (h c Cert.ReferenceIdeal.main_arg1).trans (Cert.ReferenceIdeal.Run.arg1_kept _),
     (h c Cert.ReferenceIdeal.main_arg2).trans (Cert.ReferenceIdeal.Run.arg2_kept _),
     (h c Cert.ReferenceIdeal.main_arg3).trans (Cert.ReferenceIdeal.Run.arg3_kept _),
     (h c Cert.ReferenceIdeal.main_arg4).trans (Cert.ReferenceIdeal.Run.arg4_kept _),
     (h c Cert.ReferenceIdeal.main_arg5).trans (Cert.ReferenceIdeal.Run.arg5_kept _),
     (h c Cert.ReferenceIdeal.main_arg6).trans (Cert.ReferenceIdeal.Run.arg6_kept _),
     (h c Cert.ReferenceIdeal.main_arg7).trans (Cert.ReferenceIdeal.Run.arg7_kept _),
     (h c Cert.ReferenceIdeal.main_arg8).trans (Cert.ReferenceIdeal.Run.arg8_kept _),
     (h c Cert.ReferenceIdeal.main_arg9).trans (Cert.ReferenceIdeal.Run.arg9_kept _),
     (h c Cert.ReferenceIdeal.main_arg10).trans (Cert.ReferenceIdeal.Run.arg10_kept _),
     (h c Cert.ReferenceIdeal.main_arg11).trans (Cert.ReferenceIdeal.Run.arg11_kept _),
     (h c Cert.ReferenceIdeal.main_arg12).trans (Cert.ReferenceIdeal.Run.arg12_kept _),
     (h c Cert.ReferenceIdeal.main_arg13).trans (Cert.ReferenceIdeal.Run.arg13_kept _),
     (h c Cert.ReferenceIdeal.main_arg14).trans (Cert.ReferenceIdeal.Run.arg14_kept _),
     (h c Cert.ReferenceIdeal.main_arg15).trans (Cert.ReferenceIdeal.Run.arg15_kept _),
     (h c Cert.ReferenceIdeal.main_arg16).trans (Cert.ReferenceIdeal.Run.arg16_kept _),
     (h c Cert.ReferenceIdeal.main_arg17).trans (Cert.ReferenceIdeal.Run.arg17_kept _),
     (h c Cert.ReferenceIdeal.main_arg18).trans (Cert.ReferenceIdeal.Run.arg18_kept _),
     (h c Cert.ReferenceIdeal.main_arg19).trans (Cert.ReferenceIdeal.Run.arg19_kept _),
     (h c Cert.ReferenceIdeal.main_arg20).trans (Cert.ReferenceIdeal.Run.arg20_kept _),
     (h c Cert.ReferenceIdeal.main_arg21).trans (Cert.ReferenceIdeal.Run.arg21_kept _),
     (h c Cert.ReferenceIdeal.main_arg22).trans (Cert.ReferenceIdeal.Run.arg22_kept _),
     (h c Cert.ReferenceIdeal.main_arg23).trans (Cert.ReferenceIdeal.Run.arg23_kept _),
     (h c Cert.ReferenceIdeal.main_arg24).trans (Cert.ReferenceIdeal.Run.arg24_kept _),
     (h c Cert.ReferenceIdeal.main_arg25).trans (Cert.ReferenceIdeal.Run.arg25_kept _),
     (h c Cert.ReferenceIdeal.main_arg26).trans (Cert.ReferenceIdeal.Run.arg26_kept _),
     (h c Cert.ReferenceIdeal.main_arg27).trans (Cert.ReferenceIdeal.Run.arg27_kept _)⟩)
    (Cert.ReferenceIdeal.Run.run_main (F := Ideal) m ρ)

/-- The ideal pass rewrote nothing. -/
theorem preserves : Cert.preserves_Kernel_KernelIdeal := trivial

/-- Both programs end at the specification's network of the arguments. -/
theorem algebraic : Cert.algebraic_KernelIdeal_ReferenceIdeal := by
  intro m ρ m' ρ' hpre hagree
  have hr : ∀ c : Dev Cert.KernelIdeal.nD, Cert.Spec.InRange (m ((c.tc : Thread Cert.KernelIdeal.nD Cert.KernelIdeal.τ).loc Cert.KernelIdeal.main_arg1)) := fun c =>
    Cert.Proof.PreRange.inRange_of_fn _ _ _ _ _ _ _ _ _ _ _ _ _ _ _ _ _ _ _ _ _ _ _ _ _ _ _ _ (hpre c)
  refine ⟨fun c => Cert.Spec.out Cert.KernelIdeal.gather_S50000x32_S800000x1_S800000x32_1_0_n_n_0_1_132 Cert.KernelIdeal.gather_S50000x2_S800000x1_S800000x2_1_0_n_n_0_1_12
        Cert.KernelIdeal.scatter_S50000_S800000x1_S800000_n_0_0_1 Cert.KernelIdeal.scatter_S50000x2_S800000x1_S800000x2_1_0_0_1 Cert.KernelIdeal.scatter_S50000x32_S800000x1_S800000x32_1_0_0_1
        (m ((c.tc : Thread Cert.KernelIdeal.nD Cert.KernelIdeal.τ).loc Cert.KernelIdeal.main_arg0)) (Cert.KernelIdeal.HostValue.meanT (m ((c.tc : Thread Cert.KernelIdeal.nD Cert.KernelIdeal.τ).loc Cert.KernelIdeal.main_arg0))) (Cert.KernelIdeal.HostValue.varT (m ((c.tc : Thread Cert.KernelIdeal.nD Cert.KernelIdeal.τ).loc Cert.KernelIdeal.main_arg0))) (Cert.KernelIdeal.HostValue.normCol (Cert.KernelIdeal.HostValue.srcT (m ((c.tc : Thread Cert.KernelIdeal.nD Cert.KernelIdeal.τ).loc Cert.KernelIdeal.main_arg1)))) (Cert.KernelIdeal.HostValue.normCol (Cert.KernelIdeal.HostValue.dstT (m ((c.tc : Thread Cert.KernelIdeal.nD Cert.KernelIdeal.τ).loc Cert.KernelIdeal.main_arg1)))) (Cert.Spec.col (Cert.KernelIdeal.HostValue.dstT (m ((c.tc : Thread Cert.KernelIdeal.nD Cert.KernelIdeal.τ).loc Cert.KernelIdeal.main_arg1))))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)), ?_, ?_⟩
  · exact (θ_run Cert.KernelIdeal.defs _ _).mono
      (fun r h c => ⟨(h c).1.trans (Cert.KernelIdeal.Value.value m ρ c (hr c)), (h c).2⟩)
      (Cert.KernelIdeal.GenRun.run_value (F := Ideal) m ρ)
  · refine (θ_run Cert.ReferenceIdeal.defs _ _).mono (fun r h c => ⟨?_,
      (h c Cert.ReferenceIdeal.main_arg0).trans (Cert.ReferenceIdeal.Run.arg0_kept _),
      (h c Cert.ReferenceIdeal.main_arg1).trans (Cert.ReferenceIdeal.Run.arg1_kept _),
      (h c Cert.ReferenceIdeal.main_arg2).trans (Cert.ReferenceIdeal.Run.arg2_kept _),
      (h c Cert.ReferenceIdeal.main_arg3).trans (Cert.ReferenceIdeal.Run.arg3_kept _),
      (h c Cert.ReferenceIdeal.main_arg4).trans (Cert.ReferenceIdeal.Run.arg4_kept _),
      (h c Cert.ReferenceIdeal.main_arg5).trans (Cert.ReferenceIdeal.Run.arg5_kept _),
      (h c Cert.ReferenceIdeal.main_arg6).trans (Cert.ReferenceIdeal.Run.arg6_kept _),
      (h c Cert.ReferenceIdeal.main_arg7).trans (Cert.ReferenceIdeal.Run.arg7_kept _),
      (h c Cert.ReferenceIdeal.main_arg8).trans (Cert.ReferenceIdeal.Run.arg8_kept _),
      (h c Cert.ReferenceIdeal.main_arg9).trans (Cert.ReferenceIdeal.Run.arg9_kept _),
      (h c Cert.ReferenceIdeal.main_arg10).trans (Cert.ReferenceIdeal.Run.arg10_kept _),
      (h c Cert.ReferenceIdeal.main_arg11).trans (Cert.ReferenceIdeal.Run.arg11_kept _),
      (h c Cert.ReferenceIdeal.main_arg12).trans (Cert.ReferenceIdeal.Run.arg12_kept _),
      (h c Cert.ReferenceIdeal.main_arg13).trans (Cert.ReferenceIdeal.Run.arg13_kept _),
      (h c Cert.ReferenceIdeal.main_arg14).trans (Cert.ReferenceIdeal.Run.arg14_kept _),
      (h c Cert.ReferenceIdeal.main_arg15).trans (Cert.ReferenceIdeal.Run.arg15_kept _),
      (h c Cert.ReferenceIdeal.main_arg16).trans (Cert.ReferenceIdeal.Run.arg16_kept _),
      (h c Cert.ReferenceIdeal.main_arg17).trans (Cert.ReferenceIdeal.Run.arg17_kept _),
      (h c Cert.ReferenceIdeal.main_arg18).trans (Cert.ReferenceIdeal.Run.arg18_kept _),
      (h c Cert.ReferenceIdeal.main_arg19).trans (Cert.ReferenceIdeal.Run.arg19_kept _),
      (h c Cert.ReferenceIdeal.main_arg20).trans (Cert.ReferenceIdeal.Run.arg20_kept _),
      (h c Cert.ReferenceIdeal.main_arg21).trans (Cert.ReferenceIdeal.Run.arg21_kept _),
      (h c Cert.ReferenceIdeal.main_arg22).trans (Cert.ReferenceIdeal.Run.arg22_kept _),
      (h c Cert.ReferenceIdeal.main_arg23).trans (Cert.ReferenceIdeal.Run.arg23_kept _),
      (h c Cert.ReferenceIdeal.main_arg24).trans (Cert.ReferenceIdeal.Run.arg24_kept _),
      (h c Cert.ReferenceIdeal.main_arg25).trans (Cert.ReferenceIdeal.Run.arg25_kept _),
      (h c Cert.ReferenceIdeal.main_arg26).trans (Cert.ReferenceIdeal.Run.arg26_kept _),
      (h c Cert.ReferenceIdeal.main_arg27).trans (Cert.ReferenceIdeal.Run.arg27_kept _)⟩)
      (Cert.ReferenceIdeal.Run.run_main (F := Ideal) m' ρ')
    refine ((h c Cert.ReferenceIdeal.main_v137).trans (Cert.ReferenceIdeal.Stage.value _)).trans ?_
    obtain ⟨e0, e1, e2, e3, e4, e5, e6, e7, e8, e9, e10, e11, e12, e13, e14, e15, e16, e17, e18, e19, e20, e21, e22, e23, e24, e25, e26, e27⟩ := hagree c
    show Cert.Spec.out Cert.ReferenceIdeal.gather_S50000x32_S800000x1_S800000x32_1_0_n_n_0_1_132 Cert.ReferenceIdeal.gather_S50000x2_S800000x1_S800000x2_1_0_n_n_0_1_12
        Cert.ReferenceIdeal.scatter_S50000_S800000x1_S800000_n_0_0_1 Cert.ReferenceIdeal.scatter_S50000x2_S800000x1_S800000x2_1_0_0_1 Cert.ReferenceIdeal.scatter_S50000x32_S800000x1_S800000x32_1_0_0_1
        (m' ((c.tc : Thread Cert.ReferenceIdeal.nD Cert.ReferenceIdeal.τ).loc Cert.ReferenceIdeal.main_arg0)) (Cert.ReferenceIdeal.Stage.meanT (m' ((c.tc : Thread Cert.ReferenceIdeal.nD Cert.ReferenceIdeal.τ).loc Cert.ReferenceIdeal.main_arg0))) (Cert.ReferenceIdeal.Stage.varT (m' ((c.tc : Thread Cert.ReferenceIdeal.nD Cert.ReferenceIdeal.τ).loc Cert.ReferenceIdeal.main_arg0))) (Cert.ReferenceIdeal.Stage.normCol (Cert.ReferenceIdeal.Stage.srcT (m' ((c.tc : Thread Cert.ReferenceIdeal.nD Cert.ReferenceIdeal.τ).loc Cert.ReferenceIdeal.main_arg1)))) (Cert.ReferenceIdeal.Stage.normCol (Cert.ReferenceIdeal.Stage.dstT (m' ((c.tc : Thread Cert.ReferenceIdeal.nD Cert.ReferenceIdeal.τ).loc Cert.ReferenceIdeal.main_arg1)))) (Cert.Spec.col (Cert.ReferenceIdeal.Stage.dstT (m' ((c.tc : Thread Cert.ReferenceIdeal.nD Cert.ReferenceIdeal.τ).loc Cert.ReferenceIdeal.main_arg1))))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)) (m' ((c.tc : Thread Cert.ReferenceIdeal.nD Cert.ReferenceIdeal.τ).loc Cert.ReferenceIdeal.main_arg26)) (m' ((c.tc : Thread Cert.ReferenceIdeal.nD Cert.ReferenceIdeal.τ).loc Cert.ReferenceIdeal.main_arg27)) = _
    rw [e0, e1, e2, e3, e4, e5, e6, e7, e8, e9, e10, e11, e12, e13, e14, e15, e16, e17, e18, e19, e20, e21, e22, e23, e24, e25, e26, e27]
    simp only [Cert.Proof.Bridge.srcT_eq, Cert.Proof.Bridge.dstT_eq, Cert.Proof.Bridge.meanT_eq, Cert.Proof.Bridge.varT_eq,
      Cert.Proof.Bridge.normCol_eq, Cert.Proof.Bridge.g32_eq, Cert.Proof.Bridge.g2_eq, Cert.Proof.Bridge.s1_eq,
      Cert.Proof.Bridge.s2_eq, Cert.Proof.Bridge.s32_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
